-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x30522 : Shape := ⟨2, ![4096, 30522]⟩
abbrev S256x1536 : Shape := ⟨2, ![256, 1536]⟩
abbrev S4096 : Shape := ⟨1, ![4096]⟩
abbrev S256 : Shape := ⟨1, ![256]⟩
abbrev S_ : Shape := ⟨0, ![]⟩

class Facts : Prop where
  bcast_S_S4096x30522 : S_.BroadcastsInDim S4096x30522 (![] : Fin 0 → Fin S4096x30522.rank)
  reducesTo_S4096x30522_S_d0_1 : S4096x30522.ReducesTo [0, 1] S_
  h_S_ : 0 < S_.numel
  bcast_S_S256x1536 : S_.BroadcastsInDim S256x1536 (![] : Fin 0 → Fin S256x1536.rank)
  reducesTo_S256x1536_S_d0_1 : S256x1536.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x30522 .f32) (main_arg1 : FVec F S256x1536 .f32) (main_arg2 : IVec S4096 32) (main_arg3 : IVec S256 32) : IVec S_ 1 :=
  let main_v0 : FVec F S4096x30522 .f32 := Host.absf main_arg0
  let main_cst : FVec F S_ .f32 := constant S_ .f32 0x7F800000#32
  let main_v1 : FVec F S4096x30522 .f32 := broadcastInDim S4096x30522 ![] bcast_S_S4096x30522 main_cst
  let main_v2 : IVec S4096x30522 1 := cmpf .olt main_v0 main_v1
  let main_c : IVec S_ 1 := constantI S_ 1 1#1
  let main_v3 : IVec S_ 1 := (fun x v => Host.reduce IntOp.andi x v reducesTo_S4096x30522_S_d0_1 h_S_) main_v2 main_c
  let main_v4 : FVec F S256x1536 .f32 := Host.absf main_arg1
  let main_cst_0 : FVec F S_ .f32 := constant S_ .f32 0x7F800000#32
  let main_v5 : FVec F S256x1536 .f32 := broadcastInDim S256x1536 ![] bcast_S_S256x1536 main_cst_0
  let main_v6 : IVec S256x1536 1 := cmpf .olt main_v4 main_v5
  let main_c_1 : IVec S_ 1 := constantI S_ 1 1#1
  let main_v7 : IVec S_ 1 := (fun x v => Host.reduce IntOp.andi x v reducesTo_S256x1536_S_d0_1 h_S_) main_v6 main_c_1
  let main_v8 : IVec S_ 1 := andi main_v3 main_v7
  let main_c_2 : IVec S_ 32 := constantI S_ 32 4294967295#32
  let main_v9 : IVec S4096 32 := broadcastInDim S4096 ![] bcast_S_S4096 main_c_2
  let main_v10 : IVec S4096 1 := cmpi .sge main_arg2 main_v9
  let main_c_3 : IVec S_ 32 := constantI S_ 32 30522#32
  let main_v11 : IVec S4096 32 := broadcastInDim S4096 ![] bcast_S_S4096 main_c_3
  let main_v12 : IVec S4096 1 := cmpi .slt main_arg2 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S4096x30522 : Shape := ⟨2, ![4096, 30522]⟩
abbrev S256x1536 : Shape := ⟨2, ![256, 1536]⟩
abbrev S4096 : Shape := ⟨1, ![4096]⟩
abbrev S256 : Shape := ⟨1, ![256]⟩
abbrev S4096x1 : Shape := ⟨2, ![4096, 1]⟩
abbrev S16x1 : Shape := ⟨2, ![16, 1]⟩
abbrev S64x30522 : Shape := ⟨2, ![64, 30522]⟩
abbrev S64x1 : Shape := ⟨2, ![64, 1]⟩
abbrev S8x1 : Shape := ⟨2, ![8, 1]⟩
abbrev S64 : Shape := ⟨1, ![64]⟩
abbrev S1 : Shape := ⟨1, ![1]⟩
abbrev S1x1 : Shape := ⟨2, ![1, 1]⟩
abbrev S_ : Shape := ⟨0, ![]⟩
abbrev S256x1 : Shape := ⟨2, ![256, 1]⟩
abbrev S1x256 : Shape := ⟨2, ![1, 256]⟩
abbrev S1536x256 : Shape := ⟨2, ![1536, 256]⟩
abbrev S256x256 : Shape := ⟨2, ![256, 256]⟩

abbrev nBuf : Space → Nat
  | .hbm => 29
  | .vmem => 12
  | .smem => 0
  | _ => 0

abbrev bufTy : (tb : Table) → Fin (tcTables nBuf tb) → BufTy
  | .hbm, ⟨0, _⟩ => ⟨S4096x30522, .f32⟩
  | .hbm, ⟨1, _⟩ => ⟨S256x1536, .f32⟩
  | .hbm, ⟨2, _⟩ => ⟨S4096, .i32⟩
  | .hbm, ⟨3, _⟩ => ⟨S256, .i32⟩
  | .hbm, ⟨4, _⟩ => ⟨S4096x1, .i32⟩
  | .hbm, ⟨5, _⟩ => ⟨S16x1, .f32⟩
  | .hbm, ⟨6, _⟩ => ⟨S16x1, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S256, .f32⟩
  | .hbm, ⟨24, _⟩ => ⟨S256x1, .f32⟩
  | .hbm, ⟨25, _⟩ => ⟨S1x256, .f32⟩
  | .hbm, ⟨26, _⟩ => ⟨S1x1, .f32⟩
  | .hbm, ⟨27, _⟩ => ⟨S_, .f32⟩
  | .hbm, ⟨28, _⟩ => ⟨S_, .f32⟩
  | .local _ .vmem, ⟨0, _⟩ => ⟨S64x30522, .f32⟩
  | .local _ .vmem, ⟨1, _⟩ => ⟨S64x30522, .f32⟩
  | .local _ .vmem, ⟨2, _⟩ => ⟨S64x1, .i32⟩
  | .local _ .vmem, ⟨3, _⟩ => ⟨S64x1, .i32⟩
  | .local _ .vmem, ⟨4, _⟩ => ⟨S8x1, .f32⟩
  | .local _ .vmem, ⟨5, _⟩ => ⟨S8x1, .f32⟩
  | .local _ .vmem, ⟨6, _⟩ => ⟨S8x1, .f32⟩
  | .local _ .vmem, ⟨7, _⟩ => ⟨S8x1, .f32⟩
  | .local _ .vmem, ⟨8, _⟩ => ⟨S256x1536, .f32⟩
  | .local _ .vmem, ⟨9, _⟩ => ⟨S256x1, .f32⟩
  | .local _ .vmem, ⟨10, _⟩ => ⟨S1x256, .f32⟩
  | .local _ .vmem, ⟨11, _⟩ => ⟨S1x1, .f32⟩
  | _, _ => ⟨S4096x30522, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x30522 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x1536 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  shapeCasts_S4096_S4096x1 : S4096.ShapeCasts S4096x1
  inb_S8x1_S8x1_0_0 : ∀ a, (![0, 0] : Fin 2 → Nat) a + S8x1.size a ≤ S8x1.size a
  h_S8x1 : 0 < S8x1.numel
  inb_S64x30522_S64x30522_0_0 : ∀ a, (![0, 0] : Fin 2 → Nat) a + S64x30522.size a ≤ S64x30522.size a
  h_S64x30522 : 0 < S64x30522.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  reduces_S64x30522_S64 : S64x30522.Reduces [1] S64
  shapeCasts_S64_S64x1 : S64.ShapeCasts S64x1
  broadcasts_S64x1_S64x30522 : S64x1.Broadcasts S64x30522
  iota_S64x30522_d1_w32 : S64x30522.Iotas .tc 32 [1]
  natLt_1_32 : 1 < 32
  reduces_S64x1_S1 : S64x1.Reduces [0] S1
  shapeCasts_S1_S1x1 : S1.ShapeCasts S1x1
  inb_S8x1_S1x1_0_0 : ∀ a, (![0, 0] : Fin 2 → Nat) a + S1x1.size a ≤ S8x1.size a
  h_S1x1 : 0 < S1x1.numel
  shapeCasts_S1x1_S1x1 : S1x1.ShapeCasts S1x1
  slices_S16x1_S1x1_0_0 : S16x1.Slices ![0, 0] S1x1
  shapeCasts_S1x1_S_ : S1x1.ShapeCasts S_
  slices_S16x1_S1x1_8_0 : S16x1.Slices ![8, 0] S1x1
  bcast_S_S256 : S_.BroadcastsInDim S256 (![] : Fin 0 → Fin S256.rank)
  shapeCasts_S256_S256x1 : S256.ShapeCasts S256x1
  shapeCasts_S256_S1x256 : S256.ShapeCasts S1x256
  inb_S256x1536_S256x1536_0_0 : ∀ a, (![0, 0] : Fin 2 → Nat) a + S256x1536.size a ≤ S256x1536.size a
  h_S256x1536 : 0 < S256x1536.numel
  bitsLt_bf16_f32 : FTy.bits .bf16 < FTy.bits .f32
  transposes_S256x1536_p1_0_S1536x256 : S256x1536.Transposes [1, 0] S1536x256
  iota_S256x256_d0_w32 : S256x256.Iotas .tc 32 [0]
  iota_S256x256_d1_w32 : S256x256.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S256x1_S256x256 : S256x1.Broadcasts S256x256
  broadcasts_S1x256_S256x256 : S1x256.Broadcasts S256x256
  reduces_S256x256_S256 : S256x256.Reduces [1] S256
  reduces_S256x1_S1 : S256x1.Reduces [0] S1
  inb_S1x1_S1x1_0_0 : ∀ a, (![0, 0] : Fin 2 → Nat) a + S1x1.size a ≤ S1x1.size a
  dot_S256x1536_S1536x256_S256x256_1_0_0_1_n_n_wf : DotDims.WF S256x1536 S1536x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x30522.size a ≤ S4096x30522.size a
  hwx0_0 : ∀ i : grid0.Coords, EltTy.bits .f32 = 32 ∨ (Rect.block (s := S4096x30522) S64x30522.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S4096x1.size a
  hwx0_1 : ∀ i : grid0.Coords, EltTy.bits .i32 = 32 ∨ (Rect.block (s := S4096x1) S64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S16x1.size a
  hwx0_2 : ∀ i : grid0.Coords, EltTy.bits .f32 = 32 ∨ (Rect.block (s := S16x1) S8x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S16x1.size a
  hwx0_3 : ∀ i : grid0.Coords, EltTy.bits .f32 = 32 ∨ (Rect.block (s := S16x1) S8x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x1536.size a ≤ S256x1536.size a
  hwx1_0 : ∀ i : grid1.Coords, EltTy.bits .f32 = 32 ∨ (Rect.block (s := S256x1536) S256x1536.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S256x1.size a
  hwx1_1 : ∀ i : grid1.Coords, EltTy.bits .f32 = 32 ∨ (Rect.block (s := S256x1) S256x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S256x1536_S1536x256_S256x256_1_0_0_1_n_n : DotDims S256x1536 S1536x256 S256x256 where
  lhsContracting := [1]
  rhsContracting := [0]
  lhsNonContracting := [0]
  rhsNonContracting := [1]
  lhsBatch := []
  rhsBatch := []
  wf := dot_S256x1536_S1536x256_S256x256_1_0_0_1_n_n_wf

abbrev win0_0 : Pipeline.Window sig grid0 :=
  Pipeline.Window.ofSpec (Memref.whole main_arg0) S64x30522.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S8x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S8x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S256x1536.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v17) S256x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x30522 : Shape := ⟨2, ![4096, 30522]⟩
abbrev S256x1536 : Shape := ⟨2, ![256, 1536]⟩
abbrev S4096 : Shape := ⟨1, ![4096]⟩
abbrev S256 : Shape := ⟨1, ![256]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S1536x256 : Shape := ⟨2, ![1536, 256]⟩
abbrev S256x256 : Shape := ⟨2, ![256, 256]⟩
abbrev S256x1 : Shape := ⟨2, ![256, 1]⟩
abbrev S1x256 : Shape := ⟨2, ![1, 256]⟩

abbrev nBuf : Space → Nat
  | .hbm => 141
  | .vmem => 0
  | .smem => 0
  | _ => 0

abbrev hbmTy0_0 (i : Nat) : BufTy := match i % 128 with
  | 0 => ⟨S4096x30522, .f32⟩
  | 1 => ⟨S256x1536, .f32⟩
  | 2 => ⟨S4096, .i32⟩
  | 3 => ⟨S256, .i32⟩
  | 4 => ⟨S_, .f32⟩
  | 5 => ⟨S4096, .f32⟩
  | 6 => ⟨S_, .f32⟩
  | 7 => ⟨S4096, .f32⟩
  | 8 => ⟨S4096, .f32⟩
  | 9 => ⟨S4096x1, .f32⟩
  | 10 => ⟨S4096x30522, .f32⟩
  | 11 => ⟨S4096x30522, .f32⟩
  | 12 => ⟨S4096x30522, .f32⟩
  | 13 => ⟨S_, .f32⟩
  | 14 => ⟨S4096, .f32⟩
  | 15 => ⟨S4096x1, .f32⟩
  | 16 => ⟨S4096x1, .f32⟩
  | 17 => ⟨S4096x30522, .f32⟩
  | 18 => ⟨S4096x30522, .f32⟩
  | 19 => ⟨S_, .i32⟩
  | 20 => ⟨S4096, .i32⟩
  | 21 => ⟨S4096, .i1⟩
  | 22 => ⟨S_, .i32⟩
  | 23 => ⟨S_, .i32⟩
  | 24 => ⟨S4096, .i32⟩
  | 25 => ⟨S4096, .i32⟩
  | 26 => ⟨S4096x1, .i32⟩
  | 27 => ⟨S_, .i32⟩
  | 28 => ⟨S4096x1, .i32⟩
  | 29 => ⟨S4096x1, .i1⟩
  | 30 => ⟨S_, .i32⟩
  | 31 => ⟨S4096x1, .i32⟩
  | 32 => ⟨S4096x1, .i32⟩
  | 33 => ⟨S4096x1, .i32⟩
  | 34 => ⟨S4096x1x1, .i32⟩
  | 35 => ⟨S1, .i32⟩
  | 36 => ⟨S_, .i32⟩
  | 37 => ⟨S4096x1x1, .i32⟩
  | 38 => ⟨S4096x1x1, .i1⟩
  | 39 => ⟨S1x1x1, .i32⟩
  | 40 => ⟨S4096x1x1, .i32⟩
  | 41 => ⟨S4096x1x1, .i1⟩
  | 42 => ⟨S4096x1x1, .i1⟩
  | 43 => ⟨S_, .i1⟩
  | 44 => ⟨S4096x1, .i1⟩
  | 45 => ⟨S4096x1, .f32⟩
  | 46 => ⟨S_, .f32⟩
  | 47 => ⟨S4096x1, .f32⟩
  | 48 => ⟨S4096x1, .f32⟩
  | 49 => ⟨S4096, .f32⟩
  | 50 => ⟨S4096, .f32⟩
  | 51 => ⟨S4096, .i32⟩
  | 52 => ⟨S_, .i32⟩
  | 53 => ⟨S_, .i32⟩
  | 54 => ⟨S_, .i32⟩
  | 55 => ⟨S_, .i32⟩
  | 56 => ⟨S_, .f32⟩
  | 57 => ⟨S_, .f32⟩
  | 58 => ⟨S4096, .f32⟩
  | 59 => ⟨S4096, .f32⟩
  | 60 => ⟨S_, .f32⟩
  | 61 => ⟨S_, .f32⟩
  | 62 => ⟨S_, .f32⟩
  | 63 => ⟨S_, .f32⟩
  | 64 => ⟨S_, .i32⟩
  | 65 => ⟨S256, .i32⟩
  | 66 => ⟨S256, .i1⟩
  | 67 => ⟨S256, .f32⟩
  | 68 => ⟨S1536x256, .f32⟩
  | 69 => ⟨S256x256, .f32⟩
  | 70 => ⟨S_, .i1⟩
  | 71 => ⟨S256x256, .i1⟩
  | 72 => ⟨S256x256, .i32⟩
  | 73 => ⟨S_, .i32⟩
  | 74 => ⟨S256x256, .i32⟩
  | 75 => ⟨S256x256, .i32⟩
  | 76 => ⟨S256x256, .i32⟩
  | 77 => ⟨S256x256, .i1⟩
  | 78 => ⟨S_, .i1⟩
  | 79 => ⟨S256x256, .i1⟩
  | 80 => ⟨S256x256, .i1⟩
  | 81 => ⟨S256x1, .f32⟩
  | 82 => ⟨S1x256, .f32⟩
  | 83 => ⟨S256x256, .f32⟩
  | 84 => ⟨S256x256, .f32⟩
  | 85 => ⟨S256x256, .f32⟩
  | 86 => ⟨S256x256, .f32⟩
  | 87 => ⟨S256x256, .f32⟩
  | 88 => ⟨S256x1, .f32⟩
  | 89 => ⟨S1x256, .f32⟩
  | 90 => ⟨S_, .f32⟩
  | 91 => ⟨S1x256, .f32⟩
  | 92 => ⟨S1x256, .f32⟩
  | 93 => ⟨S256x256, .f32⟩
  | 94 => ⟨S256x256, .f32⟩
  | 95 => ⟨S256x256, .f32⟩
  | 96 => ⟨S256x256, .f32⟩
  | 97 => ⟨S_, .f32⟩
  | 98 => ⟨S256x256, .f32⟩
  | 99 => ⟨S256x256, .f32⟩
  | 100 => ⟨S256x256, .f32⟩
  | 101 => ⟨S256x256, .f32⟩
  | 102 => ⟨S256x256, .i1⟩
  | 103 => ⟨S256x256, .f32⟩
  | 104 => ⟨S256x256, .f32⟩
  | 105 => ⟨S256x256, .f32⟩
  | 106 => ⟨S256x256, .f32⟩
  | 107 => ⟨S256x256, .f32⟩
  | 108 => ⟨S256x256, .f32⟩
  | 109 => ⟨S256x256, .f32⟩
  | 110 => ⟨S256x256, .f32⟩
  | 111 => ⟨S256x256, .f32⟩
  | 112 => ⟨S_, .f32⟩
  | 113 => ⟨S_, .f32⟩
  | 114 => ⟨S_, .f32⟩
  | 115 => ⟨S256x256, .f32⟩
  | 116 => ⟨S256x256, .f32⟩
  | 117 => ⟨S256x256, .f32⟩
  | 118 => ⟨S256x256, .f32⟩
  | 119 => ⟨S256x256, .i1⟩
  | 120 => ⟨S256x256, .f32⟩
  | 121 => ⟨S256x256, .f32⟩
  | 122 => ⟨S256x256, .f32⟩
  | 123 => ⟨S256x256, .f32⟩
  | 124 => ⟨S256x256, .f32⟩
  | 125 => ⟨S256x256, .f32⟩
  | 126 => ⟨S256x256, .f32⟩
  | 127 => ⟨S256x256, .f32⟩
  | _ => ⟨S4096x30522, .f32⟩

abbrev hbmTy0_1 (i : Nat) : BufTy := match i % 128 with
  | 0 => ⟨S256x256, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | _ => ⟨S4096x30522, .f32⟩

abbrev hbmTy (i : Nat) : BufTy := match i / 128 with
  | 0 => hbmTy0_0 i
  | 1 => hbmTy0_1 i
  | _ => ⟨S4096x30522, .f32⟩

abbrev bufTy : (tb : Table) → Fin (tcTables nBuf tb) → BufTy
  | .hbm, ⟨i, _⟩ => hbmTy i
  | _, _ => ⟨S4096x30522, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_v3 : Ref sig .tc := ⟨.hbm, 25, rfl⟩
abbrev main_v4 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_c_1 : Ref sig .tc := ⟨.hbm, 52, rfl⟩
abbrev main_v9 : Ref sig .tc := ⟨.hbm, 53, rfl⟩
abbrev main_c_2 : Ref sig .tc := ⟨.hbm, 54, rfl⟩
abbrev main_v10 : Ref sig .tc := ⟨.hbm, 55, rfl⟩
abbrev main_cst : Ref sig .tc := ⟨.hbm, 56, rfl⟩
abbrev main_call3_v0 : Ref sig .tc := ⟨.hbm, 57, rfl⟩
abbrev main_call3_v1 : Ref sig .tc := ⟨.hbm, 58, rfl⟩
abbrev main_v11 : Ref sig .tc := ⟨.hbm, 59, rfl⟩
abbrev main_cst_3 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_c_4 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_c_5 : Ref sig .tc := ⟨.hbm, 70, rfl⟩
abbrev main_v20 : Ref sig .tc := ⟨.hbm, 71, rfl⟩
abbrev main_call4_v0 : Ref sig .tc := ⟨.hbm, 72, rfl⟩
abbrev main_call4_c : Ref sig .tc := ⟨.hbm, 73, rfl⟩
abbrev main_call4_v1 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_call4_c_0 : Ref sig .tc := ⟨.hbm, 78, rfl⟩
abbrev main_call4_v5 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_cst_6 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_call5_cst : Ref sig .tc := ⟨.hbm, 97, rfl⟩
abbrev main_call5_v0 : Ref sig .tc := ⟨.hbm, 98, rfl⟩
abbrev main_call5_v1 : Ref sig .tc := ⟨.hbm, 99, rfl⟩
abbrev main_call5_v2 : Ref sig .tc := ⟨.hbm, 100, rfl⟩
abbrev main_call5_v3 : Ref sig .tc := ⟨.hbm, 101, rfl⟩
abbrev main_call5_v4 : Ref sig .tc := ⟨.hbm, 102, rfl⟩
abbrev main_call5_v5 : Ref sig .tc := ⟨.hbm, 103, rfl⟩
abbrev main_call5_v6 : Ref sig .tc := ⟨.hbm, 104, rfl⟩
abbrev main_call5_v7 : Ref sig .tc := ⟨.hbm, 105, rfl⟩
abbrev main_call5_v8 : Ref sig .tc := ⟨.hbm, 106, rfl⟩
abbrev main_call5_v9 : Ref sig .tc := ⟨.hbm, 107, rfl⟩
abbrev main_call5_v10 : Ref sig .tc := ⟨.hbm, 108, rfl⟩
abbrev main_call5_v11 : Ref sig .tc := ⟨.hbm, 109, rfl⟩
abbrev main_v37 : Ref sig .tc := ⟨.hbm, 110, rfl⟩
abbrev main_v38 : Ref sig .tc := ⟨.hbm, 111, rfl⟩
abbrev main_cst_7 : Ref sig .tc := ⟨.hbm, 112, rfl⟩
abbrev main_v39 : Ref sig .tc := ⟨.hbm, 113, rfl⟩
abbrev main_call6_cst : Ref sig .tc := ⟨.hbm, 114, rfl⟩
abbrev main_call6_v0 : Ref sig .tc := ⟨.hbm, 115, rfl⟩
abbrev main_call6_v1 : Ref sig .tc := ⟨.hbm, 116, rfl⟩
abbrev main_call6_v2 : Ref sig .tc := ⟨.hbm, 117, rfl⟩
abbrev main_call6_v3 : Ref sig .tc := ⟨.hbm, 118, rfl⟩
abbrev main_call6_v4 : Ref sig .tc := ⟨.hbm, 119, rfl⟩
abbrev main_call6_v5 : Ref sig .tc := ⟨.hbm, 120, rfl⟩
abbrev main_call6_v6 : Ref sig .tc := ⟨.hbm, 121, rfl⟩
abbrev main_call6_v7 : Ref sig .tc := ⟨.hbm, 122, rfl⟩
abbrev main_call6_v8 : Ref sig .tc := ⟨.hbm, 123, rfl⟩
abbrev main_call6_v9 : Ref sig .tc := ⟨.hbm, 124, rfl⟩
abbrev main_call6_v10 : Ref sig .tc := ⟨.hbm, 125, rfl⟩
abbrev main_call6_v11 : Ref sig .tc := ⟨.hbm, 126, rfl⟩
abbrev main_v40 : Ref sig .tc := ⟨.hbm, 127, rfl⟩
abbrev main_v41 : Ref sig .tc := ⟨.hbm, 128, rfl⟩
abbrev main_cst_8 : Ref sig .tc := ⟨.hbm, 129, rfl⟩
abbrev main_v42 : Ref sig .tc := ⟨.hbm, 130, rfl⟩
abbrev main_cst_9 : Ref sig .tc := ⟨.hbm, 131, rfl⟩
abbrev main_v43 : Ref sig .tc := ⟨.hbm, 132, rfl⟩
abbrev main_cst_10 : Ref sig .tc := ⟨.hbm, 133, rfl⟩
abbrev main_v44 : Ref sig .tc := ⟨.hbm, 134, rfl⟩
abbrev main_v45 : Ref sig .tc := ⟨.hbm, 135, rfl⟩
abbrev main_cst_11 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩

abbrev nD : Nat := 1
abbrev τ : Topo := Topo.v7x

variable {F : FTy → Type} [FloatOps F]

class Facts₀ : Prop where
  reducesTo_S4096x30522_S4096_d1 : S4096x30522.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x30522_0_1 : S4096x1.BroadcastsInDim S4096x30522 (![0, 1] : Fin 2 → Fin S4096x30522.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  natLt_1_32 : 1 < 32
  reducesTo_S4096_S_d0 : S4096.ReducesTo [0] S_
  bcast_S_S256 : S_.BroadcastsInDim S256 (![] : Fin 0 → Fin S256.rank)
  transposes_S256x1536_S1536x256_1_0 : S256x1536.Transposes [1, 0] S1536x256
  bcast_S_S256x256 : S_.BroadcastsInDim S256x256 (![] : Fin 0 → Fin S256x256.rank)
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S1x256 : S_.BroadcastsInDim S1x256 (![] : Fin 0 → Fin S1x256.rank)
  reducesTo_S256x256_S_d0_1 : S256x256.ReducesTo [0, 1] S_
  gather_S4096x30522_S4096x1x1_S4096x1_n_1_0_0_1_2_11_wf : GatherDims.WF S4096x30522 S4096x1x1 S4096x1 [] [1] [0] [1] [0] 2 ![1, 1]
  dot_S256x1536_S1536x256_S256x256_1_0_0_1_n_n_wf : DotDims.WF S256x1536 S1536x256 S256x256 [1] [0] [0] [1] [] []

variable [Facts₀]

def gather_S4096x30522_S4096x1x1_S4096x1_n_1_0_0_1_2_11 : GatherDims S4096x30522 S4096x1x1 S4096x1 where
  offsetDims := []
  collapsedSliceDims := [1]
  operandBatchingDims := [0]
  startIndicesBatchingDims := [0]
  startIndexMap := [1]
  indexVectorDim := 2
  sliceSizes := ![1, 1]
  wf := gather_S4096x30522_S4096x1x1_S4096x1_n_1_0_0_1_2_11_wf
def dot_S256x1536_S1536x256_S256x256_1_0_0_1_n_n : DotDims S256x1536 S1536x256 S256x256 where
  lhsContracting := [1]
  rhsContracting := [0]
  lhsNonContracting := [0]
  rhsNonContracting := [1]
  lhsBatch := []
  rhsBatch := []
  wf := dot_S256x1536_S1536x256_S256x256_1_0_0_1_n_n_wf

class Facts : Prop extends Facts₀ where

variable [Facts]
-- ==== Proof.Spec.lean ====
/-
  The two-headed loss as one function of the four argument arrays, over the extended reals.

  LM head, per row. For a row xr of 30522 logits: the row maximum m, taken from -∞; the shifted sum
  s = Σ_v exp (xr v - m); the log-sum-exp m + log s; the logit at the label l, written as the sum over v of xr v where v is
  the label and 0 elsewhere; their difference is the row's negative log-likelihood. A row counts when its label is not -1,
  and its term is the negative log-likelihood times that 0/1 factor. The loss is the sum of the 4096 rows' terms over the
  larger of the number of counted rows and 1. A tile of 64 rows contributes the sum of its rows' terms and the number of its
  counted rows.

  Blank head. With g the Gram matrix of the 256 rows of B and yc, yr two 0/1 vectors (the marks down a column and along a
  row), the pair (i, j) weighs yc i · yr j above the diagonal as a positive pair and yc i · (1 - yr j) as a negative pair;
  the loss is the sum of softplus (-g) over positive pairs and softplus g over negative pairs, over the larger of the pairs'
  total weight and 1, with softplus x = max x 0 + log (1 + exp (-|x|)). In the loss both vectors are the indicator of label 1.
-/
import Idealize.ShloMosaic.PureOps.Ideal
import Idealize.ShloMosaic.Lib.ValueIdx

noncomputable section

namespace Cert.Spec

open Idealize.ShloMosaic Idealize.ShloMosaic.ValueIdx

abbrev SX : Shape := ⟨2, ![4096, 30522]⟩
abbrev SB : Shape := ⟨2, ![256, 1536]⟩
abbrev SL : Shape := ⟨1, ![4096]⟩
abbrev SY : Shape := ⟨1, ![256]⟩

/-! ## The LM head, one row -/

/-- The maximum of a row, from -∞. -/
def rowMax (xr : Fin 30522 → EReal) : EReal :=
  (Finset.univ : Finset (Fin 30522)).fold max ⊥ xr

/-- Σ_v exp (xr v - m). -/
def rowSumExp (xr : Fin 30522 → EReal) : EReal :=
  ∑ v : Fin 30522, Ideal.exp (xr v - rowMax xr)

/-- m + log Σ_v exp (xr v - m). -/
def rowLse (xr : Fin 30522 → EReal) : EReal :=
  rowMax xr + Ideal.log (rowSumExp xr)

/-- The logit at the label: xr v summed over the one v that is the label, 0 when no column is. -/
def picked (xr : Fin 30522 → EReal) (l : BitVec 32) : EReal :=
  ∑ v : Fin 30522, if BitVec.ofNat 32 v.val = l then xr v else 0

/-- The row's negative log-likelihood. -/
def rowNll (xr : Fin 30522 → EReal) (l : BitVec 32) : EReal :=
  rowLse xr - picked xr l

/-- 1 when the label is not -1, else 0. -/
def validF (l : BitVec 32) : EReal := if l = 4294967295#32 then 0 else 1

/-- What one row adds to the sum. -/
def rowTerm (xr : Fin 30522 → EReal) (l : BitVec 32) : EReal := rowNll xr l * validF l

/-! ## The LM head, a tile of 64 rows and the whole array -/

/-- What a tile of 64 rows (logits x, labels l down one column) adds to the sum. -/
def tileSum (x : (⟨2, ![64, 30522]⟩ : Shape).Idx → EReal) (l : (⟨2, ![64, 1]⟩ : Shape).Idx → BitVec 32) : EReal :=
  ∑ j : Fin 64, rowTerm (fun v => x (ix2 j v)) (l (ix2 j (0 : Fin 1)))

/-- The number of counted rows of a tile. -/
def tileCnt (l : (⟨2, ![64, 1]⟩ : Shape).Idx → BitVec 32) : EReal :=
  ∑ j : Fin 64, validF (l (ix2 j (0 : Fin 1)))

def lmSum (X : SX.Idx → EReal) (Lb : SL.Idx → BitVec 32) : EReal :=
  ∑ r : Fin 4096, rowTerm (fun v => X (ix2 r v)) (Lb (ix1 r))

def lmCnt (Lb : SL.Idx → BitVec 32) : EReal :=
  ∑ r : Fin 4096, validF (Lb (ix1 r))

def lmLoss (X : SX.Idx → EReal) (Lb : SL.Idx → BitVec 32) : EReal :=
  Ideal.div (lmSum X Lb) (max (lmCnt Lb) 1)

/-! ## The blank head -/

/-- The Gram matrix of B's rows. -/
def gram (B : SB.Idx → EReal) (i j : Fin 256) : EReal :=
  ∑ k : Fin 1536, B (ix2 i k) * B (ix2 j k)

/-- 1 above the diagonal, else 0. -/
def upper (i j : Fin 256) : EReal := if i.val < j.val then 1 else 0

def posMask (yc yr : Fin 256 → EReal) (i j : Fin 256) : EReal := yc i * yr j * upper i j

def negMask (yc yr : Fin 256 → EReal) (i j : Fin 256) : EReal := yc i * (1 - yr j)

/-- max x 0 + log (1 + exp (-|x|)). -/
def softplus (x : EReal) : EReal := max x 0 + Ideal.log1p (Ideal.exp (-(max x (-x))))

def posSum (B : SB.Idx → EReal) (yc yr : Fin 256 → EReal) : EReal :=
  ∑ i : Fin 256, ∑ j : Fin 256, softplus (-(gram B i j)) * posMask yc yr i j

def negSum (B : SB.Idx → EReal) (yc yr : Fin 256 → EReal) : EReal :=
  ∑ i : Fin 256, ∑ j : Fin 256, softplus (gram B i j) * negMask yc yr i j

def posCnt (yc yr : Fin 256 → EReal) : EReal := ∑ i : Fin 256, ∑ j : Fin 256, posMask yc yr i j

def negCnt (yc yr : Fin 256 → EReal) : EReal := ∑ i : Fin 256, ∑ j : Fin 256, negMask yc yr i j

/-- The blank loss of B under the two mark vectors. -/
def blankOf (B : SB.Idx → EReal) (yc yr : Fin 256 → EReal) : EReal :=
  Ideal.div (posSum B yc yr + negSum B yc yr) (max (posCnt yc yr + negCnt yc yr) 1)

/-- 1 when the label is 1, else 0. -/
def mark (Y : SY.Idx → BitVec 32) (i : Fin 256) : EReal :=
  if Y (ix1 i) = 1#32 then 1 else 0

def blankLoss (B : SB.Idx → EReal) (Y : SY.Idx → BitVec 32) : EReal := blankOf B (mark Y) (mark Y)

/-- The whole loss. -/
def loss (X : SX.Idx → EReal) (B : SB.Idx → EReal) (Lb : SL.Idx → BitVec 32) (Y : SY.Idx → BitVec 32) : EReal :=
  lmLoss X Lb + blankLoss B Y

end Cert.Spec

end
-- ==== Proof.KernelNames.lean ====
/-
  Names for the idealized kernel's arrays, as functions on literal index types: the four argument arrays as launched, the
  two 16 × 1 arrays the LM region leaves (the per-core sums and counts, core k's in row 8k) and the 1 × 1 array the blank
  region leaves.
-/
import proofs.«411738_j39814346834260_2_alg».proof.Proof.Gen.KernelIdeal.Frame
import proofs.«411738_j39814346834260_2_alg».proof.Proof.Spec

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The logits as launched. -/
abbrev argX : Cert.Spec.SX.Idx → EReal := m ((c.tc : Thread nD τ).loc main_arg0)
/-- The blank-head features as launched. -/
abbrev argB : Cert.Spec.SB.Idx → EReal := m ((c.tc : Thread nD τ).loc main_arg1)
/-- The LM labels as launched. -/
abbrev argL : Cert.Spec.SL.Idx → BitVec 32 := m ((c.tc : Thread nD τ).loc main_arg2)
/-- The blank labels as launched. -/
abbrev argY : Cert.Spec.SY.Idx → BitVec 32 := m ((c.tc : Thread nD τ).loc main_arg3)

/-- The LM region's sums array after its run. -/
abbrev sumArr : (⟨2, ![16, 1]⟩ : Shape).Idx → EReal := (dat0 (V1 m ρ) c).arrAt 2 cfg0.N
/-- The LM region's counts array after its run. -/
abbrev cntArr : (⟨2, ![16, 1]⟩ : Shape).Idx → EReal := (dat0 (V1 m ρ) c).arrAt 3 cfg0.N
/-- The blank region's result array after its run. -/
abbrev outArr : (⟨2, ![1, 1]⟩ : Shape).Idx → EReal := (dat1 (V3 m ρ) c).arrAt 3 cfg1.N

/-- The LM region's grid has 64 points: 2 cores × 32 tiles. -/
theorem N0 : cfg0.N = 64 := N_0
theorem lt31 : 31 < cfg0.N := by rw [N0]; decide
theorem lt63 : 63 < cfg0.N := by rw [N0]; decide

/-- The logits block of grid point t of the LM region. -/
abbrev xblk (t : Fin cfg0.N) : (⟨2, ![64, 30522]⟩ : Shape).Idx → EReal := iblk0 (V1 m ρ) c 0 t
/-- The labels block of grid point t of the LM region. -/
abbrev lblk (t : Fin cfg0.N) : (⟨2, ![64, 1]⟩ : Shape).Idx → BitVec 32 := iblk0 (V1 m ρ) c 1 t

end Cert.KernelIdeal.Val

end
-- ==== Proof.KernelHost.lean ====
/-
  The host operations around the two regions, read back. Before the LM region the labels are recast to one column. Between
  the regions the two cores' partial sums (rows 0 and 8 of the sums array) are added, likewise the counts, the quotient of
  the sum by the larger of the count and 1 is formed, and the blank labels' indicator of 1 is laid out as a column and as a
  row. After the blank region its one entry is added to that quotient: the result.
-/
import proofs.«411738_j39814346834260_2_alg».proof.Proof.Gen.KernelIdeal.Frame
import proofs.«411738_j39814346834260_2_alg».proof.Proof.Spec
import proofs.«411738_j39814346834260_2_alg».proof.Proof.KernelNames
import Idealize.ShloMosaic.Lib.StableHlo.Run
import Idealize.ShloMosaic.Lib.Pipeline.Value
import Idealize.ShloMosaic.Lib.ValueLayout
import Idealize.ShloMosaic.Lib.IdealHost
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## The stretches' composed terms, over any contents before the stretch -/

section Ops
variable (X : Valuation τ sig (Elt Ideal))

/-- The marks' column after the middle stretch: the indicator of label 1 as a float, recast to one column. -/
private theorem ops1_v17 :
    (StableHlo.after hostOps1 X (Proc.devRef .tc main_v17) : S256x1.Idx → EReal)
      = shapeCast S256x1 (uitofp (F := Ideal) .f32 (cmpi .eq (X (Proc.devRef .tc main_arg3) : IVec S256 32)
          (broadcastInDim S256 ![] bcast_S_S256 (constantI S_ 32 1#32)))) shapeCasts_S256_S256x1 := by
  after_results; rfl

/-- The marks' row after the middle stretch: the same vector recast to one row. -/
private theorem ops1_v18 :
    (StableHlo.after hostOps1 X (Proc.devRef .tc main_v18) : S1x256.Idx → EReal)
      = shapeCast S1x256 (uitofp (F := Ideal) .f32 (cmpi .eq (X (Proc.devRef .tc main_arg3) : IVec S256 32)
          (broadcastInDim S256 ![] bcast_S_S256 (constantI S_ 32 1#32)))) shapeCasts_S256_S1x256 := by
  after_results; rfl

/-- The LM quotient after the middle stretch: rows 0 and 8 of the sums added, over the larger of rows 0 and 8 of the
    counts added and the constant 1. -/
private theorem ops1_v13 :
    (StableHlo.after hostOps1 X (Proc.devRef .tc main_v13) : S_.Idx → EReal)
      = Host.divf (F := Ideal)
          (addf
            (shapeCast S_ (extractStridedSlice S1x1 ![0, 0] (X (Proc.devRef .tc main_v1_0) : FVec Ideal S16x1 .f32) slices_S16x1_S1x1_0_0) shapeCasts_S1x1_S_)
            (shapeCast S_ (extractStridedSlice S1x1 ![8, 0] (X (Proc.devRef .tc main_v1_0) : FVec Ideal S16x1 .f32) slices_S16x1_S1x1_8_0) shapeCasts_S1x1_S_))
          (maximumf
            (addf
              (shapeCast S_ (extractStridedSlice S1x1 ![0, 0] (X (Proc.devRef .tc main_v1_1) : FVec Ideal S16x1 .f32) slices_S16x1_S1x1_0_0) shapeCasts_S1x1_S_)
              (shapeCast S_ (extractStridedSlice S1x1 ![8, 0] (X (Proc.devRef .tc main_v1_1) : FVec Ideal S16x1 .f32) slices_S16x1_S1x1_8_0) shapeCasts_S1x1_S_))
            (constant (F := Ideal) S_ .f32 0x3F800000#32)) := by
  after_results; rfl

/-- The result after the last stretch: the quotient plus the blank region's one entry read as a scalar. -/
private theorem ops2_v21 :
    (StableHlo.after hostOps2 X (Proc.devRef .tc main_v21) : S_.Idx → EReal)
      = addf (F := Ideal) (s := S_) (φ := .f32) (X (Proc.devRef .tc main_v13))
          (shapeCast (s := S1x1) (α := EReal) S_ (X (Proc.devRef .tc main_v19)) shapeCasts_S1x1_S_) := by
  after_results; rfl

end Ops

/-! ## The layout operations read at an index -/

/-- A one-by-one array read as a scalar is its one entry. -/
private theorem scalar_of_1x1 {α : Type} (x : S1x1.Idx → α) (h : S1x1.ShapeCasts S_) (j : S_.Idx) :
    shapeCast S_ x h j = x (ix2 0 0) := by
  refine shapeCast_apply x h j (ix2 0 0) ?_
  have h1 : (S1x1.rowMajor (ix2 0 0)).val < 1 := (S1x1.rowMajor (ix2 0 0)).isLt
  have h2 : (S_.rowMajor j).val < 1 := (S_.rowMajor j).isLt
  omega

/-- The one-by-one slice at row 0 of a column of 16 is the column's entry 0. -/
private theorem slice_row0 {α : Type} (x : S16x1.Idx → α) :
    extractStridedSlice S1x1 ![0, 0] x slices_S16x1_S1x1_0_0 (ix2 0 0) = x (ix2 0 0) :=
  extractStridedSlice_apply _ x _ (ix2 0 0) (ix2 0 0) (fun a => match a with | ⟨0, _⟩ => rfl | ⟨1, _⟩ => rfl)

/-- The one-by-one slice at row 8 of a column of 16 is the column's entry 8. -/
private theorem slice_row8 {α : Type} (x : S16x1.Idx → α) :
    extractStridedSlice S1x1 ![8, 0] x slices_S16x1_S1x1_8_0 (ix2 0 0) = x (ix2 8 0) :=
  extractStridedSlice_apply _ x _ (ix2 0 0) (ix2 8 0) (fun a => match a with | ⟨0, _⟩ => rfl | ⟨1, _⟩ => rfl)

/-- The one-bit word of "y = 1", read as an unsigned integer, is 1 when y is 1 and 0 otherwise. -/
private theorem markBit (y : BitVec 32) :
    (((IntOp.cmpi .eq y 1#32).toNat : ℝ) : EReal) = if y = 1#32 then 1 else 0 := by
  by_cases h : y = 1#32
  · subst h; simp [IntOp.cmpi]
  · simp [IntOp.cmpi, h]

/-- The float indicator of label 1 at an element. -/
private theorem marks_apply (Y : IVec S256 32) (j : S256.Idx) :
    uitofp (F := Ideal) .f32 (cmpi .eq Y (broadcastInDim S256 ![] bcast_S_S256 (constantI S_ 32 1#32))) j
      = if Y j = 1#32 then 1 else 0 := by
  show (((IntOp.cmpi .eq (Y j) (broadcastInDim S256 ![] bcast_S_S256 (constantI S_ 32 1#32) j)).toNat : ℝ) : EReal) = _
  rw [broadcastInDim_scalar_apply, constantI_apply]
  exact markBit (Y j)

/-! ## The arguments no stretch and no region before the reading point writes -/

/-- The blank labels at the LM region's exit are the labels as launched. -/
private theorem W2_labelsY : (W2 m ρ c (Proc.devRef .tc main_arg3) : IVec S256 32) = argY m c :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

/-- The result buffer at the last boundary: the LM quotient plus the blank region's entry. -/
theorem result_eq : (W5 m ρ c (Proc.devRef .tc main_v21) : (⟨0, ![]⟩ : Shape).Idx → EReal)
    = fun _ => Ideal.div (sumArr m ρ c (ix2 0 0) + sumArr m ρ c (ix2 8 0)) (max (cntArr m ρ c (ix2 0 0) + cntArr m ρ c (ix2 8 0)) 1)
        + outArr m ρ c (ix2 0 0) := by
  have h13 : (W4 m ρ c (Proc.devRef .tc main_v13) : FVec Ideal S_ .f32)
      = StableHlo.after hostOps1 (W2 m ρ c) (Proc.devRef .tc main_v13) := W4_of_ne m ρ c main_v13 (by decide)
  have h19 : (W4 m ρ c (Proc.devRef .tc main_v19) : FVec Ideal S1x1 .f32) = outArr m ρ c := W4_arr m ρ c 3
  have hs : (W2 m ρ c (Proc.devRef .tc main_v1_0) : FVec Ideal S16x1 .f32) = sumArr m ρ c := W2_arr m ρ c 2
  have hc : (W2 m ρ c (Proc.devRef .tc main_v1_1) : FVec Ideal S16x1 .f32) = cntArr m ρ c := W2_arr m ρ c 3
  show (StableHlo.after hostOps2 (W4 m ρ c) (Proc.devRef .tc main_v21) : S_.Idx → EReal) = _
  rw [ops2_v21, h13, ops1_v13, hs, hc, h19]
  funext j
  simp only [hostDivf_apply, addf_apply, maximumf_apply, constant_apply, scalar_of_1x1, slice_row0, slice_row8,
    Ideal.ofBits_one_f32]

/-- The LM region finds the logits as launched. -/
theorem V1_logits : (V1 m ρ c main_arg0 : Cert.Spec.SX.Idx → EReal) = argX m c :=
  calc W1 m ρ c (Proc.devRef .tc main_arg0)
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

/-- The LM region finds the labels as one column. -/
theorem V1_labels : (V1 m ρ c main_v0 : (⟨2, ![4096, 1]⟩ : Shape).Idx → BitVec 32) = fun i => argL m c (ix1 (i 0)) := by
  have e : (V1 m ρ c main_v0 : (⟨2, ![4096, 1]⟩ : Shape).Idx → BitVec 32)
      = shapeCast ⟨2, ![4096, 1]⟩ (argL m c) shapeCasts_S4096_S4096x1 := by
    show StableHlo.after hostOps0 (W0 m ρ c) (Proc.devRef .tc main_v0) = _
    after_results; rfl
  rw [e]; funext i
  refine shapeCast_apply _ _ i (ix1 (i 0)) ?_
  rw [Shape.rowMajor_val_one, Shape.rowMajor_val_two]
  have h1 : (i 1).val < 1 := (i 1).isLt
  show (i 0).val = (i 0).val * 1 + (i 1).val
  omega

/-- The blank region finds the features as launched. -/
theorem V3_feats : (V3 m ρ c main_arg1 : Cert.Spec.SB.Idx → EReal) = argB m c :=
  calc W3 m ρ c (Proc.devRef .tc main_arg1)
    _ = W2 m ρ c (Proc.devRef .tc main_arg1) := StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl

/-- The blank region finds the marks down a column. -/
theorem V3_col : (V3 m ρ c main_v17 : (⟨2, ![256, 1]⟩ : Shape).Idx → EReal) = fun i => Cert.Spec.mark (argY m c) (i 0) := by
  funext i
  show (StableHlo.after hostOps1 (W2 m ρ c) (Proc.devRef .tc main_v17) : S256x1.Idx → EReal) i = _
  rw [ops1_v17, W2_labelsY]
  refine (shapeCast_apply (s := S256) (t := S256x1) _ _ i (ix1 (i 0)) ?_).trans (marks_apply _ _)
  rw [Shape.rowMajor_val_one, Shape.rowMajor_val_two]
  have h1 : (i 1).val < 1 := (i 1).isLt
  show (i 0).val = (i 0).val * 1 + (i 1).val
  omega

/-- The blank region finds the marks along a row. -/
theorem V3_row : (V3 m ρ c main_v18 : (⟨2, ![1, 256]⟩ : Shape).Idx → EReal) = fun i => Cert.Spec.mark (argY m c) (i 1) := by
  funext i
  show (StableHlo.after hostOps1 (W2 m ρ c) (Proc.devRef .tc main_v18) : S1x256.Idx → EReal) i = _
  rw [ops1_v18, W2_labelsY]
  refine (shapeCast_apply (s := S256) (t := S1x256) _ _ i (ix1 (i 1)) ?_).trans (marks_apply _ _)
  rw [Shape.rowMajor_val_one, Shape.rowMajor_val_two]
  have h0 : (i 0).val < 1 := (i 0).isLt
  show (i 1).val = (i 0).val * 256 + (i 1).val
  omega

end Cert.KernelIdeal.Val

end
-- ==== Proof.LmBlocks.lean ====
/-
  The LM region's input blocks, read off the arrays: grid point t takes rows 64 t to 64 t + 63 of the logits, and the same
  rows of the labels column.
-/
import proofs.«411738_j39814346834260_2_alg».proof.Proof.Gen.KernelIdeal.Frame
import proofs.«411738_j39814346834260_2_alg».proof.Proof.Spec
import proofs.«411738_j39814346834260_2_alg».proof.Proof.KernelNames
import proofs.«411738_j39814346834260_2_alg».proof.Proof.KernelHost
import Idealize.ShloMosaic.Lib.Pipeline.Value
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The index maps of the two input windows, decided once over the 64 grid points: grid point t takes block (t, 0) of the
    logits and block (t, 0) of the labels column. -/
private theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry (j, v) of grid point t's logits block is entry (64 t + j, v) of the logits. -/
theorem xblk_apply (t : Fin cfg0.N) (j : Fin 64) (v : Fin 30522) (h : 64 * t.val + j.val < 4096) :
    xblk m ρ c t (ix2 j v) = argX m c (ix2 (⟨64 * t.val + j.val, h⟩ : Fin 4096) v) := by
  obtain ⟨e0, e1, -, -⟩ := idx_facts t
  show iblk0 (V1 m ρ) c 0 t (ix2 j v) = _
  unfold iblk0
  rw [View.read_apply]
  show V1 m ρ c main_arg0 (((cfg0.win 0).blk t).view.emb (ix2 j v)) = _
  rw [V1_logits]
  -- a block's coordinate in the array is (block index) × (block extent) + (coordinate inside the block), per axis
  have he : ((cfg0.win 0).blk t).view.emb (ix2 j v) = ix2 (⟨64 * t.val + j.val, h⟩ : Fin 4096) v := by
    funext a
    apply Fin.ext
    match a with
    | ⟨0, _⟩ => show win0_0.index t (0 : Fin 2) * 64 + 1 * j.val = 64 * t.val + j.val; rw [e0]; omega
    | ⟨1, _⟩ => show win0_0.index t (1 : Fin 2) * 30522 + 1 * v.val = v.val; rw [e1]; omega
  rw [he]

/-- Entry j of grid point t's labels block is label 64 t + j. -/
theorem lblk_apply (t : Fin cfg0.N) (j : Fin 64) (h : 64 * t.val + j.val < 4096) :
    lblk m ρ c t (ix2 j (0 : Fin 1)) = argL m c (ix1 (⟨64 * t.val + j.val, h⟩ : Fin 4096)) := by
  obtain ⟨-, -, e0, e1⟩ := idx_facts t
  show iblk0 (V1 m ρ) c 1 t (ix2 j (0 : Fin 1)) = _
  unfold iblk0
  rw [View.read_apply]
  show V1 m ρ c main_v0 (((cfg0.win 1).blk t).view.emb (ix2 j (0 : Fin 1))) = _
  rw [V1_labels]
  -- the labels column at row r is label r; the row is (block index) × 64 + (row inside the block)
  show argL m c (ix1 ((((cfg0.win 1).blk t).view.emb (ix2 j (0 : Fin 1))) 0)) = _
  have he : (((cfg0.win 1).blk t).view.emb (ix2 j (0 : Fin 1))) 0 = (⟨64 * t.val + j.val, h⟩ : Fin 4096) := by
    apply Fin.ext
    show win0_1.index t (0 : Fin 2) * 64 + 1 * j.val = 64 * t.val + j.val
    rw [e0]; omega
  rw [he]

end Cert.KernelIdeal.Val

end
-- ==== Proof.LmPayload.lean ====
/-
  The LM kernel's arithmetic at its one output entry. The payload added into row 0 of the sums block is, at entry (0, 0),
  the entry read from the block plus the tile's sum of row terms: per row the maximum from -∞, the sum of exponentials of
  the shifted row, the log-sum-exp, the logit where the column number is the label (a select against the column iota,
  summed), their difference times the 0/1 factor "label is not -1", summed over the 64 rows. The payload added into the
  counts block is the entry read plus the number of the tile's rows whose label is not -1. The two reset payloads are 0.
-/
import proofs.«411738_j39814346834260_2_alg».proof.Proof.Gen.KernelIdeal.Frame
import proofs.«411738_j39814346834260_2_alg».proof.Proof.Spec
import proofs.«411738_j39814346834260_2_alg».proof.Proof.KernelNames
import Idealize.ShloMosaic.PureOps.Ideal.Laws
import Idealize.ShloMosaic.Lib.Pipeline.Value
import Idealize.ShloMosaic.Lib.ValueLayout
import Idealize.ShloMosaic.Lib.IdealHost
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

/-! ## Words and layout operations at an index -/

/-- The word 0xFF800000 is -∞. -/
private theorem neg_inf_word : Ideal.ofBits .f32 0xFF800000#32 = (⊥ : EReal) := by
  simp [Ideal.ofBits, Ideal.ieee]

/-- The index over row j with column k inserted. -/
private theorem lift_row (j : Fin 64) (k : Fin 30522) :
    reduces_S64x30522_S64.lift (ix1 j) k = ix2 j k := by
  funext c; apply Fin.ext
  match c with
  | ⟨0, _⟩ => rfl
  | ⟨1, _⟩ => rfl

/-- The index over the one column entry with row k inserted. -/
private theorem lift_col (k : Fin 64) :
    reduces_S64x1_S1.lift (ix1 (0 : Fin 1)) k = ix2 k (0 : Fin 1) := by
  funext c; apply Fin.ext
  match c with
  | ⟨0, _⟩ => rfl
  | ⟨1, _⟩ => rfl

/-- The maximum over axis 1 from the word of -∞, at row j, is the row's maximum from -∞. -/
private theorem rowmax_apply (x0 : FVec Ideal S64x30522 .f32) (j : Fin 64) :
    multiReduction (F := Ideal) .maximumf [1] S64 x0 0xFF800000#32 reduces_S64x30522_S64 (.inl rfl) rfl (ix1 j)
      = Cert.Spec.rowMax (fun v => x0 (ix2 j v)) := by
  refine (Ideal.multiReduction_maximumf_single x0 _ reduces_S64x30522_S64 _ _ (ix1 j)).trans ?_
  have e : (x0 ∘ reduces_S64x30522_S64.lift (ix1 j)) = fun v : Fin 30522 => x0 (ix2 j v) :=
    funext fun k => congrArg x0 (lift_row j k)
  unfold Cert.Spec.rowMax
  rw [Ideal.ofBits_def, neg_inf_word]
  rw [e]
  rfl

/-- The sum over axis 1, at row j, is the sum over the row's columns. -/
private theorem rowsum_apply (y : FVec Ideal S64x30522 .f32) (j : Fin 64) :
    multiReduction (F := Ideal) .add [1] S64 y 0x00000000#32 reduces_S64x30522_S64 (.inl rfl) rfl (ix1 j)
      = ∑ v : Fin 30522, y (ix2 j v) := by
  refine (Ideal.multiReduction_add_single y _ reduces_S64x30522_S64 _ _ (ix1 j)).trans ?_
  exact Finset.sum_congr rfl fun k _ => congrArg y (lift_row j k)

/-- The sum of a column over axis 0 is the sum over its 64 rows. -/
private theorem colsum_apply (y : FVec Ideal S64x1 .f32) :
    multiReduction (F := Ideal) .add [0] S1 y 0x00000000#32 reduces_S64x1_S1 (.inl rfl) rfl (ix1 (0 : Fin 1))
      = ∑ j : Fin 64, y (ix2 j (0 : Fin 1)) := by
  refine (Ideal.multiReduction_add_single y _ reduces_S64x1_S1 _ _ (ix1 (0 : Fin 1))).trans ?_
  exact Finset.sum_congr rfl fun k _ => congrArg y (lift_col k)

/-- "The label is not -1", widened to a word and converted, is the 0/1 factor. -/
private theorem mask_word (l : BitVec 32) :
    (FloatOps.sitofp (F := Ideal) .f32 ((IntOp.cmpi .ne l 4294967295#32).setWidth 32) : EReal) = Cert.Spec.validF l := by
  unfold Cert.Spec.validF
  by_cases h : l = 4294967295#32
  · have hc : IntOp.cmpi .ne l 4294967295#32 = 0#1 := by simp [IntOp.cmpi, h]
    rw [if_pos h, hc]
    show (((((0#1 : BitVec 1).setWidth 32).toInt : ℤ) : ℝ) : EReal) = 0
    rw [show ((0#1 : BitVec 1).setWidth 32).toInt = 0 by decide]
    norm_cast
  · have hb : (l != 4294967295#32) = true := bne_iff_ne.mpr h
    have hc : IntOp.cmpi .ne l 4294967295#32 = 1#1 := by
      show BitVec.ofBool (l != 4294967295#32) = 1#1
      rw [hb]; rfl
    rw [if_neg h, hc]
    show (((((1#1 : BitVec 1).setWidth 32).toInt : ℤ) : ℝ) : EReal) = 1
    rw [show ((1#1 : BitVec 1).setWidth 32).toInt = 1 by decide]
    norm_cast

/-- A select on "the column number is the label" is the `if` on that equation. -/
private theorem pick_word (k : Fin 30522) (l : BitVec 32) (a b : EReal) :
    Scalar.select (IntOp.cmpi .eq (BitVec.ofNat 32 k.val) l) a b = if BitVec.ofNat 32 k.val = l then a else b := by
  by_cases h : BitVec.ofNat 32 k.val = l
  · have hc : IntOp.cmpi .eq (BitVec.ofNat 32 k.val) l = 1#1 := by simp [IntOp.cmpi, h]
    rw [if_pos h, hc, select_one]
  · have hb : (BitVec.ofNat 32 k.val == l) = false := beq_eq_false_iff_ne.mpr h
    have hc : IntOp.cmpi .eq (BitVec.ofNat 32 k.val) l = 0#1 := by
      show BitVec.ofBool (BitVec.ofNat 32 k.val == l) = 0#1
      rw [hb]; rfl
    rw [if_neg h, hc, select_zero]

/-- An [a] array cast to the column [a, 1] reads, at (i, u), the operand at i. -/
private theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
private theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A logarithm at an index is the logarithm of the element. -/
private theorem log_apply {s : Shape} {φ : FTy} (a : FVec Ideal s φ) (i : s.Idx) : log a i = Ideal.log (a i) := rfl

/-! ## The columns the kernel forms, row by row -/

/-- The column of row maxima. -/
private def maxCol (x0 : Vec Ideal S64x30522 .f32) : FVec Ideal S64x1 .f32 :=
  shapeCast S64x1 (multiReduction (F := Ideal) .maximumf [1] S64 x0 0xFF800000#32 reduces_S64x30522_S64 (.inl rfl) rfl)
    shapeCasts_S64_S64x1

private theorem maxCol_apply (x0 : Vec Ideal S64x30522 .f32) (j : Fin 64) :
    maxCol x0 (ix2 j (0 : Fin 1)) = Cert.Spec.rowMax (fun v => x0 (ix2 j v)) := by
  unfold maxCol
  exact (shapeCast_col_apply _ _ j 0).trans (rowmax_apply x0 j)

/-- The column of the rows' sums of exponentials of the shifted logits. -/
private def sumExpCol (x0 : Vec Ideal S64x30522 .f32) : FVec Ideal S64x1 .f32 :=
  shapeCast S64x1
    (multiReduction (F := Ideal) .add [1] S64
      (exp (subf x0 (broadcastTo S64x30522 (maxCol x0) broadcasts_S64x1_S64x30522)))
      0x00000000#32 reduces_S64x30522_S64 (.inl rfl) rfl)
    shapeCasts_S64_S64x1

private theorem sumExpCol_apply (x0 : Vec Ideal S64x30522 .f32) (j : Fin 64) :
    sumExpCol x0 (ix2 j (0 : Fin 1)) = Cert.Spec.rowSumExp (fun v => x0 (ix2 j v)) := by
  unfold sumExpCol Cert.Spec.rowSumExp
  refine (shapeCast_col_apply _ _ j 0).trans ?_
  refine (rowsum_apply _ j).trans ?_
  refine Finset.sum_congr rfl fun v _ => ?_
  show Ideal.exp (x0 (ix2 j v) - broadcastTo S64x30522 (maxCol x0) broadcasts_S64x1_S64x30522 (ix2 j v)) = _
  rw [broadcastTo_col_apply, maxCol_apply]

/-- The column of the logits at the labels. -/
private def pickCol (x0 : Vec Ideal S64x30522 .f32) (x1 : Vec Ideal S64x1 .i32) : FVec Ideal S64x1 .f32 :=
  shapeCast S64x1
    (multiReduction (F := Ideal) .add [1] S64
      (select (cmpi .eq (iota .tc S64x30522 32 [1] iota_S64x30522_d1_w32)
          (broadcastTo S64x30522 (k0_pay4 (F := Ideal) x1) broadcasts_S64x1_S64x30522))
        x0 (broadcast S64x30522 (Scalar.ofBits (F := Ideal) .f32 0x00000000#32)))
      0x00000000#32 reduces_S64x30522_S64 (.inl rfl) rfl)
    shapeCasts_S64_S64x1

private theorem pickCol_apply (x0 : Vec Ideal S64x30522 .f32) (x1 : Vec Ideal S64x1 .i32) (j : Fin 64) :
    pickCol x0 x1 (ix2 j (0 : Fin 1)) = Cert.Spec.picked (fun v => x0 (ix2 j v)) (x1 (ix2 j (0 : Fin 1))) := by
  unfold pickCol Cert.Spec.picked
  refine (shapeCast_col_apply _ _ j 0).trans ?_
  refine (rowsum_apply _ j).trans ?_
  refine Finset.sum_congr rfl fun v _ => ?_
  show Scalar.select (IntOp.cmpi .eq (iota .tc S64x30522 32 [1] iota_S64x30522_d1_w32 (ix2 j v))
      (broadcastTo S64x30522 (k0_pay4 (F := Ideal) x1) broadcasts_S64x1_S64x30522 (ix2 j v)))
      (x0 (ix2 j v)) (Ideal.ofBits .f32 0x00000000#32) = _
  rw [iota_single_apply, broadcastTo_col_apply, Ideal.ofBits_zero_f32]
  unfold k0_pay4
  rw [shapeCast_self]
  exact pick_word v _ _ _

/-- The 0/1 column "the label is not -1". -/
private theorem mask_apply (x1 : Vec Ideal S64x1 .i32) (j : Fin 64) :
    k0_pay5 (F := Ideal) x1 (ix2 j (0 : Fin 1)) = Cert.Spec.validF (x1 (ix2 j (0 : Fin 1))) := by
  unfold k0_pay5 k0_pay4
  rw [shapeCast_self]
  exact mask_word _

variable (m : (ℓ : Loc nD τ sig) → Buf (Elt Ideal) ℓ) (ρ : Dev nD → PrngReg) (c : Dev nD)

/-- The sums payload at entry (0, 0): what was read there plus the tile's sum. -/
theorem pay_sum (x0 : Vec Ideal S64x30522 .f32) (x1 : Vec Ideal S64x1 .i32) (v32 : Vec Ideal S1x1 .f32) :
    (k0_pay7 (F := Ideal) x0 x1 v32 : (⟨2, ![1, 1]⟩ : Shape).Idx → EReal) (ix2 (0 : Fin 1) (0 : Fin 1))
      = (v32 : (⟨2, ![1, 1]⟩ : Shape).Idx → EReal) (ix2 (0 : Fin 1) (0 : Fin 1)) + Cert.Spec.tileSum x0 x1 := by
  have e : k0_pay7 (F := Ideal) x0 x1 v32
      = addf (shapeCast S1x1 v32 shapeCasts_S1x1_S1x1)
          (shapeCast S1x1
            (multiReduction (F := Ideal) .add [0] S1
              (mulf (subf (addf (maxCol x0) (log (sumExpCol x0))) (pickCol x0 x1)) (k0_pay5 (F := Ideal) x1))
              0x00000000#32 reduces_S64x1_S1 (.inl rfl) rfl)
            shapeCasts_S1_S1x1) := rfl
  rw [e, addf_apply, shapeCast_self]
  refine congrArg (fun z => v32 (ix2 (0 : Fin 1) (0 : Fin 1)) + z) ?_
  refine (shapeCast_col_apply _ _ (0 : Fin 1) (0 : Fin 1)).trans ?_
  refine (colsum_apply _).trans ?_
  unfold Cert.Spec.tileSum
  refine Finset.sum_congr rfl fun j _ => ?_
  rw [mulf_apply, subf_apply, addf_apply, log_apply, maxCol_apply, sumExpCol_apply, pickCol_apply, mask_apply]
  rfl

/-- The counts payload at entry (0, 0): what was read there plus the tile's number of counted rows. -/
theorem pay_cnt (x1 : Vec Ideal S64x1 .i32) (v36 : Vec Ideal S1x1 .f32) :
    (k0_pay1 (F := Ideal) (k0_pay6 x1) v36 : (⟨2, ![1, 1]⟩ : Shape).Idx → EReal) (ix2 (0 : Fin 1) (0 : Fin 1))
      = (v36 : (⟨2, ![1, 1]⟩ : Shape).Idx → EReal) (ix2 (0 : Fin 1) (0 : Fin 1)) + Cert.Spec.tileCnt x1 := by
  unfold k0_pay1 k0_pay6
  rw [addf_apply, shapeCast_self]
  refine congrArg (fun z => v36 (ix2 (0 : Fin 1) (0 : Fin 1)) + z) ?_
  refine (shapeCast_col_apply _ _ (0 : Fin 1) (0 : Fin 1)).trans ?_
  refine (colsum_apply _).trans ?_
  unfold Cert.Spec.tileCnt
  exact Finset.sum_congr rfl fun j _ => mask_apply x1 j

/-- The reset of the sums block stores 0 in every row. -/
theorem pay_zero_sum (y : (⟨2, ![8, 1]⟩ : Shape).Idx) : (k0_pay2 (F := Ideal) : (⟨2, ![8, 1]⟩ : Shape).Idx → EReal) y = 0 := by
  unfold k0_pay2
  exact Ideal.ofBits_zero_f32

/-- The reset of the counts block stores 0 in every row. -/
theorem pay_zero_cnt (y : (⟨2, ![8, 1]⟩ : Shape).Idx) : (k0_pay3 (F := Ideal) : (⟨2, ![8, 1]⟩ : Shape).Idx → EReal) y = 0 := by
  unfold k0_pay3
  exact Ideal.ofBits_zero_f32

end Cert.KernelIdeal.Val

end
-- ==== Proof.LmBody.lean ====
/-
  What one run of the LM kernel's body leaves in its two 8 × 1 output blocks, entry by entry. At a core's first tile the
  blocks are zeroed and the tile's sum of row terms (its number of counted rows) is added into row 0, so row 0 holds the
  tile's contribution and rows 1 to 7 hold 0. At a later tile row 0 is what the tile before left there plus this tile's
  contribution, and rows 1 to 7 are as the tile before left them.
-/
import proofs.«411738_j39814346834260_2_alg».proof.Proof.Gen.KernelIdeal.Frame
import proofs.«411738_j39814346834260_2_alg».proof.Proof.Spec
import proofs.«411738_j39814346834260_2_alg».proof.Proof.KernelNames
import proofs.«411738_j39814346834260_2_alg».proof.Proof.LmPayload
import Idealize.ShloMosaic.PureOps.Ideal.Laws
import Idealize.ShloMosaic.Lib.Pipeline.Value
import Idealize.ShloMosaic.Lib.ValueLayout
import Idealize.ShloMosaic.Lib.WritesUnit
import Idealize.ShloMosaic.Lib.Tactic
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

variable (i : grid0.Coords)
  (a2 : Memref sig .tc .vmem S64x30522 .f32) (h2 : a2.IsWhole) (a3 : Memref sig .tc .vmem S64x1 .i32) (h3 : a3.IsWhole)
  (a4 : Memref sig .tc .vmem S8x1 .f32) (h4 : a4.IsWhole) (a5 : Memref sig .tc .vmem S8x1 .f32) (h5 : a5.IsWhole)

/-- A store of one entry at (0, 0) into an 8 × 1 buffer: row 0 reads the stored entry, every other row what the older
stores left. -/
private theorem read_cons_entry (v : View sig .tc .vmem S8x1 .f32) (f : v.ty.Contents (Elt Ideal))
    (inb : ∀ a, (![0, 0] : Fin 2 → ℕ) a + S1x1.size a ≤ S8x1.size a)
    (w : (Rect.unit (s := S8x1) ![0, 0] S1x1.size inb).shape.Idx → Elt Ideal .f32)
    (L : List (View.Piece (Elt Ideal) S8x1 .f32)) (p : Fin 8) :
    v.read (Elt Ideal) (v.writes (Elt Ideal) f (⟨Rect.unit (s := S8x1) ![0, 0] S1x1.size inb, w⟩ :: L)) (ix2 p (0 : Fin 1))
      = if p.val = 0 then w (ix2 (0 : Fin 1) (0 : Fin 1))
        else v.read (Elt Ideal) (v.writes (Elt Ideal) f L) (ix2 p (0 : Fin 1)) := by
  by_cases hp : p.val = 0
  · rw [if_pos hp]
    exact View.read_writes_cons_unit_of_mem v f inb w L (ix2 p (0 : Fin 1)) (ix2 (0 : Fin 1) (0 : Fin 1)) rfl
      (Fin.forall_fin_two.mpr ⟨hp, rfl⟩)
  · rw [if_neg hp]
    exact View.read_writes_cons_unit_of_not_mem v f inb w L (ix2 p (0 : Fin 1)) rfl (0 : Fin 2)
      (Or.inr (Nat.one_le_iff_ne_zero.mpr hp))

/-- The offsets (0, 0) are zero on both axes. -/
private theorem hz2 : (![0, 0] : Fin 2 → ℕ) = fun _ => 0 := funext fun a => by fin_cases a <;> rfl

/-- A load of the one entry at (0, 0) of an 8 × 1 block reads the block there. -/
private theorem ld_entry (X : Vec Ideal S8x1 .f32) (inb : ∀ a, (![0, 0] : Fin 2 → ℕ) a + S1x1.size a ≤ S8x1.size a) :
    (View.ld (Val := Elt Ideal) (e' := .f32) X (Rect.unit (s := S8x1) ![0, 0] S1x1.size inb) : (⟨2, ![1, 1]⟩ : Shape).Idx → EReal)
        (ix2 (0 : Fin 1) (0 : Fin 1))
      = (X : (⟨2, ![8, 1]⟩ : Shape).Idx → EReal) (ix2 (0 : Fin 8) (0 : Fin 1)) :=
  congrArg X (funext fun a => Fin.ext (by fin_cases a <;> rfl))

/-- After a store of a whole 8 × 1 block of zeros, a load of the entry at (0, 0) reads 0. -/
private theorem readCov_zero_entry (v : View sig .tc .vmem S8x1 .f32) (w : Vec Ideal S8x1 .f32)
    (hw : ∀ y : (⟨2, ![8, 1]⟩ : Shape).Idx, (w : (⟨2, ![8, 1]⟩ : Shape).Idx → EReal) y = 0)
    (inb8 : ∀ a, (![0, 0] : Fin 2 → ℕ) a + S8x1.size a ≤ S8x1.size a)
    (inb1 : ∀ a, (![0, 0] : Fin 2 → ℕ) a + S1x1.size a ≤ S8x1.size a) :
    (v.readCov [(⟨Rect.unit (s := S8x1) ![0, 0] S8x1.size inb8, w⟩ : View.Piece (Elt Ideal) S8x1 .f32)]
        (Rect.unit (s := S8x1) ![0, 0] S1x1.size inb1).toLoadRect : (⟨2, ![1, 1]⟩ : Shape).Idx → EReal)
      (ix2 (0 : Fin 1) (0 : Fin 1)) = 0 := by
  rw [View.readCov_eq_canon', View.canon_unit_zero hz2]
  exact hw _

/-- After a store of a whole 8 × 1 block of zeros over anything, every entry reads 0. -/
private theorem read_zero_block (v : View sig .tc .vmem S8x1 .f32) (w : Vec Ideal S8x1 .f32)
    (hw : ∀ y : (⟨2, ![8, 1]⟩ : Shape).Idx, (w : (⟨2, ![8, 1]⟩ : Shape).Idx → EReal) y = 0)
    (inb8 : ∀ a, (![0, 0] : Fin 2 → ℕ) a + S8x1.size a ≤ S8x1.size a) (y : (⟨2, ![8, 1]⟩ : Shape).Idx) :
    (v.read (Elt Ideal) (v.writes (Elt Ideal) v.junk
        [(⟨Rect.unit (s := S8x1) ![0, 0] S8x1.size inb8, w⟩ : View.Piece (Elt Ideal) S8x1 .f32)]) :
          (⟨2, ![8, 1]⟩ : Shape).Idx → EReal) y = 0 := by
  rw [View.read_writes_junk_eq_canon, View.canon_unit_zero hz2]
  exact hw y

/-- First tile of a core, the sums block. -/
theorem outA_sum (hc : cond0_0 i) (x0 : Vec Ideal S64x30522 .f32) (x1 : Vec Ideal S64x1 .i32) (p : Fin 8) :
    (out0_A_2 (F := Ideal) c i a2 h2 a3 h3 a4 h4 a5 h5 hc x0 x1 : (⟨2, ![8, 1]⟩ : Shape).Idx → EReal) (ix2 p (0 : Fin 1))
      = if p.val = 0 then Cert.Spec.tileSum x0 x1 else 0 := by
  unfold out0_A_2
  unfold kernelRun0_A
  dsimp only
  sl_unfold_words
  refine (read_cons_entry VO0_2 VO0_2.junk inb_S8x1_S1x1_0_0 _ _ p).trans ?_
  simp only [View.readAt_eq_ld, h2.read_unread, h3.read_unread, View.ld_unit_zero (S := S64x30522) hz2,
    View.ld_unit_zero (S := S64x1) hz2]
  by_cases hp : p.val = 0
  · rw [if_pos hp, if_pos hp]
    refine (pay_sum x0 x1 _).trans ?_
    exact (congrArg (· + Cert.Spec.tileSum x0 x1)
      (readCov_zero_entry a4.view (k0_pay2 (F := Ideal)) pay_zero_sum inb_S8x1_S8x1_0_0 inb_S8x1_S1x1_0_0)).trans (zero_add _)
  · rw [if_neg hp, if_neg hp]
    exact read_zero_block VO0_2 (k0_pay2 (F := Ideal)) pay_zero_sum inb_S8x1_S8x1_0_0 (ix2 p (0 : Fin 1))

/-- First tile of a core, the counts block. -/
theorem outA_cnt (hc : cond0_0 i) (x0 : Vec Ideal S64x30522 .f32) (x1 : Vec Ideal S64x1 .i32) (p : Fin 8) :
    (out0_A_3 (F := Ideal) c i a2 h2 a3 h3 a4 h4 a5 h5 hc x0 x1 : (⟨2, ![8, 1]⟩ : Shape).Idx → EReal) (ix2 p (0 : Fin 1))
      = if p.val = 0 then Cert.Spec.tileCnt x1 else 0 := by
  unfold out0_A_3
  unfold kernelRun0_A
  dsimp only
  sl_unfold_words
  refine (read_cons_entry VO0_3 VO0_3.junk inb_S8x1_S1x1_0_0 _ _ p).trans ?_
  simp only [View.readAt_eq_ld, h3.read_unread, View.ld_unit_zero (S := S64x1) hz2]
  by_cases hp : p.val = 0
  · rw [if_pos hp, if_pos hp]
    refine (pay_cnt x1 _).trans ?_
    exact (congrArg (· + Cert.Spec.tileCnt x1)
      (readCov_zero_entry a5.view (k0_pay3 (F := Ideal)) pay_zero_cnt inb_S8x1_S8x1_0_0 inb_S8x1_S1x1_0_0)).trans (zero_add _)
  · rw [if_neg hp, if_neg hp]
    exact read_zero_block VO0_3 (k0_pay3 (F := Ideal)) pay_zero_cnt inb_S8x1_S8x1_0_0 (ix2 p (0 : Fin 1))

/-- A later tile, the sums block, over what the tile before left (xo2). -/
theorem outB_sum (hc : ¬cond0_0 i) (x0 : Vec Ideal S64x30522 .f32) (x1 : Vec Ideal S64x1 .i32)
    (xo2 xo3 : Vec Ideal S8x1 .f32) (p : Fin 8) :
    (out0_B_2 (F := Ideal) c i a2 h2 a3 h3 a4 h4 a5 h5 hc x0 x1 xo2 xo3 : (⟨2, ![8, 1]⟩ : Shape).Idx → EReal) (ix2 p (0 : Fin 1))
      = if p.val = 0 then (xo2 : (⟨2, ![8, 1]⟩ : Shape).Idx → EReal) (ix2 (0 : Fin 8) (0 : Fin 1)) + Cert.Spec.tileSum x0 x1
        else (xo2 : (⟨2, ![8, 1]⟩ : Shape).Idx → EReal) (ix2 p (0 : Fin 1)) := by
  unfold out0_B_2
  unfold kernelRun0_B
  dsimp only
  sl_unfold_words
  refine (read_cons_entry a4.view (h4.unread xo2) inb_S8x1_S1x1_0_0 _ [] p).trans ?_
  simp only [View.readAt_eq_ld, h2.read_unread, h3.read_unread, h4.read_unread, View.ld_unit_zero (S := S64x30522) hz2,
    View.ld_unit_zero (S := S64x1) hz2, View.writes_nil]
  by_cases hp : p.val = 0
  · rw [if_pos hp, if_pos hp]
    refine (pay_sum x0 x1 _).trans ?_
    exact congrArg (· + Cert.Spec.tileSum x0 x1) (ld_entry xo2 inb_S8x1_S1x1_0_0)
  · rw [if_neg hp, if_neg hp]

/-- A later tile, the counts block, over what the tile before left (xo3). -/
theorem outB_cnt (hc : ¬cond0_0 i) (x0 : Vec Ideal S64x30522 .f32) (x1 : Vec Ideal S64x1 .i32)
    (xo2 xo3 : Vec Ideal S8x1 .f32) (p : Fin 8) :
    (out0_B_3 (F := Ideal) c i a2 h2 a3 h3 a4 h4 a5 h5 hc x0 x1 xo2 xo3 : (⟨2, ![8, 1]⟩ : Shape).Idx → EReal) (ix2 p (0 : Fin 1))
      = if p.val = 0 then (xo3 : (⟨2, ![8, 1]⟩ : Shape).Idx → EReal) (ix2 (0 : Fin 8) (0 : Fin 1)) + Cert.Spec.tileCnt x1
        else (xo3 : (⟨2, ![8, 1]⟩ : Shape).Idx → EReal) (ix2 p (0 : Fin 1)) := by
  unfold out0_B_3
  unfold kernelRun0_B
  dsimp only
  sl_unfold_words
  refine (read_cons_entry a5.view (h5.unread xo3) inb_S8x1_S1x1_0_0 _ [] p).trans ?_
  simp only [View.readAt_eq_ld, h3.read_unread, h5.read_unread, View.ld_unit_zero (S := S64x1) hz2, View.writes_nil]
  by_cases hp : p.val = 0
  · rw [if_pos hp, if_pos hp]
    refine (pay_cnt x1 _).trans ?_
    exact congrArg (· + Cert.Spec.tileCnt x1) (ld_entry xo3 inb_S8x1_S1x1_0_0)
  · rw [if_neg hp, if_neg hp]

end Cert.KernelIdeal.Val

end
-- ==== Proof.LmAcc.lean ====
/-
  The LM region's running sums. Within a core's 32 tiles, after the tile at grid point n row 0 of the sums block holds the
  sum of the contributions of the core's tiles up to n, and row 0 of the counts block the number of counted rows so far:
  by induction on the point, the first tile of a core starting from zero.
-/
import proofs.«411738_j39814346834260_2_alg».proof.Proof.Gen.KernelIdeal.Frame
import proofs.«411738_j39814346834260_2_alg».proof.Proof.Spec
import proofs.«411738_j39814346834260_2_alg».proof.Proof.KernelNames
import proofs.«411738_j39814346834260_2_alg».proof.Proof.LmBody
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- What the tile at grid point t adds to the sum (0 past the grid). -/
def tileS (t : ℕ) : EReal := if h : t < cfg0.N then Cert.Spec.tileSum (xblk m ρ c ⟨t, h⟩) (lblk m ρ c ⟨t, h⟩) else 0

/-- The number of counted rows of the tile at grid point t (0 past the grid). -/
def tileC (t : ℕ) : EReal := if h : t < cfg0.N then Cert.Spec.tileCnt (lblk m ρ c ⟨t, h⟩) else 0

/-- The first tile of a core: row 0 of both blocks is that tile's contribution alone. -/
private theorem acc_first (t : Fin cfg0.N) (h0 : t.val % 32 = 0) :
    ((outsAt0 (V1 m ρ) c t.val t.isLt).1 : (⟨2, ![8, 1]⟩ : Shape).Idx → EReal) (ix2 (0 : Fin 8) (0 : Fin 1))
        = tileS m ρ c t.val
    ∧ ((outsAt0 (V1 m ρ) c t.val t.isLt).2 : (⟨2, ![8, 1]⟩ : Shape).Idx → EReal) (ix2 (0 : Fin 8) (0 : Fin 1))
        = tileC m ρ c t.val := by
  refine ⟨?_, ?_⟩
  · rw [outsAt0_A (V1 m ρ) c t h0]; dsimp only
    rw [outA_sum c (grid0.coords t) (ms0_0 t) (hs0_0 t) (ms0_1 t) (hs0_1 t) (ms0_2 t) (hs0_2 t) (ms0_3 t) (hs0_3 t)
      ((hcond0_0 t).mpr h0) (iblk0 (V1 m ρ) c 0 t) (iblk0 (V1 m ρ) c 1 t) (0 : Fin 8)]
    rw [if_pos (show ((0 : Fin 8) : ℕ) = 0 from rfl)]
    unfold tileS
    rw [dif_pos t.isLt]
  · rw [outsAt0_A (V1 m ρ) c t h0]; dsimp only
    rw [outA_cnt c (grid0.coords t) (ms0_0 t) (hs0_0 t) (ms0_1 t) (hs0_1 t) (ms0_2 t) (hs0_2 t) (ms0_3 t) (hs0_3 t)
      ((hcond0_0 t).mpr h0) (iblk0 (V1 m ρ) c 0 t) (iblk0 (V1 m ρ) c 1 t) (0 : Fin 8)]
    rw [if_pos (show ((0 : Fin 8) : ℕ) = 0 from rfl)]
    unfold tileC
    rw [dif_pos t.isLt]

/-- A later tile of a core: row 0 of both blocks is what the point before left there plus this tile's contribution. -/
private theorem acc_next (t : Fin cfg0.N) (h0 : ¬t.val % 32 = 0) (hp : t.val - 1 < cfg0.N) :
    ((outsAt0 (V1 m ρ) c t.val t.isLt).1 : (⟨2, ![8, 1]⟩ : Shape).Idx → EReal) (ix2 (0 : Fin 8) (0 : Fin 1))
        = ((outsAt0 (V1 m ρ) c (t.val - 1) hp).1 : (⟨2, ![8, 1]⟩ : Shape).Idx → EReal) (ix2 (0 : Fin 8) (0 : Fin 1))
          + tileS m ρ c t.val
    ∧ ((outsAt0 (V1 m ρ) c t.val t.isLt).2 : (⟨2, ![8, 1]⟩ : Shape).Idx → EReal) (ix2 (0 : Fin 8) (0 : Fin 1))
        = ((outsAt0 (V1 m ρ) c (t.val - 1) hp).2 : (⟨2, ![8, 1]⟩ : Shape).Idx → EReal) (ix2 (0 : Fin 8) (0 : Fin 1))
          + tileC m ρ c t.val := by
  refine ⟨?_, ?_⟩
  · rw [outsAt0_B (V1 m ρ) c t h0]; dsimp only
    rw [outB_sum c (grid0.coords t) (ms0_0 t) (hs0_0 t) (ms0_1 t) (hs0_1 t) (ms0_2 t) (hs0_2 t) (ms0_3 t) (hs0_3 t)
      (fun h => h0 ((hcond0_0 t).mp h)) (iblk0 (V1 m ρ) c 0 t) (iblk0 (V1 m ρ) c 1 t)
      (outsAt0 (V1 m ρ) c (t.val - 1) hp).1 (outsAt0 (V1 m ρ) c (t.val - 1) hp).2 (0 : Fin 8)]
    rw [if_pos (show ((0 : Fin 8) : ℕ) = 0 from rfl)]
    unfold tileS
    rw [dif_pos t.isLt]
  · rw [outsAt0_B (V1 m ρ) c t h0]; dsimp only
    rw [outB_cnt c (grid0.coords t) (ms0_0 t) (hs0_0 t) (ms0_1 t) (hs0_1 t) (ms0_2 t) (hs0_2 t) (ms0_3 t) (hs0_3 t)
      (fun h => h0 ((hcond0_0 t).mp h)) (iblk0 (V1 m ρ) c 0 t) (iblk0 (V1 m ρ) c 1 t)
      (outsAt0 (V1 m ρ) c (t.val - 1) hp).1 (outsAt0 (V1 m ρ) c (t.val - 1) hp).2 (0 : Fin 8)]
    rw [if_pos (show ((0 : Fin 8) : ℕ) = 0 from rfl)]
    unfold tileC
    rw [dif_pos t.isLt]

/-- Both running sums at once, by induction on the point: a core's first tile starts the sum at its single term; a later
    tile appends its term to the sum up to the point before, whose first tile and position in the core are the same
    and one less. -/
private theorem acc_both (n : ℕ) : ∀ (h : n < cfg0.N),
    ((outsAt0 (V1 m ρ) c n h).1 : (⟨2, ![8, 1]⟩ : Shape).Idx → EReal) (ix2 (0 : Fin 8) (0 : Fin 1))
        = ∑ s ∈ Finset.range (n % 32 + 1), tileS m ρ c (n - n % 32 + s)
    ∧ ((outsAt0 (V1 m ρ) c n h).2 : (⟨2, ![8, 1]⟩ : Shape).Idx → EReal) (ix2 (0 : Fin 8) (0 : Fin 1))
        = ∑ s ∈ Finset.range (n % 32 + 1), tileC m ρ c (n - n % 32 + s) := by
  induction n using Nat.strong_induction_on with
  | _ n ih =>
    intro h
    by_cases h0 : n % 32 = 0
    · have hA := acc_first m ρ c ⟨n, h⟩ h0
      rw [h0, Nat.zero_add, Finset.sum_range_one, Finset.sum_range_one, Nat.sub_zero, Nat.add_zero]
      exact hA
    · have hp : n - 1 < cfg0.N := Nat.lt_of_le_of_lt (Nat.sub_le _ _) h
      have hB := acc_next m ρ c ⟨n, h⟩ h0 hp
      have hI := ih (n - 1) (by omega) hp
      have e1 : (n - 1) % 32 + 1 = n % 32 := by omega
      have e2 : n - 1 - (n - 1) % 32 = n - n % 32 := by omega
      have e3 : n - n % 32 + n % 32 = n := Nat.sub_add_cancel (Nat.mod_le n 32)
      rw [e1, e2] at hI
      rw [Finset.sum_range_succ, Finset.sum_range_succ, e3, ← hI.1, ← hI.2]
      exact hB

/-- Row 0 of the sums block after point n: the core's tiles up to n. -/
theorem acc_sum (n : ℕ) (h : n < cfg0.N) :
    ((outsAt0 (V1 m ρ) c n h).1 : (⟨2, ![8, 1]⟩ : Shape).Idx → EReal) (ix2 (0 : Fin 8) (0 : Fin 1))
      = ∑ s ∈ Finset.range (n % 32 + 1), tileS m ρ c (n - n % 32 + s) :=
  (acc_both m ρ c n h).1

/-- Row 0 of the counts block after point n. -/
theorem acc_cnt (n : ℕ) (h : n < cfg0.N) :
    ((outsAt0 (V1 m ρ) c n h).2 : (⟨2, ![8, 1]⟩ : Shape).Idx → EReal) (ix2 (0 : Fin 8) (0 : Fin 1))
      = ∑ s ∈ Finset.range (n % 32 + 1), tileC m ρ c (n - n % 32 + s) :=
  (acc_both m ρ c n h).2

end Cert.KernelIdeal.Val

end
-- ==== Proof.LmFinal.lean ====
/-
  The LM region's arrays after its run. Each output block is written back once per core, after the core's last tile
  (points 31 and 63), to rows 0 to 7 and 8 to 15 of its 16 × 1 array: entry (0, 0) of the array is row 0 of the block
  after point 31, entry (8, 0) is row 0 of the block after point 63.
-/
import proofs.«411738_j39814346834260_2_alg».proof.Proof.Gen.KernelIdeal.Frame
import proofs.«411738_j39814346834260_2_alg».proof.Proof.Spec
import proofs.«411738_j39814346834260_2_alg».proof.Proof.KernelNames
import Idealize.ShloMosaic.Lib.Pipeline.Value
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## Two blocks stacked -/

/-- Two 8 × 1 blocks stacked into a 16 × 1 array: rows 0 to 7 the first, rows 8 to 15 the second. -/
private def stack (lo hi : (⟨2, ![8, 1]⟩ : Shape).Idx → EReal) : (⟨2, ![16, 1]⟩ : Shape).Idx → EReal := fun i =>
  if h : (i 0).val < 8 then lo (ix2 (⟨(i 0).val, h⟩ : Fin 8) (0 : Fin 1))
  else hi (ix2 (⟨(i 0).val - 8, by have := idx2_lt0 i; omega⟩ : Fin 8) (0 : Fin 1))

/-- Row r < 8 of the stack is row r of the first block. -/
private theorem stack_lo (lo hi : (⟨2, ![8, 1]⟩ : Shape).Idx → EReal) (i : (⟨2, ![16, 1]⟩ : Shape).Idx) (r : Fin 8)
    (h : (i 0).val = r.val) : stack lo hi i = lo (ix2 r (0 : Fin 1)) := by
  unfold stack
  rw [dif_pos (by rw [h]; exact r.isLt)]
  congr 2
  exact Fin.ext h

/-- Row 8 + r of the stack is row r of the second block. -/
private theorem stack_hi (lo hi : (⟨2, ![8, 1]⟩ : Shape).Idx → EReal) (i : (⟨2, ![16, 1]⟩ : Shape).Idx) (r : Fin 8)
    (h : (i 0).val = 8 + r.val) : stack lo hi i = hi (ix2 r (0 : Fin 1)) := by
  unfold stack
  rw [dif_neg (by rw [h]; omega)]
  congr 2
  exact Fin.ext (by show (i 0).val - 8 = r.val; omega)

/-- What the staging buffers hold after a point depends on the point only. -/
private theorem outsAt0_congr (n n' : ℕ) (h : n = n') (hn : n < cfg0.N) (hn' : n' < cfg0.N) :
    outsAt0 (V1 m ρ) c n hn = outsAt0 (V1 m ρ) c n' hn' := by subst h; rfl

/-! ## The sums array -/

/-- The sum window's index map, decided once over the grid: point t writes block (t / 32, 0), core t / 32's. -/
private theorem blockOf_sum : ∀ t : Fin cfg0.N, win0_2.index t (0 : Fin 2) = t.val / 32 ∧ win0_2.index t (1 : Fin 2) = 0 :=
  (by decide +kernel : ∀ t : Fin grid0.N, win0_2.index t (0 : Fin 2) = t.val / 32 ∧ win0_2.index t (1 : Fin 2) = 0)

/-- The sum array the region leaves: core 0's block after point 31 over core 1's block after point 63. -/
private abbrev sumG : (⟨2, ![16, 1]⟩ : Shape).Idx → EReal :=
  stack (outsAt0 (V1 m ρ) c 31 lt31).1 (outsAt0 (V1 m ρ) c 63 lt63).1

/-- Each of the two write-backs (after points 31 and 63) writes its block of the stack: block t / 32 of the array is
    rows 8 (t / 32) + r, r < 8. -/
private theorem sum_flushed (t : Fin cfg0.N) (hf : (cfg0.win 2).flush t = true) :
    (dat0 (V1 m ρ) c).flushed 2 t = ((cfg0.win 2).blk t).view.read (Elt Ideal) (sumG m ρ c) := by
  have hN : cfg0.N = 64 := N0
  have hmod := (flush0_2 t).mp hf
  have ht : t.val = 31 ∨ t.val = 63 := by have := t.isLt; omega
  obtain ⟨e0, e1⟩ := blockOf_sum t
  show (cfg0.win 2).cut (grid0.coords t) ((dat0 (V1 m ρ) c).after 2 t) = _
  rw [after0_2]
  funext j
  have hj0 : (j 0).val < 8 := (j 0).isLt
  have hj1 : (j 1).val < 1 := (j 1).isLt
  have hx : win0_2.xinj (grid0.coords t) j = ix2 (⟨(j 0).val, hj0⟩ : Fin 8) (0 : Fin 1) := by
    funext a; apply Fin.ext
    match a with
    | ⟨0, _⟩ => rfl
    | ⟨1, _⟩ => show (j 1).val = 0; omega
  show (outsAt0 (V1 m ρ) c t.val t.isLt).1 (win0_2.xinj (grid0.coords t) j) = sumG m ρ c (((cfg0.win 2).blk t).view.emb j)
  rw [hx]
  rcases ht with h | h
  · rw [outsAt0_congr m ρ c t.val 31 h t.isLt lt31]
    refine (stack_lo _ _ _ ⟨(j 0).val, hj0⟩ ?_).symm
    show win0_2.index t 0 * 8 + 1 * (j 0).val = (j 0).val
    rw [e0]; omega
  · rw [outsAt0_congr m ρ c t.val 63 h t.isLt lt63]
    refine (stack_hi _ _ _ ⟨(j 0).val, hj0⟩ ?_).symm
    show win0_2.index t 0 * 8 + 1 * (j 0).val = 8 + (j 0).val
    rw [e0]; omega

/-- The two blocks tile the array: row r is in point 31's block if r < 8, in point 63's otherwise. -/
private theorem sum_cover (i : (⟨2, ![16, 1]⟩ : Shape).Idx) :
    ∃ t : Fin cfg0.N, (cfg0.win 2).flush t = true ∧ i ∈ ((cfg0.win 2).blk t).view.set := by
  have h0 : (i 0).val < 16 := idx2_lt0 i
  have h1 : (i 1).val < 1 := idx2_lt1 i
  by_cases hlo : (i 0).val < 8
  · refine ⟨⟨31, lt31⟩, (flush0_2 _).mpr rfl, ?_⟩
    have e0 : win0_2.index ⟨31, lt31⟩ (0 : Fin 2) = 0 := (blockOf_sum ⟨31, lt31⟩).1
    have e1 : win0_2.index ⟨31, lt31⟩ (1 : Fin 2) = 0 := (blockOf_sum ⟨31, lt31⟩).2
    show i ∈ ((View.whole main_v1_0).slice (win0_2.rect ⟨31, lt31⟩)).set
    rw [View.set_slice_whole, Rect.mem_set_unit]
    intro a
    match a with
    | ⟨0, _⟩ => show win0_2.index ⟨31, lt31⟩ 0 * 8 ≤ (i 0).val ∧ (i 0).val < win0_2.index ⟨31, lt31⟩ 0 * 8 + 8
                rw [e0]; omega
    | ⟨1, _⟩ => show win0_2.index ⟨31, lt31⟩ 1 * 1 ≤ (i 1).val ∧ (i 1).val < win0_2.index ⟨31, lt31⟩ 1 * 1 + 1
                rw [e1]; omega
  · refine ⟨⟨63, lt63⟩, (flush0_2 _).mpr rfl, ?_⟩
    have e0 : win0_2.index ⟨63, lt63⟩ (0 : Fin 2) = 1 := (blockOf_sum ⟨63, lt63⟩).1
    have e1 : win0_2.index ⟨63, lt63⟩ (1 : Fin 2) = 0 := (blockOf_sum ⟨63, lt63⟩).2
    show i ∈ ((View.whole main_v1_0).slice (win0_2.rect ⟨63, lt63⟩)).set
    rw [View.set_slice_whole, Rect.mem_set_unit]
    intro a
    match a with
    | ⟨0, _⟩ => show win0_2.index ⟨63, lt63⟩ 0 * 8 ≤ (i 0).val ∧ (i 0).val < win0_2.index ⟨63, lt63⟩ 0 * 8 + 8
                rw [e0]; omega
    | ⟨1, _⟩ => show win0_2.index ⟨63, lt63⟩ 1 * 1 ≤ (i 1).val ∧ (i 1).val < win0_2.index ⟨63, lt63⟩ 1 * 1 + 1
                rw [e1]; omega

/-- The sum array after the run is the two cores' blocks stacked. -/
private theorem sumArr_eq : sumArr m ρ c = sumG m ρ c :=
  (dat0 (V1 m ρ) c).arrAt_eq_of_cover 2 (sumG m ρ c) (sum_flushed m ρ c) sum_cover

theorem sumArr_core0 : sumArr m ρ c (ix2 (0 : Fin 16) (0 : Fin 1))
    = ((outsAt0 (V1 m ρ) c 31 lt31).1 : (⟨2, ![8, 1]⟩ : Shape).Idx → EReal) (ix2 (0 : Fin 8) (0 : Fin 1)) :=
  (congrFun (sumArr_eq m ρ c) _).trans (stack_lo _ _ _ 0 rfl)

theorem sumArr_core1 : sumArr m ρ c (ix2 (8 : Fin 16) (0 : Fin 1))
    = ((outsAt0 (V1 m ρ) c 63 lt63).1 : (⟨2, ![8, 1]⟩ : Shape).Idx → EReal) (ix2 (0 : Fin 8) (0 : Fin 1)) :=
  (congrFun (sumArr_eq m ρ c) _).trans (stack_hi _ _ _ 0 rfl)

/-! ## The counts array -/

/-- The cnt window's index map, decided once over the grid: point t writes block (t / 32, 0), core t / 32's. -/
private theorem blockOf_cnt : ∀ t : Fin cfg0.N, win0_3.index t (0 : Fin 2) = t.val / 32 ∧ win0_3.index t (1 : Fin 2) = 0 :=
  (by decide +kernel : ∀ t : Fin grid0.N, win0_3.index t (0 : Fin 2) = t.val / 32 ∧ win0_3.index t (1 : Fin 2) = 0)

/-- The cnt array the region leaves: core 0's block after point 31 over core 1's block after point 63. -/
private abbrev cntG : (⟨2, ![16, 1]⟩ : Shape).Idx → EReal :=
  stack (outsAt0 (V1 m ρ) c 31 lt31).2 (outsAt0 (V1 m ρ) c 63 lt63).2

/-- Each of the two write-backs (after points 31 and 63) writes its block of the stack: block t / 32 of the array is
    rows 8 (t / 32) + r, r < 8. -/
private theorem cnt_flushed (t : Fin cfg0.N) (hf : (cfg0.win 3).flush t = true) :
    (dat0 (V1 m ρ) c).flushed 3 t = ((cfg0.win 3).blk t).view.read (Elt Ideal) (cntG m ρ c) := by
  have hN : cfg0.N = 64 := N0
  have hmod := (flush0_3 t).mp hf
  have ht : t.val = 31 ∨ t.val = 63 := by have := t.isLt; omega
  obtain ⟨e0, e1⟩ := blockOf_cnt t
  show (cfg0.win 3).cut (grid0.coords t) ((dat0 (V1 m ρ) c).after 3 t) = _
  rw [after0_3]
  funext j
  have hj0 : (j 0).val < 8 := (j 0).isLt
  have hj1 : (j 1).val < 1 := (j 1).isLt
  have hx : win0_3.xinj (grid0.coords t) j = ix2 (⟨(j 0).val, hj0⟩ : Fin 8) (0 : Fin 1) := by
    funext a; apply Fin.ext
    match a with
    | ⟨0, _⟩ => rfl
    | ⟨1, _⟩ => show (j 1).val = 0; omega
  show (outsAt0 (V1 m ρ) c t.val t.isLt).2 (win0_3.xinj (grid0.coords t) j) = cntG m ρ c (((cfg0.win 3).blk t).view.emb j)
  rw [hx]
  rcases ht with h | h
  · rw [outsAt0_congr m ρ c t.val 31 h t.isLt lt31]
    refine (stack_lo _ _ _ ⟨(j 0).val, hj0⟩ ?_).symm
    show win0_3.index t 0 * 8 + 1 * (j 0).val = (j 0).val
    rw [e0]; omega
  · rw [outsAt0_congr m ρ c t.val 63 h t.isLt lt63]
    refine (stack_hi _ _ _ ⟨(j 0).val, hj0⟩ ?_).symm
    show win0_3.index t 0 * 8 + 1 * (j 0).val = 8 + (j 0).val
    rw [e0]; omega

/-- The two blocks tile the array: row r is in point 31's block if r < 8, in point 63's otherwise. -/
private theorem cnt_cover (i : (⟨2, ![16, 1]⟩ : Shape).Idx) :
    ∃ t : Fin cfg0.N, (cfg0.win 3).flush t = true ∧ i ∈ ((cfg0.win 3).blk t).view.set := by
  have h0 : (i 0).val < 16 := idx2_lt0 i
  have h1 : (i 1).val < 1 := idx2_lt1 i
  by_cases hlo : (i 0).val < 8
  · refine ⟨⟨31, lt31⟩, (flush0_3 _).mpr rfl, ?_⟩
    have e0 : win0_3.index ⟨31, lt31⟩ (0 : Fin 2) = 0 := (blockOf_cnt ⟨31, lt31⟩).1
    have e1 : win0_3.index ⟨31, lt31⟩ (1 : Fin 2) = 0 := (blockOf_cnt ⟨31, lt31⟩).2
    show i ∈ ((View.whole main_v1_1).slice (win0_3.rect ⟨31, lt31⟩)).set
    rw [View.set_slice_whole, Rect.mem_set_unit]
    intro a
    match a with
    | ⟨0, _⟩ => show win0_3.index ⟨31, lt31⟩ 0 * 8 ≤ (i 0).val ∧ (i 0).val < win0_3.index ⟨31, lt31⟩ 0 * 8 + 8
                rw [e0]; omega
    | ⟨1, _⟩ => show win0_3.index ⟨31, lt31⟩ 1 * 1 ≤ (i 1).val ∧ (i 1).val < win0_3.index ⟨31, lt31⟩ 1 * 1 + 1
                rw [e1]; omega
  · refine ⟨⟨63, lt63⟩, (flush0_3 _).mpr rfl, ?_⟩
    have e0 : win0_3.index ⟨63, lt63⟩ (0 : Fin 2) = 1 := (blockOf_cnt ⟨63, lt63⟩).1
    have e1 : win0_3.index ⟨63, lt63⟩ (1 : Fin 2) = 0 := (blockOf_cnt ⟨63, lt63⟩).2
    show i ∈ ((View.whole main_v1_1).slice (win0_3.rect ⟨63, lt63⟩)).set
    rw [View.set_slice_whole, Rect.mem_set_unit]
    intro a
    match a with
    | ⟨0, _⟩ => show win0_3.index ⟨63, lt63⟩ 0 * 8 ≤ (i 0).val ∧ (i 0).val < win0_3.index ⟨63, lt63⟩ 0 * 8 + 8
                rw [e0]; omega
    | ⟨1, _⟩ => show win0_3.index ⟨63, lt63⟩ 1 * 1 ≤ (i 1).val ∧ (i 1).val < win0_3.index ⟨63, lt63⟩ 1 * 1 + 1
                rw [e1]; omega

/-- The cnt array after the run is the two cores' blocks stacked. -/
private theorem cntArr_eq : cntArr m ρ c = cntG m ρ c :=
  (dat0 (V1 m ρ) c).arrAt_eq_of_cover 3 (cntG m ρ c) (cnt_flushed m ρ c) cnt_cover

theorem cntArr_core0 : cntArr m ρ c (ix2 (0 : Fin 16) (0 : Fin 1))
    = ((outsAt0 (V1 m ρ) c 31 lt31).2 : (⟨2, ![8, 1]⟩ : Shape).Idx → EReal) (ix2 (0 : Fin 8) (0 : Fin 1)) :=
  (congrFun (cntArr_eq m ρ c) _).trans (stack_lo _ _ _ 0 rfl)

theorem cntArr_core1 : cntArr m ρ c (ix2 (8 : Fin 16) (0 : Fin 1))
    = ((outsAt0 (V1 m ρ) c 63 lt63).2 : (⟨2, ![8, 1]⟩ : Shape).Idx → EReal) (ix2 (0 : Fin 8) (0 : Fin 1)) :=
  (congrFun (cntArr_eq m ρ c) _).trans (stack_hi _ _ _ 0 rfl)

end Cert.KernelIdeal.Val

end
-- ==== Proof.SumAlgebra.lean ====
/-
  A sum over 4096 rows, laid out as two cores of 32 tiles of 64 rows: the two cores' sums of their tiles' sums add up to
  the sum over all rows, in any commutative monoid (re-association and re-indexing only).
-/
import Mathlib.Algebra.BigOperators.Fin
import Mathlib.Algebra.BigOperators.Intervals

namespace Cert.SumAlgebra

/-- A sum over the first a·b naturals is the sum over a blocks of b consecutive naturals each (induction on the number
of blocks: the last block is split off the end of the range). -/
private theorem sum_range_mul {M : Type*} [AddCommMonoid M] (g : ℕ → M) (b : ℕ) :
    ∀ a : ℕ, ∑ r ∈ Finset.range (a * b), g r = ∑ s ∈ Finset.range a, ∑ j ∈ Finset.range b, g (b * s + j)
  | 0 => by simp
  | a + 1 => by
    rw [Nat.succ_mul, Finset.sum_range_add, sum_range_mul g b a, Finset.sum_range_succ, Nat.mul_comm a b]

/-- Σ over 4096 rows = (Σ over core 0's 32 tiles of 64 rows) + (Σ over core 1's). -/
theorem sum_two_cores {M : Type*} [AddCommMonoid M] (g : ℕ → M) :
    (∑ s ∈ Finset.range 32, ∑ j : Fin 64, g (64 * (0 + s) + j.val))
      + (∑ s ∈ Finset.range 32, ∑ j : Fin 64, g (64 * (32 + s) + j.val))
      = ∑ r : Fin 4096, g r.val := by
  -- each tile's sum over Fin 64 as a sum over range 64
  have hF : ∀ k : ℕ, (∑ j : Fin 64, g (64 * k + j.val)) = ∑ j ∈ Finset.range 64, g (64 * k + j) :=
    fun k => Fin.sum_univ_eq_sum_range (fun j => g (64 * k + j)) 64
  simp only [hF]
  -- 4096 = (32 + 32) · 64: the 64 tiles, split into the first 32 and the last 32
  rw [Fin.sum_univ_eq_sum_range g 4096, show (4096 : ℕ) = (32 + 32) * 64 from rfl, sum_range_mul g 64 (32 + 32),
    Finset.sum_range_add]
  simp only [Nat.zero_add]

end Cert.SumAlgebra
-- ==== Proof.LmTotal.lean ====
/-
  The LM region's totals: the two cores' entries of the sums array add up to the sum of all 4096 rows' terms, and the two
  entries of the counts array to the number of counted rows.
-/
import proofs.«411738_j39814346834260_2_alg».proof.Proof.Gen.KernelIdeal.Frame
import proofs.«411738_j39814346834260_2_alg».proof.Proof.Spec
import proofs.«411738_j39814346834260_2_alg».proof.Proof.KernelNames
import proofs.«411738_j39814346834260_2_alg».proof.Proof.LmBlocks
import proofs.«411738_j39814346834260_2_alg».proof.Proof.LmAcc
import proofs.«411738_j39814346834260_2_alg».proof.Proof.LmFinal
import proofs.«411738_j39814346834260_2_alg».proof.Proof.SumAlgebra
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- What row r of the whole array adds to the sum (0 past the array). -/
private def rowG (r : ℕ) : EReal :=
  if h : r < 4096 then
    Cert.Spec.rowTerm (fun v => argX m c (ix2 (⟨r, h⟩ : Fin 4096) v)) (argL m c (ix1 (⟨r, h⟩ : Fin 4096)))
  else 0

/-- 1 when row r of the whole array is counted (0 past the array). -/
private def rowV (r : ℕ) : EReal :=
  if h : r < 4096 then Cert.Spec.validF (argL m c (ix1 (⟨r, h⟩ : Fin 4096))) else 0

/-- The tile at grid point t adds the terms of rows 64 t to 64 t + 63. -/
private theorem tileS_eq (t : ℕ) (ht : t < 64) :
    tileS m ρ c t = ∑ j : Fin 64, rowG m c (64 * t + j.val) := by
  have hN : t < cfg0.N := by rw [N0]; exact ht
  unfold tileS
  rw [dif_pos hN]
  unfold Cert.Spec.tileSum
  refine Finset.sum_congr rfl (fun j _ => ?_)
  have hr : 64 * t + j.val < 4096 := by have := j.isLt; omega
  have hx : (fun v => xblk m ρ c ⟨t, hN⟩ (ix2 j v))
      = fun v => argX m c (ix2 (⟨64 * t + j.val, hr⟩ : Fin 4096) v) := by
    funext v; exact xblk_apply m ρ c ⟨t, hN⟩ j v hr
  have hl : lblk m ρ c ⟨t, hN⟩ (ix2 j (0 : Fin 1)) = argL m c (ix1 (⟨64 * t + j.val, hr⟩ : Fin 4096)) :=
    lblk_apply m ρ c ⟨t, hN⟩ j hr
  unfold rowG
  rw [dif_pos hr, hx, hl]

/-- The tile at grid point t counts the counted rows among rows 64 t to 64 t + 63. -/
private theorem tileC_eq (t : ℕ) (ht : t < 64) :
    tileC m ρ c t = ∑ j : Fin 64, rowV m c (64 * t + j.val) := by
  have hN : t < cfg0.N := by rw [N0]; exact ht
  unfold tileC
  rw [dif_pos hN]
  unfold Cert.Spec.tileCnt
  refine Finset.sum_congr rfl (fun j _ => ?_)
  have hr : 64 * t + j.val < 4096 := by have := j.isLt; omega
  have hl : lblk m ρ c ⟨t, hN⟩ (ix2 j (0 : Fin 1)) = argL m c (ix1 (⟨64 * t + j.val, hr⟩ : Fin 4096)) :=
    lblk_apply m ρ c ⟨t, hN⟩ j hr
  unfold rowV
  rw [dif_pos hr, hl]

theorem lm_sum_total : sumArr m ρ c (ix2 (0 : Fin 16) (0 : Fin 1)) + sumArr m ρ c (ix2 (8 : Fin 16) (0 : Fin 1))
    = Cert.Spec.lmSum (argX m c) (argL m c) := by
  -- core 0's entry is the running sum after point 31 (tiles 0 to 31), core 1's after point 63 (tiles 32 to 63)
  rw [sumArr_core0, sumArr_core1, acc_sum m ρ c 31 lt31, acc_sum m ρ c 63 lt63]
  have h0 : (∑ s ∈ Finset.range (31 % 32 + 1), tileS m ρ c (31 - 31 % 32 + s))
      = ∑ s ∈ Finset.range 32, ∑ j : Fin 64, rowG m c (64 * (0 + s) + j.val) :=
    Finset.sum_congr rfl (fun s hs => tileS_eq m ρ c (0 + s) (by have := Finset.mem_range.mp hs; omega))
  have h1 : (∑ s ∈ Finset.range (63 % 32 + 1), tileS m ρ c (63 - 63 % 32 + s))
      = ∑ s ∈ Finset.range 32, ∑ j : Fin 64, rowG m c (64 * (32 + s) + j.val) :=
    Finset.sum_congr rfl (fun s hs => tileS_eq m ρ c (32 + s) (by have := Finset.mem_range.mp hs; omega))
  rw [h0, h1, Cert.SumAlgebra.sum_two_cores (rowG m c)]
  unfold Cert.Spec.lmSum
  refine Finset.sum_congr rfl (fun r _ => ?_)
  unfold rowG
  rw [dif_pos r.isLt]

theorem lm_cnt_total : cntArr m ρ c (ix2 (0 : Fin 16) (0 : Fin 1)) + cntArr m ρ c (ix2 (8 : Fin 16) (0 : Fin 1))
    = Cert.Spec.lmCnt (argL m c) := by
  rw [cntArr_core0, cntArr_core1, acc_cnt m ρ c 31 lt31, acc_cnt m ρ c 63 lt63]
  have h0 : (∑ s ∈ Finset.range (31 % 32 + 1), tileC m ρ c (31 - 31 % 32 + s))
      = ∑ s ∈ Finset.range 32, ∑ j : Fin 64, rowV m c (64 * (0 + s) + j.val) :=
    Finset.sum_congr rfl (fun s hs => tileC_eq m ρ c (0 + s) (by have := Finset.mem_range.mp hs; omega))
  have h1 : (∑ s ∈ Finset.range (63 % 32 + 1), tileC m ρ c (63 - 63 % 32 + s))
      = ∑ s ∈ Finset.range 32, ∑ j : Fin 64, rowV m c (64 * (32 + s) + j.val) :=
    Finset.sum_congr rfl (fun s hs => tileC_eq m ρ c (32 + s) (by have := Finset.mem_range.mp hs; omega))
  rw [h0, h1, Cert.SumAlgebra.sum_two_cores (rowV m c)]
  unfold Cert.Spec.lmCnt
  refine Finset.sum_congr rfl (fun r _ => ?_)
  unfold rowV
  rw [dif_pos r.isLt]

end Cert.KernelIdeal.Val

end
-- ==== Proof.BlankGram.lean ====
/-
  The blank kernel's matrix product at an entry: the features (a change of float format is the identity on the extended
  reals) times their transpose, into a zero accumulator, is the Gram matrix: entry (i, j) is the sum over the 1536 columns
  k of B i k · B j k.
-/
import proofs.«411738_j39814346834260_2_alg».proof.Proof.Gen.KernelIdeal.Frame
import proofs.«411738_j39814346834260_2_alg».proof.Proof.Spec
import proofs.«411738_j39814346834260_2_alg».proof.Proof.KernelNames
import Idealize.ShloMosaic.PureOps.Ideal.Laws
import Idealize.ShloMosaic.Lib.Pipeline.Value
import Idealize.ShloMosaic.Lib.ValueLayout
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- Axis 0 of the left operand's index is the output's row. -/
private theorem lhs_gram_0 (i : S256x256.Idx) (q : dot_S256x1536_S1536x256_S256x256_1_0_0_1_n_n.contr.Idx) :
    (dot_S256x1536_S1536x256_S256x256_1_0_0_1_n_n.lhsIdx i q 0).val = (i 0).val := by
  unfold DotDims.lhsIdx
  rw [dif_neg (show ¬(0 : Fin S256x1536.rank) ∈ dot_S256x1536_S1536x256_S256x256_1_0_0_1_n_n.lhsBatch by decide), dif_pos (show (0 : Fin S256x1536.rank) ∈ dot_S256x1536_S1536x256_S256x256_1_0_0_1_n_n.lhsNonContracting by decide)]
  rfl
/-- Axis 1 of the left operand's index is the contraction coordinate. -/
private theorem lhs_gram_1 (i : S256x256.Idx) (q : dot_S256x1536_S1536x256_S256x256_1_0_0_1_n_n.contr.Idx) :
    (dot_S256x1536_S1536x256_S256x256_1_0_0_1_n_n.lhsIdx i q 1).val = (q ⟨0, by decide⟩).val :=
  dot_S256x1536_S1536x256_S256x256_1_0_0_1_n_n.lhsIdx_val_of_single rfl i q
/-- Axis 0 of the right operand's index is the contraction coordinate. -/
private theorem rhs_gram_0 (i : S256x256.Idx) (q : dot_S256x1536_S1536x256_S256x256_1_0_0_1_n_n.contr.Idx) :
    (dot_S256x1536_S1536x256_S256x256_1_0_0_1_n_n.rhsIdx i q 0).val = (q ⟨0, by decide⟩).val :=
  dot_S256x1536_S1536x256_S256x256_1_0_0_1_n_n.rhsIdx_val_of_single rfl i q
/-- Axis 1 of the right operand's index is the output's column. -/
private theorem rhs_gram_1 (i : S256x256.Idx) (q : dot_S256x1536_S1536x256_S256x256_1_0_0_1_n_n.contr.Idx) :
    (dot_S256x1536_S1536x256_S256x256_1_0_0_1_n_n.rhsIdx i q 1).val = (i 1).val := by
  unfold DotDims.rhsIdx
  rw [dif_neg (show ¬(1 : Fin S1536x256.rank) ∈ dot_S256x1536_S1536x256_S256x256_1_0_0_1_n_n.rhsBatch by decide), dif_pos (show (1 : Fin S1536x256.rank) ∈ dot_S256x1536_S1536x256_S256x256_1_0_0_1_n_n.rhsNonContracting by decide)]
  rfl

/-- The left operand's index at output (i, ·) and contraction coordinate k: (i, k). -/
private abbrev lidx_gram (i : S256x256.Idx) (k : Fin 1536) : S256x1536.Idx := fun a => match a with
  | ⟨0, _⟩ => ⟨(i 0).val, (i 0).isLt⟩
  | ⟨1, _⟩ => ⟨k.val, k.isLt⟩
/-- The right operand's index at output (·, j) and contraction coordinate k: (k, j). -/
private abbrev ridx_gram (i : S256x256.Idx) (k : Fin 1536) : S1536x256.Idx := fun a => match a with
  | ⟨0, _⟩ => ⟨k.val, k.isLt⟩
  | ⟨1, _⟩ => ⟨(i 1).val, (i 1).isLt⟩

/-- The product into the zero accumulator at an entry: the sum over the contraction coordinate of the operands' products. -/
private theorem matmul_gram_apply (a : FVec Ideal S256x1536 .bf16) (b : FVec Ideal S1536x256 .bf16) (i : S256x256.Idx) :
    FloatOps.matmul dot_S256x1536_S1536x256_S256x256_1_0_0_1_n_n none a b (constant (F := Ideal) S256x256 .f32 0x00000000#32) i
      = ∑ k : Fin 1536, a (lidx_gram i k) * b (ridx_gram i k) := by
  rw [Ideal.matmul_constant_zero_apply, ← Equiv.sum_comp (ValueIdx.contrEquiv1 dot_S256x1536_S1536x256_S256x256_1_0_0_1_n_n 1536 rfl rfl).symm]
  refine Finset.sum_congr rfl fun k _ => ?_
  have hk := ValueIdx.contrEquiv1_symm_val dot_S256x1536_S1536x256_S256x256_1_0_0_1_n_n 1536 rfl rfl k
  have el : dot_S256x1536_S1536x256_S256x256_1_0_0_1_n_n.lhsIdx i ((ValueIdx.contrEquiv1 dot_S256x1536_S1536x256_S256x256_1_0_0_1_n_n 1536 rfl rfl).symm k) = lidx_gram i k := funext fun a => Fin.ext (by
    match a with
    | ⟨0, _⟩ => exact lhs_gram_0 _ _
    | ⟨1, _⟩ => exact (lhs_gram_1 _ _).trans hk)
  have er : dot_S256x1536_S1536x256_S256x256_1_0_0_1_n_n.rhsIdx i ((ValueIdx.contrEquiv1 dot_S256x1536_S1536x256_S256x256_1_0_0_1_n_n 1536 rfl rfl).symm k) = ridx_gram i k := funext fun a => Fin.ext (by
    match a with
    | ⟨0, _⟩ => exact (rhs_gram_0 _ _).trans hk
    | ⟨1, _⟩ => exact rhs_gram_1 _ _)
  rw [el, er]

theorem gram_val (x0 : Vec Ideal S256x1536 .f32) (i j : Fin 256) :
    (k1_pay2 (F := Ideal) x0 : (⟨2, ![256, 256]⟩ : Shape).Idx → EReal) (ix2 i j) = Cert.Spec.gram x0 i j := by
  unfold k1_pay2 Cert.Spec.gram
  show FloatOps.matmul dot_S256x1536_S1536x256_S256x256_1_0_0_1_n_n none _ _ (constant (F := Ideal) S256x256 .f32 0x00000000#32) (ix2 i j) = _
  rw [matmul_gram_apply]
  refine Finset.sum_congr rfl fun k _ => ?_
  rw [truncf_apply, transpose_apply [1, 0] _ transposes_S256x1536_p1_0_S1536x256 (ridx_gram (ix2 i j) k) (ix2 j k) (fun b => match b with
    | ⟨0, _⟩ => rfl
    | ⟨1, _⟩ => rfl), truncf_apply]
  have el : lidx_gram (ix2 i j) k = ix2 i k := funext fun a => Fin.ext (by
    match a with
    | ⟨0, _⟩ => rfl
    | ⟨1, _⟩ => rfl)
  rw [el]

end Cert.KernelIdeal.Val

end
-- ==== Proof.BlankBody.lean ====
/-
  What the blank kernel's body leaves in its 1 × 1 output block, as a function of its three input blocks: the features x0,
  the marks down a column x1 and along a row x2. The matrix product of x0 with its transpose is the Gram matrix; the masks,
  the two softplus terms, the four sums over all pairs (each a sum over columns then over rows) and the quotient are the
  blank loss of x0 under the two mark vectors.
-/
import proofs.«411738_j39814346834260_2_alg».proof.Proof.Gen.KernelIdeal.Frame
import proofs.«411738_j39814346834260_2_alg».proof.Proof.Spec
import proofs.«411738_j39814346834260_2_alg».proof.Proof.KernelNames
import proofs.«411738_j39814346834260_2_alg».proof.Proof.BlankGram
import Idealize.ShloMosaic.PureOps.Ideal.Laws
import Idealize.ShloMosaic.Lib.Pipeline.Value
import Idealize.ShloMosaic.Lib.ValueLayout
import Idealize.ShloMosaic.Lib.IdealHost
import Idealize.ShloMosaic.Lib.WordArith
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- Two words below 256 compare, signed, as the naturals they encode. -/
private theorem slt_small (a b : Nat) (ha : a < 256) (hb : b < 256) :
    IntOp.cmpi .slt (BitVec.ofNat 32 a) (BitVec.ofNat 32 b) = BitVec.ofBool (decide (a < b)) := by
  unfold IntOp.cmpi
  simp only [BitVec.slt, WordArith.toInt_ofNat_small a (by omega), WordArith.toInt_ofNat_small b (by omega)]
  congr 1
  simp

/-- A one-bit word widened to 32 bits and read as a signed integer is the real 1 or 0. -/
private theorem sitofp_bit (b : Bool) :
    (FloatOps.sitofp (F := Ideal) .f32 ((BitVec.ofBool b).setWidth 32) : EReal) = if b then 1 else 0 := by
  cases b
  · show (((BitVec.setWidth 32 (BitVec.ofBool false)).toInt : ℝ) : EReal) = 0
    simp
  · show (((BitVec.setWidth 32 (BitVec.ofBool true)).toInt : ℝ) : EReal) = 1
    simp

/-- The kernel's 0/1 matrix "row below column", as a float: 1 above the diagonal, else 0. -/
private theorem upper_val (i j : Fin 256) :
    (sitofp (F := Ideal) .f32 (extui 32 (cmpi .slt (iota .tc S256x256 32 [0] iota_S256x256_d0_w32) (iota .tc S256x256 32 [1] iota_S256x256_d1_w32)) natLt_1_32)
      : S256x256.Idx → EReal) (ix2 i j) = Cert.Spec.upper i j := by
  show FloatOps.sitofp (F := Ideal) .f32 ((IntOp.cmpi .slt (iota .tc S256x256 32 [0] iota_S256x256_d0_w32 (ix2 i j)) (iota .tc S256x256 32 [1] iota_S256x256_d1_w32 (ix2 i j))).setWidth 32) = _
  rw [iota_single_apply, iota_single_apply]
  show FloatOps.sitofp (F := Ideal) .f32 ((IntOp.cmpi .slt (BitVec.ofNat 32 i.val) (BitVec.ofNat 32 j.val)).setWidth 32) = _
  rw [slt_small i.val j.val i.isLt j.isLt, sitofp_bit]
  unfold Cert.Spec.upper
  by_cases h : i.val < j.val
  · simp [h]
  · simp [h]

/-- A column broadcast along rows reads, at (i, j), the column's entry i. -/
private theorem broadcastTo_a1_ab_apply {α : Type} (v : S256x1.Idx → α) (h : S256x1.Broadcasts S256x256) (i j : Fin 256) :
    broadcastTo S256x256 v h (ix2 i j) = v (ix2 i (0 : Fin 1)) := by
  refine broadcastTo_apply v h (ix2 i j) (ix2 i (0 : Fin 1)) fun ax => ?_
  match ax with
  | ⟨0, _⟩ => rfl
  | ⟨1, _⟩ => rfl

/-- The comparison "ordered and different" of an extended real with itself is the zero bit. -/
private theorem cmp_one_self (a : EReal) : Ideal.cmp .one a a = 0#1 := by
  unfold Ideal.cmp
  simp

/-- The kernel's softplus of a: the guarded form, whose guard never holds on the extended reals. -/
private theorem softplus_val (a : EReal) :
    Scalar.select (Ideal.cmp .one (a - 0) (a - 0)) (a + 0)
        (max a 0 + Ideal.log1p (Ideal.exp (0 - max (a - 0) (-(a - 0))))) = Cert.Spec.softplus a := by
  rw [cmp_one_self, select_zero, sub_zero, zero_sub]
  rfl

/-- Summing a 256 × 256 matrix along its rows, viewing the 256 row sums as a column, summing that column and viewing the
    one sum as a 1 × 1 block gives the sum over all pairs (i, j). -/
private theorem sum_all (src : FVec Ideal S256x256 .f32)
    (hacc : (0x00000000#32 : BitVec 32) = 0x00000000#32) :
    (shapeCast S1x1
        (multiReduction (F := Ideal) .add [0] S1
          (shapeCast S256x1 (multiReduction (F := Ideal) .add [1] S256 src 0x00000000#32 reduces_S256x256_S256 (.inl rfl) hacc) shapeCasts_S256_S256x1)
          0x00000000#32 reduces_S256x1_S1 (.inl rfl) hacc)
        shapeCasts_S1_S1x1 : S1x1.Idx → EReal) (ix2 (0 : Fin 1) (0 : Fin 1))
      = ∑ i : Fin 256, ∑ j : Fin 256, src (ix2 i j) := by
  refine (shapeCast_apply _ shapeCasts_S1_S1x1 (ix2 (0 : Fin 1) (0 : Fin 1)) (ix1 (0 : Fin 1)) (by
    rw [Shape.rowMajor_val_one, Shape.rowMajor_val_two]; rfl)).trans ?_
  refine (Ideal.multiReduction_add_single _ 0x00000000#32 reduces_S256x1_S1 (.inl rfl) hacc (ix1 (0 : Fin 1))).trans ?_
  show ∑ i : Fin 256, _ = _
  refine Finset.sum_congr rfl fun i _ => ?_
  refine (shapeCast_apply _ shapeCasts_S256_S256x1 _ (ix1 i) (by
    rw [Shape.rowMajor_val_one, Shape.rowMajor_val_two]; show i.val = i.val * 1 + 0; omega)).trans ?_
  refine (Ideal.multiReduction_add_single src 0x00000000#32 reduces_S256x256_S256 (.inl rfl) hacc (ix1 i)).trans ?_
  show ∑ j : Fin 256, _ = _
  refine Finset.sum_congr rfl fun j _ => ?_
  refine congrArg src (funext fun a => Fin.ext ?_)
  match a with
  | ⟨0, _⟩ => rfl
  | ⟨1, _⟩ => rfl

/-- The positive-pair weight at (i, j): the column mark i times the row mark j, above the diagonal. -/
private theorem pay5_val (x1 : Vec Ideal S256x1 .f32) (x2 : Vec Ideal S1x256 .f32) (i j : Fin 256) :
    (k1_pay5 (F := Ideal) x1 x2 : S256x256.Idx → EReal) (ix2 i j)
      = Cert.Spec.posMask (fun i => (x1 : S256x1.Idx → EReal) (ix2 i (0 : Fin 1)))
          (fun j => (x2 : S1x256.Idx → EReal) (ix2 (0 : Fin 1) j)) i j := by
  unfold k1_pay5 k1_pay3 k1_pay4
  simp only [shapeCast_self]
  unfold Cert.Spec.posMask
  refine (mulf_apply _ _ _).trans ?_
  refine congrArg₂ (· * ·) ((mulf_apply _ _ _).trans (congrArg₂ (· * ·) ?_ ?_)) (upper_val i j)
  · exact broadcastTo_a1_ab_apply _ _ i j
  · exact broadcastTo_1b_ab_apply _ _ i j

/-- The negative-pair weight at (i, j): the column mark i times one minus the row mark j. -/
private theorem pay6_val (x1 : Vec Ideal S256x1 .f32) (x2 : Vec Ideal S1x256 .f32) (i j : Fin 256) :
    (k1_pay6 (F := Ideal) x1 x2 : S256x256.Idx → EReal) (ix2 i j)
      = Cert.Spec.negMask (fun i => (x1 : S256x1.Idx → EReal) (ix2 i (0 : Fin 1)))
          (fun j => (x2 : S1x256.Idx → EReal) (ix2 (0 : Fin 1) j)) i j := by
  unfold k1_pay6 k1_pay3 k1_pay4
  simp only [shapeCast_self]
  unfold Cert.Spec.negMask
  refine (mulf_apply _ _ _).trans (congrArg₂ (· * ·) ?_ ?_)
  · exact broadcastTo_a1_ab_apply _ _ i j
  · refine (broadcastTo_1b_ab_apply _ _ i j).trans ?_
    refine (subf_apply _ _ _).trans ?_
    show Ideal.ofBits .f32 0x3F800000#32 - _ = _
    rw [Ideal.ofBits_one_f32]

/-- The kernel's guarded softplus of a matrix g, read at an entry, is the softplus of g's entry: the guard compares an
    entry with itself, so the second branch is taken. -/
private theorem softplus_vec (g : FVec Ideal S256x256 .f32) (idx : S256x256.Idx) :
    (select (cmpf .one (subf g (broadcast S256x256 (Scalar.ofBits .f32 0x00000000#32))) (subf g (broadcast S256x256 (Scalar.ofBits .f32 0x00000000#32))))
        (addf g (broadcast S256x256 (Scalar.ofBits .f32 0x00000000#32)))
        (addf (maximumf g (broadcast S256x256 (Scalar.ofBits .f32 0x00000000#32)))
          (log1p (exp (subf (broadcast S256x256 (Scalar.ofBits .f32 0x00000000#32))
            (absf (subf g (broadcast S256x256 (Scalar.ofBits .f32 0x00000000#32)))))))) : S256x256.Idx → EReal) idx
      = Cert.Spec.softplus (g idx) := by
  show Scalar.select (Ideal.cmp .one (g idx - Ideal.ofBits .f32 0x00000000#32) (g idx - Ideal.ofBits .f32 0x00000000#32))
        (g idx + Ideal.ofBits .f32 0x00000000#32)
        (max (g idx) (Ideal.ofBits .f32 0x00000000#32) + Ideal.log1p (Ideal.exp (Ideal.ofBits .f32 0x00000000#32
          - max (g idx - Ideal.ofBits .f32 0x00000000#32) (-(g idx - Ideal.ofBits .f32 0x00000000#32))))) = _
  rw [Ideal.ofBits_zero_f32]
  exact softplus_val _

/-- The first softplus matrix at (i, j): the softplus of minus the Gram entry. -/
private theorem pay7_val (x0 : Vec Ideal S256x1536 .f32) (i j : Fin 256) :
    (k1_pay7 (F := Ideal) x0 : S256x256.Idx → EReal) (ix2 i j) = Cert.Spec.softplus (-(Cert.Spec.gram x0 i j)) := by
  unfold k1_pay7
  refine (softplus_vec _ _).trans ?_
  refine congrArg Cert.Spec.softplus ?_
  refine (subf_apply _ _ _).trans ?_
  show Ideal.ofBits .f32 0x00000000#32 - _ = _
  rw [Ideal.ofBits_zero_f32, zero_sub, gram_val]

/-- The second softplus matrix, assembled from its five parts, at (i, j): the softplus of the Gram entry. -/
private theorem soft2_val (x0 : Vec Ideal S256x1536 .f32) (i j : Fin 256) :
    (select (k1_pay10 (F := Ideal) x0) (k1_pay11 (F := Ideal) x0)
        (addf (k1_pay8 (F := Ideal) x0)
          (log1p (exp (subf (broadcast S256x256 (Scalar.ofBits .f32 0x00000000#32)) (k1_pay12 (F := Ideal) x0))))) : S256x256.Idx → EReal) (ix2 i j)
      = Cert.Spec.softplus (Cert.Spec.gram x0 i j) := by
  unfold k1_pay10 k1_pay11 k1_pay8 k1_pay12 k1_pay9
  refine (softplus_vec _ _).trans ?_
  rw [gram_val]

/-- The block the blank kernel's body leaves: the blank loss of the features under the two mark vectors. The quotient's
    numerator is the two weighted softplus sums, its denominator the larger of the total weight and 1. -/
theorem out1_val (x0 : Vec Ideal S256x1536 .f32) (x1 : Vec Ideal S256x1 .f32) (x2 : Vec Ideal S1x256 .f32) :
    (out1_3 (F := Ideal) x0 x1 x2 : (⟨2, ![1, 1]⟩ : Shape).Idx → EReal) (ix2 (0 : Fin 1) (0 : Fin 1))
      = Cert.Spec.blankOf x0 (fun i => (x1 : (⟨2, ![256, 1]⟩ : Shape).Idx → EReal) (ix2 i (0 : Fin 1)))
          (fun j => (x2 : (⟨2, ![1, 256]⟩ : Shape).Idx → EReal) (ix2 (0 : Fin 1) j)) := by
  have hz : (![0, 0] : Fin 2 → Nat) = fun _ => 0 := by funext a; fin_cases a <;> rfl
  unfold out1_3
  rw [View.canon_unit_zero hz]
  simp only [View.ld_unit_zero (S := S256x1536) hz, View.ld_unit_zero (S := S256x1) hz, View.ld_unit_zero (S := S1x256) hz]
  unfold k1_pay1 Cert.Spec.blankOf
  refine (divf_apply _ _ _).trans (congrArg₂ Ideal.div ?_ ?_)
  · refine (addf_apply _ _ _).trans (congrArg₂ (· + ·) ?_ ?_)
    · refine (sum_all _ rfl).trans ?_
      unfold Cert.Spec.posSum
      refine Finset.sum_congr rfl fun i _ => Finset.sum_congr rfl fun j _ => ?_
      exact (mulf_apply _ _ _).trans (congrArg₂ (· * ·) (pay7_val x0 i j) (pay5_val x1 x2 i j))
    · refine (sum_all _ rfl).trans ?_
      unfold Cert.Spec.negSum
      refine Finset.sum_congr rfl fun i _ => Finset.sum_congr rfl fun j _ => ?_
      exact (mulf_apply _ _ _).trans (congrArg₂ (· * ·) (soft2_val x0 i j) (pay6_val x1 x2 i j))
  · refine (maximumf_apply _ _ _).trans (congrArg₂ max ?_ ?_)
    · refine (addf_apply _ _ _).trans (congrArg₂ (· + ·) ?_ ?_)
      · refine (sum_all _ rfl).trans ?_
        unfold Cert.Spec.posCnt
        exact Finset.sum_congr rfl fun i _ => Finset.sum_congr rfl fun j _ => pay5_val x1 x2 i j
      · refine (sum_all _ rfl).trans ?_
        unfold Cert.Spec.negCnt
        exact Finset.sum_congr rfl fun i _ => Finset.sum_congr rfl fun j _ => pay6_val x1 x2 i j
    · show Ideal.ofBits .f32 0x3F800000#32 = 1
      exact Ideal.ofBits_one_f32

end Cert.KernelIdeal.Val

end
-- ==== Proof.BlankFinal.lean ====
/-
  The blank region's array after its run. The grid has one point, whose blocks are the whole arrays, so the 1 × 1 result
  array holds what the body leaves of the features as launched and the marks laid out by the host: the blank loss.
-/
import proofs.«411738_j39814346834260_2_alg».proof.Proof.Gen.KernelIdeal.Frame
import proofs.«411738_j39814346834260_2_alg».proof.Proof.Spec
import proofs.«411738_j39814346834260_2_alg».proof.Proof.KernelNames
import proofs.«411738_j39814346834260_2_alg».proof.Proof.KernelHost
import proofs.«411738_j39814346834260_2_alg».proof.Proof.BlankBody
import Idealize.ShloMosaic.Lib.Pipeline.Value
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The features block of the one grid point is the features array as the region finds it. -/
private theorem blk_feats (t : Fin cfg1.N) : (iblk1 (V3 m ρ) c 0 t : Cert.Spec.SB.Idx → EReal) = V3 m ρ c main_arg1 := by
  have hz' : (fun a => win1_0.index t a * main_arg1.ty.shape.size a) = fun _ => 0 := by
    obtain rfl := fin_N1 t
    exact funext fun a => by fin_cases a <;> decide
  unfold iblk1
  exact Memref.read_access_unit_zero (Elt Ideal) main_arg1 hz' (fun a => by rw [congrFun hz' a]; simp) (V3 m ρ c main_arg1)

/-- The column block of the one grid point is the whole column of marks. -/
private theorem blk_col (t : Fin cfg1.N) :
    (iblk1 (V3 m ρ) c 1 t : (⟨2, ![256, 1]⟩ : Shape).Idx → EReal) = V3 m ρ c main_v17 := by
  have hz' : (fun a => win1_1.index t a * main_v17.ty.shape.size a) = fun _ => 0 := by
    obtain rfl := fin_N1 t
    exact funext fun a => by fin_cases a <;> decide
  unfold iblk1
  exact Memref.read_access_unit_zero (Elt Ideal) main_v17 hz' (fun a => by rw [congrFun hz' a]; simp) (V3 m ρ c main_v17)

/-- The row block of the one grid point is the whole row of marks. -/
private theorem blk_row (t : Fin cfg1.N) :
    (iblk1 (V3 m ρ) c 2 t : (⟨2, ![1, 256]⟩ : Shape).Idx → EReal) = V3 m ρ c main_v18 := by
  have hz' : (fun a => win1_2.index t a * main_v18.ty.shape.size a) = fun _ => 0 := by
    obtain rfl := fin_N1 t
    exact funext fun a => by fin_cases a <;> decide
  unfold iblk1
  exact Memref.read_access_unit_zero (Elt Ideal) main_v18 hz' (fun a => by rw [congrFun hz' a]; simp) (V3 m ρ c main_v18)

/-- What the body leaves of the whole arrays: the 1 × 1 result. -/
private abbrev blankOut : (⟨2, ![1, 1]⟩ : Shape).Idx → EReal :=
  out1_3 (F := Ideal) (iblk1 (V3 m ρ) c 0 t1_0) (iblk1 (V3 m ρ) c 1 t1_0) (iblk1 (V3 m ρ) c 2 t1_0)

/-- The one write-back writes it: block (0, 0) of a 1 × 1 array read through zero offsets is the array. -/
private theorem flushed_blank (t : Fin cfg1.N) (hf : (cfg1.win 3).flush t = true) :
    (dat1 (V3 m ρ) c).flushed 3 t = ((cfg1.win 3).blk t).view.read (Elt Ideal) (blankOut m ρ c) := by
  obtain rfl := fin_N1 t
  show (cfg1.win 3).cut (grid1.coords t1_0) ((dat1 (V3 m ρ) c).after 3 t1_0) = _
  rw [after1_3]
  have hz' : (fun a => win1_3.index t1_0 a * main_v19.ty.shape.size a) = fun _ => 0 :=
    funext fun a => by fin_cases a <;> decide
  exact (Memref.read_access_unit_zero (Elt Ideal) main_v19 hz' (fun a => by rw [congrFun hz' a]; simp) (blankOut m ρ c)).symm

/-- The one point's block is the whole 1 × 1 array, so the array ends holding what the body left. -/
private theorem outArr_eq : outArr m ρ c = blankOut m ρ c :=
  (dat1 (V3 m ρ) c).arrAt_eq_of_cover 3 (blankOut m ρ c) (flushed_blank m ρ c) fun i =>
    ⟨t1_0, flush1_3 t1_0, by
      show i ∈ ((View.whole main_v19).slice (win1_3.rect t1_0)).set
      rw [View.set_slice_whole, Rect.mem_set_unit]
      intro a
      have h0 : (i 0 : Nat) < 1 := (i 0).isLt
      have h1 : (i 1 : Nat) < 1 := (i 1).isLt
      match a with
      | ⟨0, _⟩ => show win1_3.index t1_0 0 * win1_3.size 0 ≤ (i 0 : Nat) ∧ (i 0 : Nat) < win1_3.index t1_0 0 * win1_3.size 0 + win1_3.xsize (grid1.coords t1_0) 0
                  rw [show win1_3.index t1_0 0 * win1_3.size 0 = 0 from by decide +kernel, show win1_3.xsize (grid1.coords t1_0) 0 = 1 from by decide +kernel]; omega
      | ⟨1, _⟩ => show win1_3.index t1_0 1 * win1_3.size 1 ≤ (i 1 : Nat) ∧ (i 1 : Nat) < win1_3.index t1_0 1 * win1_3.size 1 + win1_3.xsize (grid1.coords t1_0) 1
                  rw [show win1_3.index t1_0 1 * win1_3.size 1 = 0 from by decide +kernel, show win1_3.xsize (grid1.coords t1_0) 1 = 1 from by decide +kernel]; omega⟩

theorem outArr_val : outArr m ρ c (ix2 (0 : Fin 1) (0 : Fin 1)) = Cert.Spec.blankLoss (argB m c) (argY m c) := by
  rw [outArr_eq]
  show (out1_3 (F := Ideal) (iblk1 (V3 m ρ) c 0 t1_0) (iblk1 (V3 m ρ) c 1 t1_0) (iblk1 (V3 m ρ) c 2 t1_0)
    : (⟨2, ![1, 1]⟩ : Shape).Idx → EReal) (ix2 (0 : Fin 1) (0 : Fin 1)) = _
  rw [blk_feats, blk_col, blk_row, out1_val, V3_feats, V3_col, V3_row]
  rfl

end Cert.KernelIdeal.Val

end
-- ==== Proof.KernelValue.lean ====
/-
  The idealized kernel's result: the LM loss of the logits and labels plus the blank loss of the features and blank
  labels, as launched. The host operations give the result as the LM quotient plus the blank region's entry; the LM
  region's totals and the blank region's value fill those in.
-/
import proofs.«411738_j39814346834260_2_alg».proof.Proof.Gen.KernelIdeal.Frame
import proofs.«411738_j39814346834260_2_alg».proof.Proof.Spec
import proofs.«411738_j39814346834260_2_alg».proof.Proof.KernelNames
import proofs.«411738_j39814346834260_2_alg».proof.Proof.KernelHost
import proofs.«411738_j39814346834260_2_alg».proof.Proof.LmTotal
import proofs.«411738_j39814346834260_2_alg».proof.Proof.BlankFinal
import proofs.«411738_j39814346834260_2_alg».proof.Proof.KernelRun
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

theorem result_val : (W5 m ρ c (Proc.devRef .tc main_v21) : (⟨0, ![]⟩ : Shape).Idx → EReal)
    = fun _ => Cert.Spec.loss (argX m c) (argB m c) (argL m c) (argY m c) := by
  rw [result_eq, lm_sum_total, lm_cnt_total, outArr_val]
  rfl

/-- Every weakly fair execution of the idealized kernel terminates with the result at the loss of the arguments as
    launched, and the arguments unchanged. -/
theorem run : θ_run defs (onTc (τ := τ) (main (F := Ideal))) ⟨m, fun _ => 0, ρ⟩ (fun r => ∀ c : Dev nD,
      r.2.mem ((c.tc : Thread nD τ).loc main_v21) = (fun _ => Cert.Spec.loss (argX m c) (argB m c) (argL m c) (argY m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_val m ρ c), (h c).2⟩) (Cert.KernelIdeal.RunNamed.run_named m ρ)

end Cert.KernelIdeal.Val

end
-- ==== Proof.RefBlank.lean ====
/-
  The reference's blank head, read back stage by stage: the dot product of the features with their transpose is the Gram
  matrix; the strictly upper triangle, the two masks from the indicator of label 1, the two softplus terms (the guard on
  an unordered comparison never fires on the extended reals), the four sums over all pairs and the quotient are the blank
  loss of the features under the indicator of label 1.
-/
import proofs.«411738_j39814346834260_2_alg».proof.Proof.RefReadGen
import proofs.«411738_j39814346834260_2_alg».proof.Proof.Spec
import Idealize.ShloMosaic.PureOps.Ideal.Laws
import Idealize.ShloMosaic.Lib.IdealHost
import Idealize.ShloMosaic.Lib.ValueLayout
import Idealize.ShloMosaic.Lib.StableHlo.Predicate
set_option maxRecDepth 16384

noncomputable section

namespace Cert.ReferenceIdeal.RefVal

open Cert.ReferenceIdeal Cert.ReferenceIdeal.Gen Cert.ReferenceIdeal.ReadP
open Idealize.ShloMosaic Idealize.ShloMosaic.TcCoe Idealize.ShloMosaic.ValueIdx Idealize.SL.Sem

/-- The marks: the indicator of label 1 as an extended real. -/
private theorem marks_apply (Y : Cert.Spec.SY.Idx → BitVec 32) (i : Fin 256) :
    val_main_v17 (F := Ideal) Y (ix1 i) = Cert.Spec.mark Y i := by
  rw [val_main_v17_apply, val_main_v16_apply, val_main_v15_apply, val_main_c_4_apply]
  unfold Cert.Spec.mark
  by_cases h : Y (ix1 i) = 1#32
  · rw [if_pos h, StableHlo.Predicate.cmpi_eq_iff.mpr h]
    show (((1#1 : BitVec 1).toNat : ℝ) : EReal) = 1
    simp
  · rw [if_neg h, eq_zero_of_ne_one (fun hc => h (StableHlo.Predicate.cmpi_eq_iff.mp hc))]
    show (((0#1 : BitVec 1).toNat : ℝ) : EReal) = 0
    simp

/-- The Gram matrix. -/
private theorem gram_apply (B : Cert.Spec.SB.Idx → EReal) (i j : Fin 256) :
    val_main_v19 (F := Ideal) B (ix2 i j) = Cert.Spec.gram B i j := by
  rw [val_main_v19_apply]
  unfold Cert.Spec.gram
  refine Finset.sum_congr rfl fun k _ => ?_
  rw [val_main_v18_apply]
  have e1 : lidx_main_v19 (ix2 i j) k = ix2 i k :=
    funext fun a => Fin.ext (by match a with | ⟨0, _⟩ => rfl | ⟨1, _⟩ => rfl)
  have e2 : idx_main_v18 (ridx_main_v19 (ix2 i j) k) = ix2 j k :=
    funext fun a => Fin.ext (by match a with | ⟨0, _⟩ => rfl | ⟨1, _⟩ => rfl)
  rw [e1, e2]

/-- The strictly upper triangle: the bit is set exactly when the row index is below the column index. -/
private theorem triu_bit (i j : Fin 256) :
    val_main_v21 (F := Ideal) (ix2 i j) = if i.val < j.val then 1#1 else 0#1 := by
  rw [val_main_v21_apply, val_main_call4_v4_apply, val_main_call4_v2_apply, val_main_call4_v0_apply,
    val_main_call4_v1_apply, val_main_call4_c_apply, val_main_call4_v3_apply, val_main_call4_v5_apply,
    val_main_call4_c_0_apply, val_main_v20_apply, val_main_c_5_apply]
  show Scalar.select (IntOp.cmpi .sge (IntOp.addi (BitVec.ofNat 32 i.val) 0#32) (BitVec.ofNat 32 j.val)) 0#1 1#1 = _
  have hi : (IntOp.addi (BitVec.ofNat 32 i.val) 0#32).toNat = i.val := by
    show (BitVec.ofNat 32 i.val + 0#32).toNat = i.val
    rw [BitVec.add_zero, BitVec.toNat_ofNat]; have := i.isLt; omega
  have hj : (BitVec.ofNat 32 j.val).toNat = j.val := by
    rw [BitVec.toNat_ofNat]; have := j.isLt; omega
  have hiff := StableHlo.Predicate.sge_iff_toNat (a := IntOp.addi (BitVec.ofNat 32 i.val) 0#32) (b := BitVec.ofNat 32 j.val)
    (by rw [hi]; have := i.isLt; omega) (by rw [hj]; have := j.isLt; omega)
  rw [hi, hj] at hiff
  by_cases h : i.val < j.val
  · rw [if_pos h, eq_zero_of_ne_one (fun hc => absurd (hiff.mp hc) (by omega)), select_zero]
  · rw [if_neg h, hiff.mpr (by omega), select_one]

private theorem upper_apply (i j : Fin 256) :
    val_main_v27 (F := Ideal) (ix2 i j) = Cert.Spec.upper i j := by
  rw [val_main_v27_apply, triu_bit]
  unfold Cert.Spec.upper
  by_cases h : i.val < j.val
  · rw [if_pos h, if_pos h]
    show (((1#1 : BitVec 1).toNat : ℝ) : EReal) = 1
    simp
  · rw [if_neg h, if_neg h]
    show (((0#1 : BitVec 1).toNat : ℝ) : EReal) = 0
    simp

/-- The positive mask: the marks down the column times the marks along the row, above the diagonal. -/
private theorem pos_apply (Y : Cert.Spec.SY.Idx → BitVec 32) (i j : Fin 256) :
    val_main_v28 (F := Ideal) Y (ix2 i j) = Cert.Spec.posMask (Cert.Spec.mark Y) (Cert.Spec.mark Y) i j := by
  have e1 : idx_main_v22 (idx_main_v24 (ix2 i j)) = ix1 i :=
    funext fun a => Fin.ext (by match a with | ⟨0, _⟩ => rfl)
  have e2 : idx_main_v23 (idx_main_v25 (ix2 i j)) = ix1 j :=
    funext fun a => Fin.ext (by match a with | ⟨0, _⟩ => rfl)
  rw [val_main_v28_apply, val_main_v26_apply, val_main_v24_apply, val_main_v22_apply, val_main_v25_apply,
    val_main_v23_apply, e1, e2, marks_apply, marks_apply, upper_apply]
  rfl

/-- The negative mask: the marks down the column times one minus the marks along the row. -/
private theorem neg_apply (Y : Cert.Spec.SY.Idx → BitVec 32) (i j : Fin 256) :
    val_main_v35 (F := Ideal) Y (ix2 i j) = Cert.Spec.negMask (Cert.Spec.mark Y) (Cert.Spec.mark Y) i j := by
  have e1 : idx_main_v29 (idx_main_v33 (ix2 i j)) = ix1 i :=
    funext fun a => Fin.ext (by match a with | ⟨0, _⟩ => rfl)
  have e2 : idx_main_v30 (idx_main_v34 (ix2 i j)) = ix1 j :=
    funext fun a => Fin.ext (by match a with | ⟨0, _⟩ => rfl)
  rw [val_main_v35_apply, val_main_v33_apply, val_main_v29_apply, val_main_v34_apply, val_main_v32_apply,
    val_main_v30_apply, val_main_v31_apply, val_main_cst_6_apply, e1, e2, marks_apply, marks_apply,
    Ideal.ofBits_def, Ideal.ofBits_one_f32]
  rfl

/-- The printed softplus at one element: the guard compares an extended real with itself, so it never fires. -/
private theorem softplus_read (x z : EReal) (hz : z = 0) :
    Scalar.select (Ideal.cmp .une (x - z) (x - z)) (x + z)
        (max x z + Ideal.log1p (Ideal.exp (-(max (x - z) (-(x - z)))))) = Cert.Spec.softplus x := by
  subst hz
  have hc : Ideal.cmp .une (x - 0) (x - 0) = 0#1 := by
    unfold Ideal.cmp; simp
  rw [hc, select_zero, sub_zero]
  rfl

private theorem sp_neg_apply (B : Cert.Spec.SB.Idx → EReal) (i j : Fin 256) :
    val_main_v37 (F := Ideal) B (ix2 i j) = Cert.Spec.softplus (-(Cert.Spec.gram B i j)) := by
  simp only [val_main_v37_apply, val_main_call5_v4_apply, val_main_call5_v6_apply, val_main_call5_v11_apply,
    val_main_call5_v1_apply, val_main_call5_v10_apply, val_main_call5_v9_apply, val_main_call5_v8_apply,
    val_main_call5_v7_apply, val_main_call5_v3_apply, val_main_call5_v0_apply, val_main_call5_v2_apply,
    val_main_call5_v5_apply, val_main_call5_cst_apply, val_main_v36_apply, gram_apply]
  exact softplus_read _ _ Ideal.ofBits_zero_f32

private theorem sp_pos_apply (B : Cert.Spec.SB.Idx → EReal) (i j : Fin 256) :
    val_main_v40 (F := Ideal) B (ix2 i j) = Cert.Spec.softplus (Cert.Spec.gram B i j) := by
  simp only [val_main_v40_apply, val_main_call6_v4_apply, val_main_call6_v6_apply, val_main_call6_v11_apply,
    val_main_call6_v1_apply, val_main_call6_v10_apply, val_main_call6_v9_apply, val_main_call6_v8_apply,
    val_main_call6_v7_apply, val_main_call6_v3_apply, val_main_call6_v0_apply, val_main_call6_v2_apply,
    val_main_call6_v5_apply, val_main_call6_cst_apply, gram_apply]
  exact softplus_read _ _ Ideal.ofBits_zero_f32

/-- The sum of the positive pairs' terms. -/
private theorem posSum_apply (B : Cert.Spec.SB.Idx → EReal) (Y : Cert.Spec.SY.Idx → BitVec 32) (i : S_.Idx) :
    val_main_v39 (F := Ideal) B Y i = Cert.Spec.posSum B (Cert.Spec.mark Y) (Cert.Spec.mark Y) := by
  rw [val_main_v39_apply, val_main_cst_7_apply, Ideal.ofBits_def, Ideal.ofBits_zero_f32, zero_add, sum_idx2]
  unfold Cert.Spec.posSum
  refine Finset.sum_congr rfl fun a _ => Finset.sum_congr rfl fun b _ => ?_
  rw [val_main_v38_apply, sp_neg_apply, pos_apply]
  rfl

/-- The sum of the negative pairs' terms. -/
private theorem negSum_apply (B : Cert.Spec.SB.Idx → EReal) (Y : Cert.Spec.SY.Idx → BitVec 32) (i : S_.Idx) :
    val_main_v42 (F := Ideal) B Y i = Cert.Spec.negSum B (Cert.Spec.mark Y) (Cert.Spec.mark Y) := by
  rw [val_main_v42_apply, val_main_cst_8_apply, Ideal.ofBits_def, Ideal.ofBits_zero_f32, zero_add, sum_idx2]
  unfold Cert.Spec.negSum
  refine Finset.sum_congr rfl fun a _ => Finset.sum_congr rfl fun b _ => ?_
  rw [val_main_v41_apply, sp_pos_apply, neg_apply]
  rfl

/-- The positive pairs' total weight. -/
private theorem posCnt_apply (Y : Cert.Spec.SY.Idx → BitVec 32) (i : S_.Idx) :
    val_main_v43 (F := Ideal) Y i = Cert.Spec.posCnt (Cert.Spec.mark Y) (Cert.Spec.mark Y) := by
  rw [val_main_v43_apply, val_main_cst_9_apply, Ideal.ofBits_def, Ideal.ofBits_zero_f32, zero_add, sum_idx2]
  unfold Cert.Spec.posCnt
  exact Finset.sum_congr rfl fun a _ => Finset.sum_congr rfl fun b _ => pos_apply Y a b

/-- The negative pairs' total weight. -/
private theorem negCnt_apply (Y : Cert.Spec.SY.Idx → BitVec 32) (i : S_.Idx) :
    val_main_v44 (F := Ideal) Y i = Cert.Spec.negCnt (Cert.Spec.mark Y) (Cert.Spec.mark Y) := by
  rw [val_main_v44_apply, val_main_cst_10_apply, Ideal.ofBits_def, Ideal.ofBits_zero_f32, zero_add, sum_idx2]
  unfold Cert.Spec.negCnt
  exact Finset.sum_congr rfl fun a _ => Finset.sum_congr rfl fun b _ => neg_apply Y a b

theorem blank_val (B : Cert.Spec.SB.Idx → EReal) (Y : Cert.Spec.SY.Idx → BitVec 32) :
    (val_main_v48 (F := Ideal) B Y : (⟨0, ![]⟩ : Shape).Idx → EReal) = fun _ => Cert.Spec.blankLoss B Y := by
  funext i
  rw [val_main_v48_apply, val_main_v47_apply, val_main_v46_apply, val_main_v45_apply, val_main_cst_11_apply,
    posSum_apply, negSum_apply, posCnt_apply, negCnt_apply, Ideal.ofBits_def, Ideal.ofBits_one_f32]
  rfl

end Cert.ReferenceIdeal.RefVal

end
-- ==== Proof.RefLmRow.lean ====
/-
  The reference's LM head, one row. For finite logits and a label that is -1 or a column number: log_softmax of the row at
  the label's column is (x - m) - log s with m the row maximum and s the shifted sum of exponentials, so its negation is
  (m + log s) - x, the row's negative log-likelihood; a row whose label is -1 reads column 0 and is then replaced by 0.
  Either way the row's entry after the mask is the row's term.
-/
import proofs.«411738_j39814346834260_2_alg».proof.Proof.RefReadGen
import proofs.«411738_j39814346834260_2_alg».proof.Proof.Spec
import Idealize.ShloMosaic.PureOps.Ideal.Laws
import Idealize.ShloMosaic.Lib.IdealHost
import Idealize.ShloMosaic.Lib.ValueLayout
import Idealize.ShloMosaic.Lib.StableHlo.Predicate
import Idealize.ShloMosaic.Lib.WordArith
set_option maxRecDepth 16384

noncomputable section

namespace Cert.ReferenceIdeal.RefVal

open Cert.ReferenceIdeal Cert.ReferenceIdeal.Gen Cert.ReferenceIdeal.ReadP
open Idealize.ShloMosaic Idealize.ShloMosaic.TcCoe Idealize.ShloMosaic.ValueIdx Idealize.SL.Sem

/-- On the extended reals, for real x and m and any L: -((x - m) - L) = (m + L) - x. -/
private theorem neg_sub_sub_eq (x m : ℝ) (L : EReal) :
    -(((x : EReal) - (m : EReal)) - L) = ((m : EReal) + L) - (x : EReal) := by
  induction L using EReal.rec with
  | bot =>
    rw [← EReal.coe_sub, EReal.coe_sub_bot, EReal.neg_top, EReal.add_bot, EReal.bot_sub]
  | top =>
    rw [← EReal.coe_sub, EReal.sub_top, EReal.neg_bot, EReal.coe_add_top, EReal.top_sub_coe]
  | coe L =>
    rw [← EReal.coe_sub, ← EReal.coe_sub, ← EReal.coe_neg, ← EReal.coe_add, ← EReal.coe_sub]
    congr 1; ring

/-- The fold of max from -∞ over finitely many real numbers is not +∞. -/
private theorem fold_max_ne_top {n : Nat} (f : Fin n → EReal) (hf : ∀ v, f v ≠ ⊤) :
    (Finset.univ : Finset (Fin n)).fold max ⊥ f ≠ ⊤ := by
  have h : (Finset.univ : Finset (Fin n)).fold max ⊥ f < ⊤ :=
    (Finset.fold_max_lt ⊤).2 ⟨bot_lt_top, fun v _ => lt_top_iff_ne_top.2 (hf v)⟩
  exact h.ne

/-- The fold of max over a family with a member above -∞ is not -∞. -/
private theorem fold_max_ne_bot {n : Nat} (f : Fin n → EReal) (v0 : Fin n) (hf : f v0 ≠ ⊥) :
    (Finset.univ : Finset (Fin n)).fold max ⊥ f ≠ ⊥ := by
  have h : f v0 ≤ (Finset.univ : Finset (Fin n)).fold max ⊥ f :=
    (Finset.le_fold_max (f v0)).2 (Or.inr ⟨v0, Finset.mem_univ _, le_refl _⟩)
  intro e
  rw [e] at h
  exact hf (le_bot_iff.1 h)

/-- The shape fact naming the coordinate a row reduction drops. -/
private theorem red1 : (⟨2, ![4096, 30522]⟩ : Shape).Reduces [1] (⟨1, ![4096]⟩ : Shape) := by decide

/-- Row r with column k put back is (r, k). -/
private theorem lift_ix1 (r : Fin 4096) (k : Fin ((⟨2, ![4096, 30522]⟩ : Shape).size 1)) :
    red1.lift (ix1 r) k = ix2 r (⟨k.val, k.isLt⟩ : Fin 30522) := by
  funext c; apply Fin.ext
  fin_cases c <;> rfl

/-- The word 0xFF800000 is -∞. -/
private theorem ofBits_neg_inf : FloatOps.ofBits (F := Ideal) .f32 0xFF800000#32 = (⊥ : EReal) := by
  simp [Ideal.ofBits, Ideal.ieee]

/-- The word 0 is 0. -/
private theorem ofBits_zero : FloatOps.ofBits (F := Ideal) .f32 0x00000000#32 = (0 : EReal) := by
  simp [Ideal.ofBits, Ideal.ieee]

/-- The row maximum as the reference takes it (the reduction from -∞, then the maximum with -∞) is the row's maximum. -/
private theorem rowmax_val (X : Cert.Spec.SX.Idx → EReal) (r : Fin 4096) :
    val_main_call0_v2 (F := Ideal) X (ix1 r) = Cert.Spec.rowMax (fun v => X (ix2 r v)) := by
  rw [val_main_call0_v2_apply, val_main_call0_v1_apply, val_main_call0_cst_0_apply]
  unfold val_main_call0_v0
  have e := Host.reduce_eq_fold_single (FloatOps.maximumf (F := Ideal) (φ := .f32)) (X : FVec Ideal S4096x30522 .f32)
    (val_main_call0_cst (F := Ideal)) reducesTo_S4096x30522_S4096_d1 red1 h_S_ (ix1 r)
  rw [e, val_main_call0_cst_apply, ofBits_neg_inf]
  have hf : ((X : FVec Ideal S4096x30522 .f32) ∘ red1.lift (ix1 r)) = fun k : Fin 30522 => X (ix2 r k) :=
    funext fun k => congrArg X (lift_ix1 r k)
  show max (⊥ : EReal) (Finset.fold max (⊥ : EReal) ((X : FVec Ideal S4096x30522 .f32) ∘ red1.lift (ix1 r)) (Finset.univ : Finset (Fin 30522))) = _
  rw [hf, max_bot_left]
  rfl

/-! The composed index maps of the broadcasts and the row sum, at (r, v). -/
private theorem idx_max (r : Fin 4096) (v : Fin 30522) : idx_main_call0_v3 (idx_main_call0_v4 (ix2 r v)) = ix1 r :=
  funext fun a => Fin.ext (by match a with | ⟨0, _⟩ => rfl)
private theorem idx_lse (r : Fin 4096) (v : Fin 30522) : idx_main_call0_v8 (idx_main_call0_v10 (ix2 r v)) = ix1 r :=
  funext fun a => Fin.ext (by match a with | ⟨0, _⟩ => rfl)
private theorem idx_sum (r : Fin 4096) (k : Fin 30522) : idx_main_call0_v7 (ix1 r) k = ix2 r k :=
  funext fun a => Fin.ext (by match a with | ⟨0, _⟩ => rfl | ⟨1, _⟩ => rfl)

/-- The shifted logit at (r, v) is the logit less the row's maximum. -/
private theorem shifted_val (X : Cert.Spec.SX.Idx → EReal) (r : Fin 4096) (v : Fin 30522) :
    val_main_call0_v5 (F := Ideal) X (ix2 r v) = X (ix2 r v) - Cert.Spec.rowMax (fun v => X (ix2 r v)) := by
  rw [val_main_call0_v5_apply, val_main_call0_v4_apply, val_main_call0_v3_apply, idx_max, rowmax_val]
  rfl

/-- The row's sum of exponentials of the shifted logits. -/
private theorem rowsum_val (X : Cert.Spec.SX.Idx → EReal) (r : Fin 4096) :
    val_main_call0_v7 (F := Ideal) X (ix1 r) = Cert.Spec.rowSumExp (fun v => X (ix2 r v)) := by
  rw [val_main_call0_v7_apply, val_main_call0_cst_1_apply, ofBits_zero, zero_add]
  unfold Cert.Spec.rowSumExp
  refine Finset.sum_congr rfl fun k _ => ?_
  rw [val_main_call0_v6_apply, idx_sum, shifted_val]
  rfl

/-- log_softmax at (r, v): the shifted logit less the logarithm of the row's sum. -/
private theorem logsoftmax_val (X : Cert.Spec.SX.Idx → EReal) (r : Fin 4096) (v : Fin 30522) :
    val_main_v0 (F := Ideal) X (ix2 r v)
      = (X (ix2 r v) - Cert.Spec.rowMax (fun v => X (ix2 r v))) - Ideal.log (Cert.Spec.rowSumExp (fun v => X (ix2 r v))) := by
  rw [val_main_v0_apply, shifted_val, val_main_call0_v10_apply, val_main_call0_v9_apply, val_main_call0_v8_apply, idx_lse,
    rowsum_val]
  simp only [Ideal.subf_def, Ideal.hostUnary_log_def]

/-- The gather's dimension numbers: rows are batched, the one start-index component names the column, both slice sizes one. -/
private abbrev GD : GatherDims S4096x30522 S4096x1x1 S4096x1 := gather_S4096x30522_S4096x1x1_S4096x1_n_1_0_0_1_2_11

/-- The gather read at (r, 0): the operand at row r and the column the start index names, read signed and clamped to
    the row. -/
private theorem gather_read {α : Type} (x : S4096x30522.Idx → α) (idx : IVec S4096x1x1 32) (r : Fin 4096) :
    Host.gather GD x idx (ix2 r (0 : Fin 1))
      = x (ix2 r (⟨min (idx (ix3 r (0 : Fin 1) (0 : Fin 1))).toInt.toNat 30521, by omega⟩ : Fin 30522)) := by
  unfold Host.gather
  congr 1
  funext a
  refine Fin.ext ?_
  match a with
  | ⟨0, _⟩ =>
    show GD.start (ix2 r (0 : Fin 1)) idx 0 + GD.batchCoord (ix2 r (0 : Fin 1)) 0 + GD.offCoord (ix2 r (0 : Fin 1)) 0 = r.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ GD.operandBatchingDims from List.mem_singleton.mpr rfl)]
    rfl
  | ⟨1, _⟩ =>
    show GD.start (ix2 r (0 : Fin 1)) idx 1 + GD.batchCoord (ix2 r (0 : Fin 1)) 1 + GD.offCoord (ix2 r (0 : Fin 1)) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GD.startIndexMap from List.mem_singleton.mpr rfl)]
    have hsi : GD.siIdx (ix2 r (0 : Fin 1)) ⟨List.idxOf (1 : Fin 2) GD.startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-! The index maps of the label's column, its reshape and the result's reshape, at row r. -/
private theorem idx_col (r : Fin 4096) : idx_main_v4 (ix2 r (0 : Fin 1)) = ix1 r :=
  funext fun a => Fin.ext (by match a with | ⟨0, _⟩ => rfl)
private theorem idx_resh (r : Fin 4096) : idx_main_call2_v5 (ix3 r (0 : Fin 1) (0 : Fin 1)) = ix2 r (0 : Fin 1) :=
  funext fun a => Fin.ext (by
    match a with
    | ⟨0, _⟩ => show ((r.val * 1 + 0) * 1 + 0) / 1 = r.val; omega
    | ⟨1, _⟩ => rfl)
private theorem idx_out (r : Fin 4096) : idx_main_v6 (ix1 r) = ix2 r (0 : Fin 1) :=
  funext fun a => Fin.ext (by
    match a with
    | ⟨0, _⟩ => show r.val / 1 = r.val; omega
    | ⟨1, _⟩ => rfl)

/-- The validity bit of row r: the label is not the word of -1. -/
private theorem valid_val (Lb : Cert.Spec.SL.Idx → BitVec 32) (r : Fin 4096) :
    val_main_v2 (F := Ideal) Lb (ix1 r) = IntOp.cmpi .ne (Lb (ix1 r)) 4294967295#32 := by
  rw [val_main_v2_apply, val_main_v1_apply, val_main_c_apply]

/-- The fill of an ignored row is 0. -/
private theorem fill_val (r : Fin 4096) : val_main_call3_v1 (F := Ideal) (ix1 r) = (0 : EReal) := by
  rw [val_main_call3_v1_apply, val_main_call3_v0_apply, val_main_cst_apply, ofBits_zero]

private theorem cmpi_ne_self : IntOp.cmpi .ne (4294967295#32) (4294967295#32) = 0#1 := by decide

private theorem cmpi_ne_of_ne {l : BitVec 32} (h : l ≠ 4294967295#32) : IntOp.cmpi .ne l 4294967295#32 = 1#1 := by
  unfold IntOp.cmpi
  show BitVec.ofBool (l != 4294967295#32) = 1#1
  rw [(bne_iff_ne.2 h : (l != 4294967295#32) = true)]
  rfl

/-- A column number is not the word of -1. -/
private theorem label_ne_of_lt {l : BitVec 32} (h : l.toNat < 30522) : l ≠ 4294967295#32 := by
  intro e; rw [e] at h; simp at h

/-- A column number is not negative as a signed word. -/
private theorem slt_zero_of_lt {l : BitVec 32} (h : l.toNat < 30522) : IntOp.cmpi .slt l 0#32 = 0#1 :=
  eq_zero_of_ne_one fun e => by
    have := (StableHlo.Predicate.slt_iff_toNat (a := l) (b := 0#32) (by omega) (by decide)).1 e
    simp at this

/-- The start index of a row whose label is a column number is the label. -/
private theorem start_val (Lb : Cert.Spec.SL.Idx → BitVec 32) (r : Fin 4096) (h : (Lb (ix1 r)).toNat < 30522) :
    val_main_call2_v5 (F := Ideal) Lb (ix3 r (0 : Fin 1) (0 : Fin 1)) = Lb (ix1 r) := by
  rw [val_main_call2_v5_apply, idx_resh, val_main_call2_v4_apply, val_main_call2_v1_apply, val_main_v4_apply, idx_col,
    val_main_v3_apply, valid_val, cmpi_ne_of_ne (label_ne_of_lt h), select_one, val_main_call2_v0_apply, val_main_call2_c_apply,
    slt_zero_of_lt h, select_zero]

/-- A conjunction from 1 of bits that are all 1 is 1. -/
private theorem fold_andi_all {ι : Type} (S : Finset ι) (f : ι → BitVec 1) (hf : ∀ k, f k = 1#1) :
    S.fold IntOp.andi 1#1 f = 1#1 := by
  induction S using Finset.cons_induction with
  | empty => rfl
  | cons a S ha ih => rw [Finset.fold_cons, ih, hf a]; decide

/-- The shape fact naming the unit axis the range test's reduction drops. -/
private theorem red2 : (⟨3, ![4096, 1, 1]⟩ : Shape).Reduces [2] (⟨2, ![4096, 1]⟩ : Shape) := by decide

/-- A label that is a column number is in range: both comparisons hold and so does their conjunction over the unit axis. -/
private theorem inrange_val (Lb : Cert.Spec.SL.Idx → BitVec 32) (r : Fin 4096) (h : (Lb (ix1 r)).toNat < 30522) :
    val_main_call2_v12 (F := Ideal) Lb (ix2 r (0 : Fin 1)) = 1#1 := by
  unfold val_main_call2_v12
  have e := Host.reduce_eq_fold_single (IntOp.andi (w := 1)) (val_main_call2_v11 (F := Ideal) Lb)
    (val_main_call2_c_3 (F := Ideal)) reducesTo_S4096x1x1_S4096x1_d2 red2 h_S_ (ix2 r (0 : Fin 1))
  rw [e, val_main_call2_c_3_apply]
  refine fold_andi_all _ _ fun k => ?_
  have hl : red2.lift (ix2 r (0 : Fin 1)) k = ix3 r (0 : Fin 1) (0 : Fin 1) := by
    funext c; apply Fin.ext
    have hk : k.val < 1 := k.isLt
    fin_cases c <;> first | rfl | (show k.val = 0; omega)
  show val_main_call2_v11 (F := Ideal) Lb (red2.lift (ix2 r (0 : Fin 1)) k) = 1#1
  rw [hl, val_main_call2_v11_apply, val_main_call2_v7_apply, val_main_call2_v10_apply, start_val _ _ h, val_main_call2_v6_apply,
    val_main_call2_c_2_apply, val_main_call2_v9_apply, val_main_call2_v8_apply, val_main_call2_c_1_apply,
    (StableHlo.Predicate.sge_iff_toNat (a := Lb (ix1 r)) (b := 0#32) (by omega) (by decide)).2 (by simp),
    (StableHlo.Predicate.sle_iff_toNat (a := Lb (ix1 r)) (b := 30521#32) (by omega) (by decide)).2 (by simp; omega)]
  decide

/-- The logit at a label that is a column number is the row's entry there. -/
private theorem picked_eq (xr : Fin 30522 → EReal) (l : BitVec 32) (h : l.toNat < 30522) :
    Cert.Spec.picked xr l = xr ⟨l.toNat, h⟩ := by
  unfold Cert.Spec.picked
  rw [Finset.sum_eq_single (⟨l.toNat, h⟩ : Fin 30522)]
  · rw [if_pos]
    apply BitVec.eq_of_toNat_eq
    simp only [BitVec.toNat_ofNat]
    omega
  · intro v _ hv
    rw [if_neg]
    intro e
    apply hv
    apply Fin.ext
    have := congrArg BitVec.toNat e
    simp only [BitVec.toNat_ofNat] at this
    have hv' : v.val < 30522 := v.isLt
    show v.val = l.toNat
    omega
  · intro h'
    exact absurd (Finset.mem_univ _) h'

/-- A row whose label is -1 contributes 0. -/
private theorem row_val_ignored (X : Cert.Spec.SX.Idx → EReal) (Lb : Cert.Spec.SL.Idx → BitVec 32) (r : Fin 4096)
    (h : Lb (ix1 r) = 4294967295#32) :
    (val_main_v11 (F := Ideal) X Lb : Cert.Spec.SL.Idx → EReal) (ix1 r)
      = Cert.Spec.rowTerm (fun v => X (ix2 r v)) (Lb (ix1 r)) := by
  rw [val_main_v11_apply, valid_val, h, cmpi_ne_self, select_zero, fill_val]
  unfold Cert.Spec.rowTerm Cert.Spec.validF
  rw [if_pos rfl, mul_zero]

/-- A row whose label is a column number contributes its negative log-likelihood. -/
private theorem row_val_valid (X : Cert.Spec.SX.Idx → EReal) (Lb : Cert.Spec.SL.Idx → BitVec 32) (hfin : ∀ i, X i ≠ ⊤ ∧ X i ≠ ⊥)
    (r : Fin 4096) (h : (Lb (ix1 r)).toNat < 30522) :
    (val_main_v11 (F := Ideal) X Lb : Cert.Spec.SL.Idx → EReal) (ix1 r)
      = Cert.Spec.rowTerm (fun v => X (ix2 r v)) (Lb (ix1 r)) := by
  have hne := label_ne_of_lt h
  rw [val_main_v11_apply, valid_val, cmpi_ne_of_ne hne, select_one, val_main_v7_apply, val_main_v6_apply, idx_out,
    val_main_v5_apply, inrange_val _ _ h, select_one]
  unfold val_main_call2_v13
  rw [gather_read]
  have hidx : (⟨min (val_main_call2_v5 (F := Ideal) Lb (ix3 r (0 : Fin 1) (0 : Fin 1))).toInt.toNat 30521, by omega⟩ : Fin 30522)
      = ⟨(Lb (ix1 r)).toNat, h⟩ :=
    Fin.ext (by
      show min (val_main_call2_v5 (F := Ideal) Lb (ix3 r (0 : Fin 1) (0 : Fin 1))).toInt.toNat 30521 = (Lb (ix1 r)).toNat
      rw [start_val _ _ h, StableHlo.Predicate.toInt_eq_toNat_of_lt (by omega), Int.toNat_natCast]
      omega)
  rw [hidx, logsoftmax_val]
  unfold Cert.Spec.rowTerm Cert.Spec.rowNll Cert.Spec.rowLse Cert.Spec.validF
  rw [if_neg hne, mul_one, picked_eq _ _ h]
  have hm1 : Cert.Spec.rowMax (fun v => X (ix2 r v)) ≠ ⊤ := fold_max_ne_top _ fun v => (hfin _).1
  have hm2 : Cert.Spec.rowMax (fun v => X (ix2 r v)) ≠ ⊥ :=
    fold_max_ne_bot _ (⟨0, by decide⟩ : Fin 30522) (hfin _).2
  rw [← EReal.coe_toReal hm1 hm2, ← EReal.coe_toReal (hfin (ix2 r ⟨(Lb (ix1 r)).toNat, h⟩)).1 (hfin (ix2 r ⟨(Lb (ix1 r)).toNat, h⟩)).2]
  exact neg_sub_sub_eq _ _ _

theorem row_val (X : Cert.Spec.SX.Idx → EReal) (Lb : Cert.Spec.SL.Idx → BitVec 32) (hfin : ∀ i, X i ≠ ⊤ ∧ X i ≠ ⊥)
    (hlab : ∀ r : Fin 4096, Lb (ix1 r) = 4294967295#32 ∨ (Lb (ix1 r)).toNat < 30522) (r : Fin 4096) :
    (val_main_v11 (F := Ideal) X Lb : Cert.Spec.SL.Idx → EReal) (ix1 r)
      = Cert.Spec.rowTerm (fun v => X (ix2 r v)) (Lb (ix1 r)) := by
  rcases hlab r with h | h
  · exact row_val_ignored X Lb r h
  · exact row_val_valid X Lb hfin r h

end Cert.ReferenceIdeal.RefVal

end
-- ==== Proof.RefLmCount.lean ====
/-
  The reference's count: the integer sum of the 4096 one-bit words "label is not -1", widened to 32 bits, does not wrap;
  the larger of it and 1, read as a float, is the larger of the number of counted rows and 1.
-/
import proofs.«411738_j39814346834260_2_alg».proof.Proof.RefReadGen
import proofs.«411738_j39814346834260_2_alg».proof.Proof.Spec
import Idealize.ShloMosaic.PureOps.Ideal.Laws
import Idealize.ShloMosaic.Lib.IdealHost
import Idealize.ShloMosaic.Lib.IndicatorCount
import Idealize.ShloMosaic.Lib.WordArith
set_option maxRecDepth 16384

noncomputable section

namespace Cert.ReferenceIdeal.RefVal

open Cert.ReferenceIdeal Cert.ReferenceIdeal.Gen Cert.ReferenceIdeal.ReadP
open Idealize.ShloMosaic Idealize.ShloMosaic.TcCoe Idealize.ShloMosaic.ValueIdx Idealize.SL.Sem

/-- A rank-1 index of the label array is its one coordinate. -/
private def idxEquiv1 : Cert.Spec.SL.Idx ≃ Fin 4096 where
  toFun i := i 0
  invFun r := ix1 r
  left_inv i := (eq_ix1 i).symm
  right_inv _ := rfl

/-- The number of rows whose label is not -1. -/
private def nValid (Lb : Cert.Spec.SL.Idx → BitVec 32) : ℕ :=
  ((Finset.univ : Finset (Fin 4096)).filter fun r => ¬ Lb (ix1 r) = 4294967295#32).card

private theorem nValid_le (Lb : Cert.Spec.SL.Idx → BitVec 32) : nValid Lb ≤ 4096 := by
  unfold nValid
  calc _ ≤ (Finset.univ : Finset (Fin 4096)).card := Finset.card_filter_le _ _
    _ = 4096 := by rw [Finset.card_univ, Fintype.card_fin]

/-- A row's one-bit word is one exactly when its label is not -1. -/
private theorem v2_eq_one_iff (Lb : Cert.Spec.SL.Idx → BitVec 32) (k : Cert.Spec.SL.Idx) :
    val_main_v2 (F := Ideal) Lb k = 1#1 ↔ ¬ Lb k = 4294967295#32 := by
  rw [val_main_v2_apply, val_main_v1_apply, val_main_c_apply]
  unfold IntOp.cmpi
  by_cases h : Lb k = 4294967295#32
  · simp [h]
  · have hb : (Lb k != 4294967295#32) = true := bne_iff_ne.mpr h
    simp [h, hb]

/-- The integer sum of the widened one-bit words is the number of rows whose label is not -1, as a 32-bit word. -/
private theorem v9_eq (Lb : Cert.Spec.SL.Idx → BitVec 32) (i : (⟨0, ![]⟩ : Shape).Idx) :
    val_main_v9 (F := Ideal) Lb i = BitVec.ofNat 32 (nValid Lb) := by
  unfold val_main_v9
  rw [Host.reduce_eq_fold]
  have hall : (Finset.univ.filter fun k : S4096.Idx => reducesTo_S4096_S_d0.drop k = i) = Finset.univ :=
    Finset.filter_true_of_mem fun k _ => funext fun a => a.elim0
  rw [hall]
  have hfold := IndicatorCount.fold_addi_setWidth_eq_card (w := 32) (fun k => val_main_v2 (F := Ideal) Lb k) Finset.univ
  have hcard : ((Finset.univ : Finset Cert.Spec.SL.Idx).filter fun k => val_main_v2 (F := Ideal) Lb k = 1#1).card = nValid Lb := by
    unfold nValid
    refine Finset.card_equiv idxEquiv1 fun k => ?_
    rw [Finset.mem_filter, Finset.mem_filter, v2_eq_one_iff]
    have hk : ix1 (idxEquiv1 k) = k := (eq_ix1 k).symm
    rw [hk]
    simp
  rw [← hcard]
  exact hfold

/-- The larger of a small count and one, as signed 32-bit words, is the larger of the numbers. -/
private theorem toInt_maxsi_small (n : ℕ) (hn : n ≤ 4096) :
    (IntOp.maxsi (BitVec.ofNat 32 n) 1#32).toInt = max (n : ℤ) 1 := by
  unfold IntOp.maxsi
  have hN : (BitVec.ofNat 32 n).toInt = (n : ℤ) := by
    rw [BitVec.toInt_eq_toNat_cond, BitVec.toNat_ofNat]
    have : n % 2 ^ 32 = n := Nat.mod_eq_of_lt (by omega)
    rw [this]; split <;> omega
  have h1 : (1#32 : BitVec 32).toInt = 1 := by decide
  rw [BitVec.slt, h1, hN]
  by_cases h : (1 : ℤ) < (n : ℤ)
  · rw [if_pos (by simpa using h), hN]; omega
  · rw [if_neg (by simpa using h), h1]; omega

/-- The number of counted rows as an extended real is the count of the specification. -/
private theorem lmCnt_eq (Lb : Cert.Spec.SL.Idx → BitVec 32) : Cert.Spec.lmCnt Lb = ((nValid Lb : ℕ) : EReal) := by
  unfold Cert.Spec.lmCnt Cert.Spec.validF nValid
  rw [← Finset.sum_boole]
  refine Finset.sum_congr rfl fun r _ => ?_
  by_cases h : Lb (ix1 r) = 4294967295#32
  · rw [if_pos h, if_neg (not_not.mpr h)]
  · rw [if_neg h, if_pos h]

theorem count_val (Lb : Cert.Spec.SL.Idx → BitVec 32) :
    (val_main_v13 (F := Ideal) Lb : (⟨0, ![]⟩ : Shape).Idx → EReal) = fun _ => max (Cert.Spec.lmCnt Lb) 1 := by
  funext i
  rw [val_main_v13_apply, val_main_v10_apply, val_main_c_2_apply, v9_eq, lmCnt_eq]
  show (((IntOp.maxsi (BitVec.ofNat 32 (nValid Lb)) 1#32).toInt : ℝ) : EReal) = _
  rw [toInt_maxsi_small _ (nValid_le Lb), Int.cast_max, EReal.coe_strictMono.monotone.map_max]
  simp

end Cert.ReferenceIdeal.RefVal

end
-- ==== Proof.RefValue.lean ====
/-
  The reference's result: the sum of the masked rows over the count is the LM loss, and with the blank head's value the
  result is the whole loss, for finite logits and labels that are -1 or column numbers.
-/
import proofs.«411738_j39814346834260_2_alg».proof.Proof.RefReadGen
import proofs.«411738_j39814346834260_2_alg».proof.Proof.Spec
import proofs.«411738_j39814346834260_2_alg».proof.Proof.RefBlank
import proofs.«411738_j39814346834260_2_alg».proof.Proof.RefLmRow
import proofs.«411738_j39814346834260_2_alg».proof.Proof.RefLmCount
import Idealize.ShloMosaic.PureOps.Ideal.Laws
import Idealize.ShloMosaic.Lib.IdealHost
set_option maxRecDepth 16384

noncomputable section

namespace Cert.ReferenceIdeal.RefVal

open Cert.ReferenceIdeal Cert.ReferenceIdeal.Gen Cert.ReferenceIdeal.ReadP
open Idealize.ShloMosaic Idealize.ShloMosaic.TcCoe Idealize.ShloMosaic.ValueIdx Idealize.SL.Sem

/-- A rank-1 index of the label array is its one coordinate. -/
private def idxEquivL : Cert.Spec.SL.Idx ≃ Fin 4096 where
  toFun i := i 0
  invFun r := ix1 r
  left_inv i := (eq_ix1 i).symm
  right_inv _ := rfl

theorem lm_val (X : Cert.Spec.SX.Idx → EReal) (Lb : Cert.Spec.SL.Idx → BitVec 32) (hfin : ∀ i, X i ≠ ⊤ ∧ X i ≠ ⊥)
    (hlab : ∀ r : Fin 4096, Lb (ix1 r) = 4294967295#32 ∨ (Lb (ix1 r)).toNat < 30522) :
    (val_main_v14 (F := Ideal) X Lb : (⟨0, ![]⟩ : Shape).Idx → EReal) = fun _ => Cert.Spec.lmLoss X Lb := by
  funext i
  have hsum : val_main_v12 (F := Ideal) X Lb i = Cert.Spec.lmSum X Lb := by
    rw [val_main_v12_apply, val_main_cst_3_apply]
    unfold Cert.Spec.lmSum
    rw [← Equiv.sum_comp idxEquivL.symm (fun j => val_main_v11 (F := Ideal) X Lb j)]
    have hz : (FloatOps.ofBits .f32 0x00000000#32 : Ideal .f32) = (0 : EReal) := Ideal.ofBits_zero_f32
    rw [hz, zero_add]
    refine Finset.sum_congr rfl fun r _ => ?_
    exact row_val X Lb hfin hlab r
  rw [val_main_v14_apply, hsum, count_val]
  rfl

theorem ref_val (X : Cert.Spec.SX.Idx → EReal) (B : Cert.Spec.SB.Idx → EReal) (Lb : Cert.Spec.SL.Idx → BitVec 32)
    (Y : Cert.Spec.SY.Idx → BitVec 32) (hfin : ∀ i, X i ≠ ⊤ ∧ X i ≠ ⊥)
    (hlab : ∀ r : Fin 4096, Lb (ix1 r) = 4294967295#32 ∨ (Lb (ix1 r)).toNat < 30522) :
    (val_main_v49 (F := Ideal) X B Lb Y : (⟨0, ![]⟩ : Shape).Idx → EReal) = fun _ => Cert.Spec.loss X B Lb Y := by
  funext i
  rw [val_main_v49_apply, lm_val X Lb hfin hlab, blank_val]
  rfl

end Cert.ReferenceIdeal.RefVal

end
-- ==== Proof.RefRunHand.lean ====
/-
  The reference's run, read back over its stages. The reference is a straight line of 137 host operations, so every
  weakly fair execution terminates with each buffer at the fold of the operations' results over the launch contents.
  Here that fold, at the result buffer, is shown to be the last stage of the stage-by-stage reading of the reference
  (val_main_v49 of the four argument arrays): the line is cut into ten stretches where few values are live (the
  log-softmax; the mask and the gather index; the two recasts, each alone; the gather; the LM quotient; the masks and
  the Gram matrix; the two softplus sums; the final quotient and sum), each stretch is folded once and each of its
  results is the corresponding stage of what it was entered with, and the stretches are joined in order. The operations
  of an inlined callee carry casts between a typed reference's contents and its buffer's; they are removed before the
  two sides are compared.
-/
import proofs.«411738_j39814346834260_2_alg».proof.Proof.RefOpsGen
import proofs.«411738_j39814346834260_2_alg».proof.Proof.RefReadGen

noncomputable section

namespace Cert.ReferenceIdeal.RefRun

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]

/-- Folding a line is folding its first n operations, then the rest from there. -/
theorem after_split (l : List (HloOp τ sig (Elt F))) (n : ℕ) (V : Valuation τ sig (Elt F)) :
    after l V = after (l.drop n) (after (l.take n) V) := by
  induction l generalizing n V with
  | nil => cases n <;> rfl
  | cons a l ih =>
    cases n with
    | zero => rfl
    | succ n => exact ih n (a.result V)

/-- The same from position a on: the n operations from a, then the rest from b = a + n. -/
theorem after_drop_split (l : List (HloOp τ sig (Elt F))) (a n b : ℕ) (h : a + n = b) (V : Valuation τ sig (Elt F)) :
    after (l.drop a) V = after (l.drop b) (after ((l.drop a).take n) V) := by
  rw [after_split (l.drop a) n V, List.drop_drop, h]

/-- Operations a to a + n - 1 of the reference. -/
abbrev stretch (a n : ℕ) : List (HloOp τ sig (Elt F)) := ((ops (F := F)).drop a).take n

set_option maxHeartbeats 4000000 in
/-- Stretch 1 (operations 0 to 14): the log-softmax of the logits. -/
theorem stretch1 (W : Valuation τ sig (Elt F)) (x0 : (⟨S4096x30522, .f32⟩ : BufTy).Contents (Elt F)) (x1 : (⟨S256x1536, .f32⟩ : BufTy).Contents (Elt F))
    (x2 : (⟨S4096, .i32⟩ : BufTy).Contents (Elt F)) (x3 : (⟨S256, .i32⟩ : BufTy).Contents (Elt F))
    (h0 : W (Proc.devRef .tc main_arg0) = x0)
    (h1 : W (Proc.devRef .tc main_arg1) = x1)
    (h2 : W (Proc.devRef .tc main_arg2) = x2)
    (h3 : W (Proc.devRef .tc main_arg3) = x3) :
    after (stretch (F := F) 0 15) W (Proc.devRef .tc main_v0) = val_main_v0 (F := F) x0
      ∧ after (stretch (F := F) 0 15) W (Proc.devRef .tc main_arg1) = x1
      ∧ after (stretch (F := F) 0 15) W (Proc.devRef .tc main_arg2) = x2
      ∧ after (stretch (F := F) 0 15) W (Proc.devRef .tc main_arg3) = x3 := by
  refine ⟨?_, ?_, ?_, ?_⟩ <;>
  (simp only [stretch, ops, List.drop_succ_cons, List.drop_zero, List.take_succ_cons, List.take_zero] <;>
    after_results_simp <;> (try simp only [TRef.ofBuf, TRef.toBuf, cast_eq, h0, h1, h2, h3]) <;> (try simp only [h0, h1, h2, h3]) <;> rfl)

set_option maxHeartbeats 4000000 in
/-- Stretch 2 (operations 15 to 29): the validity mask, the safe labels and the wrapped gather index. -/
theorem stretch2 (W : Valuation τ sig (Elt F)) (x0 : (⟨S4096x30522, .f32⟩ : BufTy).Contents (Elt F)) (x1 : (⟨S256x1536, .f32⟩ : BufTy).Contents (Elt F))
    (x2 : (⟨S4096, .i32⟩ : BufTy).Contents (Elt F)) (x3 : (⟨S256, .i32⟩ : BufTy).Contents (Elt F))
    (h0 : W (Proc.devRef .tc main_v0) = val_main_v0 (F := F) x0)
    (h1 : W (Proc.devRef .tc main_arg1) = x1)
    (h2 : W (Proc.devRef .tc main_arg2) = x2)
    (h3 : W (Proc.devRef .tc main_arg3) = x3) :
    after (stretch (F := F) 15 15) W (Proc.devRef .tc main_v0) = val_main_v0 (F := F) x0
      ∧ after (stretch (F := F) 15 15) W (Proc.devRef .tc main_v2) = val_main_v2 (F := F) x2
      ∧ after (stretch (F := F) 15 15) W (Proc.devRef .tc main_call2_v4) = val_main_call2_v4 (F := F) x2
      ∧ after (stretch (F := F) 15 15) W (Proc.devRef .tc main_arg1) = x1
      ∧ after (stretch (F := F) 15 15) W (Proc.devRef .tc main_arg3) = x3 := by
  refine ⟨?_, ?_, ?_, ?_, ?_⟩ <;>
  (simp only [stretch, ops, List.drop_succ_cons, List.drop_zero, List.take_succ_cons, List.take_zero] <;>
    after_results_simp <;> (try simp only [TRef.ofBuf, TRef.toBuf, cast_eq, h0, h1, h2, h3]) <;> (try simp only [h0, h1, h2, h3]) <;> rfl)

set_option maxHeartbeats 4000000 in
/-- Stretch 3 (operations 30 to 30): the index recast to rank 3. -/
theorem stretch3 (W : Valuation τ sig (Elt F)) (x0 : (⟨S4096x30522, .f32⟩ : BufTy).Contents (Elt F)) (x1 : (⟨S256x1536, .f32⟩ : BufTy).Contents (Elt F))
    (x2 : (⟨S4096, .i32⟩ : BufTy).Contents (Elt F)) (x3 : (⟨S256, .i32⟩ : BufTy).Contents (Elt F))
    (h0 : W (Proc.devRef .tc main_v0) = val_main_v0 (F := F) x0)
    (h1 : W (Proc.devRef .tc main_v2) = val_main_v2 (F := F) x2)
    (h2 : W (Proc.devRef .tc main_call2_v4) = val_main_call2_v4 (F := F) x2)
    (h3 : W (Proc.devRef .tc main_arg1) = x1)
    (h4 : W (Proc.devRef .tc main_arg3) = x3) :
    after (stretch (F := F) 30 1) W (Proc.devRef .tc main_v0) = val_main_v0 (F := F) x0
      ∧ after (stretch (F := F) 30 1) W (Proc.devRef .tc main_v2) = val_main_v2 (F := F) x2
      ∧ after (stretch (F := F) 30 1) W (Proc.devRef .tc main_call2_v5) = val_main_call2_v5 (F := F) x2
      ∧ after (stretch (F := F) 30 1) W (Proc.devRef .tc main_arg1) = x1
      ∧ after (stretch (F := F) 30 1) W (Proc.devRef .tc main_arg3) = x3 := by
  refine ⟨?_, ?_, ?_, ?_, ?_⟩ <;>
  (simp only [stretch, ops, List.drop_succ_cons, List.drop_zero, List.take_succ_cons, List.take_zero] <;>
    after_results_simp <;> (try simp only [TRef.ofBuf, TRef.toBuf, cast_eq, h0, h1, h2, h3, h4]) <;> (try simp only [h0, h1, h2, h3, h4]) <;> rfl)

set_option maxHeartbeats 4000000 in
/-- Stretch 4 (operations 31 to 44): the range test, the gather and the fill. -/
theorem stretch4 (W : Valuation τ sig (Elt F)) (x0 : (⟨S4096x30522, .f32⟩ : BufTy).Contents (Elt F)) (x1 : (⟨S256x1536, .f32⟩ : BufTy).Contents (Elt F))
    (x2 : (⟨S4096, .i32⟩ : BufTy).Contents (Elt F)) (x3 : (⟨S256, .i32⟩ : BufTy).Contents (Elt F))
    (h0 : W (Proc.devRef .tc main_v0) = val_main_v0 (F := F) x0)
    (h1 : W (Proc.devRef .tc main_v2) = val_main_v2 (F := F) x2)
    (h2 : W (Proc.devRef .tc main_call2_v5) = val_main_call2_v5 (F := F) x2)
    (h3 : W (Proc.devRef .tc main_arg1) = x1)
    (h4 : W (Proc.devRef .tc main_arg3) = x3) :
    after (stretch (F := F) 31 14) W (Proc.devRef .tc main_v2) = val_main_v2 (F := F) x2
      ∧ after (stretch (F := F) 31 14) W (Proc.devRef .tc main_v5) = val_main_v5 (F := F) x0 x2
      ∧ after (stretch (F := F) 31 14) W (Proc.devRef .tc main_arg1) = x1
      ∧ after (stretch (F := F) 31 14) W (Proc.devRef .tc main_arg3) = x3 := by
  refine ⟨?_, ?_, ?_, ?_⟩ <;>
  (simp only [stretch, ops, List.drop_succ_cons, List.drop_zero, List.take_succ_cons, List.take_zero] <;>
    after_results_simp <;> (try simp only [TRef.ofBuf, TRef.toBuf, cast_eq, h0, h1, h2, h3, h4]) <;> (try simp only [h0, h1, h2, h3, h4]) <;> rfl)

set_option maxHeartbeats 4000000 in
/-- Stretch 5 (operations 45 to 45): the gathered column recast to a vector. -/
theorem stretch5 (W : Valuation τ sig (Elt F)) (x0 : (⟨S4096x30522, .f32⟩ : BufTy).Contents (Elt F)) (x1 : (⟨S256x1536, .f32⟩ : BufTy).Contents (Elt F))
    (x2 : (⟨S4096, .i32⟩ : BufTy).Contents (Elt F)) (x3 : (⟨S256, .i32⟩ : BufTy).Contents (Elt F))
    (h0 : W (Proc.devRef .tc main_v2) = val_main_v2 (F := F) x2)
    (h1 : W (Proc.devRef .tc main_v5) = val_main_v5 (F := F) x0 x2)
    (h2 : W (Proc.devRef .tc main_arg1) = x1)
    (h3 : W (Proc.devRef .tc main_arg3) = x3) :
    after (stretch (F := F) 45 1) W (Proc.devRef .tc main_v2) = val_main_v2 (F := F) x2
      ∧ after (stretch (F := F) 45 1) W (Proc.devRef .tc main_v6) = val_main_v6 (F := F) x0 x2
      ∧ after (stretch (F := F) 45 1) W (Proc.devRef .tc main_arg1) = x1
      ∧ after (stretch (F := F) 45 1) W (Proc.devRef .tc main_arg3) = x3 := by
  refine ⟨?_, ?_, ?_, ?_⟩ <;>
  (simp only [stretch, ops, List.drop_succ_cons, List.drop_zero, List.take_succ_cons, List.take_zero] <;>
    after_results_simp <;> (try simp only [TRef.ofBuf, TRef.toBuf, cast_eq, h0, h1, h2, h3]) <;> (try simp only [h0, h1, h2, h3]) <;> rfl)

set_option maxHeartbeats 4000000 in
/-- Stretch 6 (operations 46 to 59): the masked sum, the count and the LM quotient. -/
theorem stretch6 (W : Valuation τ sig (Elt F)) (x0 : (⟨S4096x30522, .f32⟩ : BufTy).Contents (Elt F)) (x1 : (⟨S256x1536, .f32⟩ : BufTy).Contents (Elt F))
    (x2 : (⟨S4096, .i32⟩ : BufTy).Contents (Elt F)) (x3 : (⟨S256, .i32⟩ : BufTy).Contents (Elt F))
    (h0 : W (Proc.devRef .tc main_v2) = val_main_v2 (F := F) x2)
    (h1 : W (Proc.devRef .tc main_v6) = val_main_v6 (F := F) x0 x2)
    (h2 : W (Proc.devRef .tc main_arg1) = x1)
    (h3 : W (Proc.devRef .tc main_arg3) = x3) :
    after (stretch (F := F) 46 14) W (Proc.devRef .tc main_v14) = val_main_v14 (F := F) x0 x2
      ∧ after (stretch (F := F) 46 14) W (Proc.devRef .tc main_arg1) = x1
      ∧ after (stretch (F := F) 46 14) W (Proc.devRef .tc main_arg3) = x3 := by
  refine ⟨?_, ?_, ?_⟩ <;>
  (simp only [stretch, ops, List.drop_succ_cons, List.drop_zero, List.take_succ_cons, List.take_zero] <;>
    after_results_simp <;> (try simp only [TRef.ofBuf, TRef.toBuf, cast_eq, h0, h1, h2, h3]) <;> (try simp only [h0, h1, h2, h3]) <;> rfl)

set_option maxHeartbeats 4000000 in
/-- Stretch 7 (operations 60 to 92): the marks, the Gram matrix, the upper triangle and the two masks. -/
theorem stretch7 (W : Valuation τ sig (Elt F)) (x0 : (⟨S4096x30522, .f32⟩ : BufTy).Contents (Elt F)) (x1 : (⟨S256x1536, .f32⟩ : BufTy).Contents (Elt F))
    (x2 : (⟨S4096, .i32⟩ : BufTy).Contents (Elt F)) (x3 : (⟨S256, .i32⟩ : BufTy).Contents (Elt F))
    (h0 : W (Proc.devRef .tc main_v14) = val_main_v14 (F := F) x0 x2)
    (h1 : W (Proc.devRef .tc main_arg1) = x1)
    (h2 : W (Proc.devRef .tc main_arg3) = x3) :
    after (stretch (F := F) 60 33) W (Proc.devRef .tc main_v14) = val_main_v14 (F := F) x0 x2
      ∧ after (stretch (F := F) 60 33) W (Proc.devRef .tc main_v19) = val_main_v19 (F := F) x1
      ∧ after (stretch (F := F) 60 33) W (Proc.devRef .tc main_v28) = val_main_v28 (F := F) x3
      ∧ after (stretch (F := F) 60 33) W (Proc.devRef .tc main_v35) = val_main_v35 (F := F) x3
      ∧ after (stretch (F := F) 60 33) W (Proc.devRef .tc main_v36) = val_main_v36 (F := F) x1 := by
  refine ⟨?_, ?_, ?_, ?_, ?_⟩ <;>
  (simp only [stretch, ops, List.drop_succ_cons, List.drop_zero, List.take_succ_cons, List.take_zero] <;>
    after_results_simp <;> (try simp only [TRef.ofBuf, TRef.toBuf, cast_eq, h0, h1, h2]) <;> (try simp only [h0, h1, h2]) <;> rfl)

set_option maxHeartbeats 4000000 in
/-- Stretch 8 (operations 93 to 109): the softplus of the negated Gram matrix and the positive sum. -/
theorem stretch8 (W : Valuation τ sig (Elt F)) (x0 : (⟨S4096x30522, .f32⟩ : BufTy).Contents (Elt F)) (x1 : (⟨S256x1536, .f32⟩ : BufTy).Contents (Elt F))
    (x2 : (⟨S4096, .i32⟩ : BufTy).Contents (Elt F)) (x3 : (⟨S256, .i32⟩ : BufTy).Contents (Elt F))
    (h0 : W (Proc.devRef .tc main_v14) = val_main_v14 (F := F) x0 x2)
    (h1 : W (Proc.devRef .tc main_v19) = val_main_v19 (F := F) x1)
    (h2 : W (Proc.devRef .tc main_v28) = val_main_v28 (F := F) x3)
    (h3 : W (Proc.devRef .tc main_v35) = val_main_v35 (F := F) x3)
    (h4 : W (Proc.devRef .tc main_v36) = val_main_v36 (F := F) x1) :
    after (stretch (F := F) 93 17) W (Proc.devRef .tc main_v14) = val_main_v14 (F := F) x0 x2
      ∧ after (stretch (F := F) 93 17) W (Proc.devRef .tc main_v19) = val_main_v19 (F := F) x1
      ∧ after (stretch (F := F) 93 17) W (Proc.devRef .tc main_v28) = val_main_v28 (F := F) x3
      ∧ after (stretch (F := F) 93 17) W (Proc.devRef .tc main_v35) = val_main_v35 (F := F) x3
      ∧ after (stretch (F := F) 93 17) W (Proc.devRef .tc main_v39) = val_main_v39 (F := F) x1 x3 := by
  refine ⟨?_, ?_, ?_, ?_, ?_⟩ <;>
  (simp only [stretch, ops, List.drop_succ_cons, List.drop_zero, List.take_succ_cons, List.take_zero] <;>
    after_results_simp <;> (try simp only [TRef.ofBuf, TRef.toBuf, cast_eq, h0, h1, h2, h3, h4]) <;> (try simp only [h0, h1, h2, h3, h4]) <;> rfl)

set_option maxHeartbeats 4000000 in
/-- Stretch 9 (operations 110 to 126): the softplus of the Gram matrix and the negative sum. -/
theorem stretch9 (W : Valuation τ sig (Elt F)) (x0 : (⟨S4096x30522, .f32⟩ : BufTy).Contents (Elt F)) (x1 : (⟨S256x1536, .f32⟩ : BufTy).Contents (Elt F))
    (x2 : (⟨S4096, .i32⟩ : BufTy).Contents (Elt F)) (x3 : (⟨S256, .i32⟩ : BufTy).Contents (Elt F))
    (h0 : W (Proc.devRef .tc main_v14) = val_main_v14 (F := F) x0 x2)
    (h1 : W (Proc.devRef .tc main_v19) = val_main_v19 (F := F) x1)
    (h2 : W (Proc.devRef .tc main_v28) = val_main_v28 (F := F) x3)
    (h3 : W (Proc.devRef .tc main_v35) = val_main_v35 (F := F) x3)
    (h4 : W (Proc.devRef .tc main_v39) = val_main_v39 (F := F) x1 x3) :
    after (stretch (F := F) 110 17) W (Proc.devRef .tc main_v14) = val_main_v14 (F := F) x0 x2
      ∧ after (stretch (F := F) 110 17) W (Proc.devRef .tc main_v28) = val_main_v28 (F := F) x3
      ∧ after (stretch (F := F) 110 17) W (Proc.devRef .tc main_v35) = val_main_v35 (F := F) x3
      ∧ after (stretch (F := F) 110 17) W (Proc.devRef .tc main_v39) = val_main_v39 (F := F) x1 x3
      ∧ after (stretch (F := F) 110 17) W (Proc.devRef .tc main_v42) = val_main_v42 (F := F) x1 x3 := by
  refine ⟨?_, ?_, ?_, ?_, ?_⟩ <;>
  (simp only [stretch, ops, List.drop_succ_cons, List.drop_zero, List.take_succ_cons, List.take_zero] <;>
    after_results_simp <;> (try simp only [TRef.ofBuf, TRef.toBuf, cast_eq, h0, h1, h2, h3, h4]) <;> (try simp only [h0, h1, h2, h3, h4]) <;> rfl)

set_option maxHeartbeats 4000000 in
/-- Stretch 10 (operations 127 to 136): the pair counts, the blank quotient and the result. -/
theorem stretch10 (W : Valuation τ sig (Elt F)) (x0 : (⟨S4096x30522, .f32⟩ : BufTy).Contents (Elt F)) (x1 : (⟨S256x1536, .f32⟩ : BufTy).Contents (Elt F))
    (x2 : (⟨S4096, .i32⟩ : BufTy).Contents (Elt F)) (x3 : (⟨S256, .i32⟩ : BufTy).Contents (Elt F))
    (h0 : W (Proc.devRef .tc main_v14) = val_main_v14 (F := F) x0 x2)
    (h1 : W (Proc.devRef .tc main_v28) = val_main_v28 (F := F) x3)
    (h2 : W (Proc.devRef .tc main_v35) = val_main_v35 (F := F) x3)
    (h3 : W (Proc.devRef .tc main_v39) = val_main_v39 (F := F) x1 x3)
    (h4 : W (Proc.devRef .tc main_v42) = val_main_v42 (F := F) x1 x3) :
    after (stretch (F := F) 127 10) W (Proc.devRef .tc main_v49) = val_main_v49 (F := F) x0 x1 x2 x3 := by
  (simp only [stretch, ops, List.drop_succ_cons, List.drop_zero, List.take_succ_cons, List.take_zero] <;>
    after_results_simp <;> (try simp only [TRef.ofBuf, TRef.toBuf, cast_eq, h0, h1, h2, h3, h4]) <;> (try simp only [h0, h1, h2, h3, h4]) <;> rfl)

/-- The fold of the whole line at the result buffer is the last stage of the four argument arrays. -/
theorem after_ops (W : Valuation τ sig (Elt F)) :
    after (ops (F := F)) W (Proc.devRef .tc main_v49)
      = val_main_v49 (F := F) (W (Proc.devRef .tc main_arg0)) (W (Proc.devRef .tc main_arg1))
          (W (Proc.devRef .tc main_arg2)) (W (Proc.devRef .tc main_arg3)) := by
  have e : after (ops (F := F)) W
      = after (stretch (F := F) 127 10) (after (stretch (F := F) 110 17) (after (stretch (F := F) 93 17) (after (stretch (F := F) 60 33) (after (stretch (F := F) 46 14) (after (stretch (F := F) 45 1) (after (stretch (F := F) 31 14) (after (stretch (F := F) 30 1) (after (stretch (F := F) 15 15) (after (stretch (F := F) 0 15) (W)))))))))) := by
    calc after (ops (F := F)) W = after ((ops (F := F)).drop 0) W := rfl
      _ = after ((ops (F := F)).drop 15) (after (stretch (F := F) 0 15) (W)) := after_drop_split _ 0 15 15 rfl _
      _ = after ((ops (F := F)).drop 30) (after (stretch (F := F) 15 15) (after (stretch (F := F) 0 15) (W))) := after_drop_split _ 15 15 30 rfl _
      _ = after ((ops (F := F)).drop 31) (after (stretch (F := F) 30 1) (after (stretch (F := F) 15 15) (after (stretch (F := F) 0 15) (W)))) := after_drop_split _ 30 1 31 rfl _
      _ = after ((ops (F := F)).drop 45) (after (stretch (F := F) 31 14) (after (stretch (F := F) 30 1) (after (stretch (F := F) 15 15) (after (stretch (F := F) 0 15) (W))))) := after_drop_split _ 31 14 45 rfl _
      _ = after ((ops (F := F)).drop 46) (after (stretch (F := F) 45 1) (after (stretch (F := F) 31 14) (after (stretch (F := F) 30 1) (after (stretch (F := F) 15 15) (after (stretch (F := F) 0 15) (W)))))) := after_drop_split _ 45 1 46 rfl _
      _ = after ((ops (F := F)).drop 60) (after (stretch (F := F) 46 14) (after (stretch (F := F) 45 1) (after (stretch (F := F) 31 14) (after (stretch (F := F) 30 1) (after (stretch (F := F) 15 15) (after (stretch (F := F) 0 15) (W))))))) := after_drop_split _ 46 14 60 rfl _
      _ = after ((ops (F := F)).drop 93) (after (stretch (F := F) 60 33) (after (stretch (F := F) 46 14) (after (stretch (F := F) 45 1) (after (stretch (F := F) 31 14) (after (stretch (F := F) 30 1) (after (stretch (F := F) 15 15) (after (stretch (F := F) 0 15) (W)))))))) := after_drop_split _ 60 33 93 rfl _
      _ = after ((ops (F := F)).drop 110) (after (stretch (F := F) 93 17) (after (stretch (F := F) 60 33) (after (stretch (F := F) 46 14) (after (stretch (F := F) 45 1) (after (stretch (F := F) 31 14) (after (stretch (F := F) 30 1) (after (stretch (F := F) 15 15) (after (stretch (F := F) 0 15) (W))))))))) := after_drop_split _ 93 17 110 rfl _
      _ = after ((ops (F := F)).drop 127) (after (stretch (F := F) 110 17) (after (stretch (F := F) 93 17) (after (stretch (F := F) 60 33) (after (stretch (F := F) 46 14) (after (stretch (F := F) 45 1) (after (stretch (F := F) 31 14) (after (stretch (F := F) 30 1) (after (stretch (F := F) 15 15) (after (stretch (F := F) 0 15) (W)))))))))) := after_drop_split _ 110 17 127 rfl _
      _ = after ((ops (F := F)).drop 137) (after (stretch (F := F) 127 10) (after (stretch (F := F) 110 17) (after (stretch (F := F) 93 17) (after (stretch (F := F) 60 33) (after (stretch (F := F) 46 14) (after (stretch (F := F) 45 1) (after (stretch (F := F) 31 14) (after (stretch (F := F) 30 1) (after (stretch (F := F) 15 15) (after (stretch (F := F) 0 15) (W))))))))))) := after_drop_split _ 127 10 137 rfl _
      _ = _ := by rw [show ((ops (F := F)).drop 137) = [] from rfl, after_nil]
  rw [e]
  have ⟨f1_0, f1_1, f1_2, f1_3⟩ := stretch1 (W) (W (Proc.devRef .tc main_arg0)) (W (Proc.devRef .tc main_arg1)) (W (Proc.devRef .tc main_arg2)) (W (Proc.devRef .tc main_arg3)) rfl rfl rfl rfl
  have ⟨f2_0, f2_1, f2_2, f2_3, f2_4⟩ := stretch2 (after (stretch (F := F) 0 15) (W)) (W (Proc.devRef .tc main_arg0)) (W (Proc.devRef .tc main_arg1)) (W (Proc.devRef .tc main_arg2)) (W (Proc.devRef .tc main_arg3)) f1_0 f1_1 f1_2 f1_3
  have ⟨f3_0, f3_1, f3_2, f3_3, f3_4⟩ := stretch3 (after (stretch (F := F) 15 15) (after (stretch (F := F) 0 15) (W))) (W (Proc.devRef .tc main_arg0)) (W (Proc.devRef .tc main_arg1)) (W (Proc.devRef .tc main_arg2)) (W (Proc.devRef .tc main_arg3)) f2_0 f2_1 f2_2 f2_3 f2_4
  have ⟨f4_0, f4_1, f4_2, f4_3⟩ := stretch4 (after (stretch (F := F) 30 1) (after (stretch (F := F) 15 15) (after (stretch (F := F) 0 15) (W)))) (W (Proc.devRef .tc main_arg0)) (W (Proc.devRef .tc main_arg1)) (W (Proc.devRef .tc main_arg2)) (W (Proc.devRef .tc main_arg3)) f3_0 f3_1 f3_2 f3_3 f3_4
  have ⟨f5_0, f5_1, f5_2, f5_3⟩ := stretch5 (after (stretch (F := F) 31 14) (after (stretch (F := F) 30 1) (after (stretch (F := F) 15 15) (after (stretch (F := F) 0 15) (W))))) (W (Proc.devRef .tc main_arg0)) (W (Proc.devRef .tc main_arg1)) (W (Proc.devRef .tc main_arg2)) (W (Proc.devRef .tc main_arg3)) f4_0 f4_1 f4_2 f4_3
  have ⟨f6_0, f6_1, f6_2⟩ := stretch6 (after (stretch (F := F) 45 1) (after (stretch (F := F) 31 14) (after (stretch (F := F) 30 1) (after (stretch (F := F) 15 15) (after (stretch (F := F) 0 15) (W)))))) (W (Proc.devRef .tc main_arg0)) (W (Proc.devRef .tc main_arg1)) (W (Proc.devRef .tc main_arg2)) (W (Proc.devRef .tc main_arg3)) f5_0 f5_1 f5_2 f5_3
  have ⟨f7_0, f7_1, f7_2, f7_3, f7_4⟩ := stretch7 (after (stretch (F := F) 46 14) (after (stretch (F := F) 45 1) (after (stretch (F := F) 31 14) (after (stretch (F := F) 30 1) (after (stretch (F := F) 15 15) (after (stretch (F := F) 0 15) (W))))))) (W (Proc.devRef .tc main_arg0)) (W (Proc.devRef .tc main_arg1)) (W (Proc.devRef .tc main_arg2)) (W (Proc.devRef .tc main_arg3)) f6_0 f6_1 f6_2
  have ⟨f8_0, f8_1, f8_2, f8_3, f8_4⟩ := stretch8 (after (stretch (F := F) 60 33) (after (stretch (F := F) 46 14) (after (stretch (F := F) 45 1) (after (stretch (F := F) 31 14) (after (stretch (F := F) 30 1) (after (stretch (F := F) 15 15) (after (stretch (F := F) 0 15) (W)))))))) (W (Proc.devRef .tc main_arg0)) (W (Proc.devRef .tc main_arg1)) (W (Proc.devRef .tc main_arg2)) (W (Proc.devRef .tc main_arg3)) f7_0 f7_1 f7_2 f7_3 f7_4
  have ⟨f9_0, f9_1, f9_2, f9_3, f9_4⟩ := stretch9 (after (stretch (F := F) 93 17) (after (stretch (F := F) 60 33) (after (stretch (F := F) 46 14) (after (stretch (F := F) 45 1) (after (stretch (F := F) 31 14) (after (stretch (F := F) 30 1) (after (stretch (F := F) 15 15) (after (stretch (F := F) 0 15) (W))))))))) (W (Proc.devRef .tc main_arg0)) (W (Proc.devRef .tc main_arg1)) (W (Proc.devRef .tc main_arg2)) (W (Proc.devRef .tc main_arg3)) f8_0 f8_1 f8_2 f8_3 f8_4
  have f10_0 := stretch10 (after (stretch (F := F) 110 17) (after (stretch (F := F) 93 17) (after (stretch (F := F) 60 33) (after (stretch (F := F) 46 14) (after (stretch (F := F) 45 1) (after (stretch (F := F) 31 14) (after (stretch (F := F) 30 1) (after (stretch (F := F) 15 15) (after (stretch (F := F) 0 15) (W)))))))))) (W (Proc.devRef .tc main_arg0)) (W (Proc.devRef .tc main_arg1)) (W (Proc.devRef .tc main_arg2)) (W (Proc.devRef .tc main_arg3)) f9_0 f9_1 f9_2 f9_3 f9_4
  exact f10_0

/-- No operation writes an argument. -/
theorem after_arg0 (W : Valuation τ sig (Elt F)) : after (ops (F := F)) W (Proc.devRef .tc main_arg0) = W (Proc.devRef .tc main_arg0) := by
  after_results_simp <;> rfl
theorem after_arg1 (W : Valuation τ sig (Elt F)) : after (ops (F := F)) W (Proc.devRef .tc main_arg1) = W (Proc.devRef .tc main_arg1) := by
  after_results_simp <;> rfl
theorem after_arg2 (W : Valuation τ sig (Elt F)) : after (ops (F := F)) W (Proc.devRef .tc main_arg2) = W (Proc.devRef .tc main_arg2) := by
  after_results_simp <;> rfl
theorem after_arg3 (W : Valuation τ sig (Elt F)) : after (ops (F := F)) W (Proc.devRef .tc main_arg3) = W (Proc.devRef .tc main_arg3) := by
  after_results_simp <;> rfl

/-- On every device, from any memory with zero counters: every weakly fair execution of the reference terminates with
    the result at the last stage of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49)
        = val_main_v49 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v49).trans (after_ops _), (h c main_arg0).trans (after_arg0 _),
      (h c main_arg1).trans (after_arg1 _), (h c main_arg2).trans (after_arg2 _), (h c main_arg3).trans (after_arg3 _)⟩)
    (run_seq scopedRefs_eq scopedSems_eq defs main (fun _ => ops) main_eq (fun _ => ops_sub) m ρ)

end Cert.ReferenceIdeal.RefRun

end
-- ==== Proof.PreDecode.lean ====
/-
  The precondition, decoded: when the printed predicate is all ones, every logit is a real number (its absolute value is
  below +∞) and every LM label, read as a signed word, is at least -1 and below 30522: it is the word of -1 or a column
  number.
-/
import proofs.«411738_j39814346834260_2_alg».proof.Pre_finite_inputs
import proofs.«411738_j39814346834260_2_alg».proof.Proof.Spec
import Idealize.ShloMosaic.PureOps.Ideal.Laws
import Idealize.ShloMosaic.Lib.ReduceAll
import Idealize.ShloMosaic.Lib.WordArith
import Idealize.ShloMosaic.Lib.StableHlo.Predicate

set_option maxRecDepth 16384

noncomputable section

namespace Cert.PreDecode

open Idealize.ShloMosaic Idealize.ShloMosaic.ValueIdx

variable [Cert.Pre_finite_inputs.Facts]

/-- The rank-0 shape has one index. -/
private instance : Subsingleton Cert.Pre_finite_inputs.S_.Idx := ⟨fun a b => funext fun d => d.elim0⟩

/-- The word 0x7F800000 is +∞. -/
private theorem top_f32 : Ideal.ofBits .f32 0x7F800000#32 = ⊤ := by simp [Ideal.ofBits, Ideal.ieee]

/-- A Boolean whose one-bit word is 1 is true. -/
private theorem ofBool_one {b : Bool} (h : BitVec.ofBool b = 1#1) : b = true := by
  cases b
  · exact absurd h (by decide)
  · rfl

/-- |x| < +∞ says x is neither infinity. -/
private theorem finite_of_abs_lt (x : EReal)
    (h : Ideal.cmp .olt (max x (-x)) (Ideal.ofBits .f32 0x7F800000#32) = 1#1) : x ≠ ⊤ ∧ x ≠ ⊥ := by
  rw [top_f32] at h
  unfold Ideal.cmp at h
  have hlt : max x (-x) < ⊤ := of_decide_eq_true (ofBool_one h)
  rw [max_lt_iff] at hlt
  refine ⟨ne_of_lt hlt.1, ?_⟩
  rintro rfl
  simp at hlt

/-- A signed word at least -1 and below 30522 is the word of -1 or a natural number below 30522. -/
private theorem word_range (l : BitVec 32) (h1 : (4294967295#32 : BitVec 32).toInt ≤ l.toInt)
    (h2 : l.toInt < (30522#32 : BitVec 32).toInt) : l = 4294967295#32 ∨ l.toNat < 30522 := by
  have e1 : (4294967295#32 : BitVec 32).toInt = -1 := by decide
  have e2 : (30522#32 : BitVec 32).toInt = 30522 := by decide
  rw [e1] at h1
  rw [e2] at h2
  have hl := l.isLt
  rw [BitVec.toInt_eq_toNat_cond] at h1 h2
  by_cases hc : 2 * l.toNat < 2 ^ 32
  · rw [if_pos hc] at h1 h2
    right; omega
  · rw [if_neg hc] at h1 h2
    left
    apply BitVec.eq_of_toNat_eq
    show l.toNat = 4294967295
    omega

theorem finite_of_pre (X : Cert.Spec.SX.Idx → EReal) (B : Cert.Spec.SB.Idx → EReal) (Lb : Cert.Spec.SL.Idx → BitVec 32)
    (Y : Cert.Spec.SY.Idx → BitVec 32) (h : Cert.Pre_finite_inputs.fn (F := Ideal) X B Lb Y = fun _ => 1#1) :
    ∀ i, X i ≠ ⊤ ∧ X i ≠ ⊥ := by
  intro i
  have e := congrFun h ValueIdx.ix0
  dsimp only [Cert.Pre_finite_inputs.fn] at e
  obtain ⟨⟨hX, -⟩, -⟩ := (IntOp.andi_eq_one.1 e).imp_left IntOp.andi_eq_one.1
  exact finite_of_abs_lt (X i) (Host.reduce_andi_all _ _ _ _ _ hX i)

theorem labels_of_pre (X : Cert.Spec.SX.Idx → EReal) (B : Cert.Spec.SB.Idx → EReal) (Lb : Cert.Spec.SL.Idx → BitVec 32)
    (Y : Cert.Spec.SY.Idx → BitVec 32) (h : Cert.Pre_finite_inputs.fn (F := Ideal) X B Lb Y = fun _ => 1#1) :
    ∀ r : Fin 4096, Lb (ix1 r) = 4294967295#32 ∨ (Lb (ix1 r)).toNat < 30522 := by
  intro r
  have e := congrFun h ValueIdx.ix0
  dsimp only [Cert.Pre_finite_inputs.fn] at e
  obtain ⟨-, hL⟩ := IntOp.andi_eq_one.1 e
  have hr := Host.reduce_andi_all _ _ _ _ _ hL (ix1 r)
  obtain ⟨h1, h2⟩ := IntOp.andi_eq_one.1 hr
  exact word_range (Lb (ix1 r)) (IntOp.cmpi_sge.1 h1) (IntOp.cmpi_slt.1 h2)

end Cert.PreDecode

end
-- ==== Proof.lean ====
/-
  The certificate of the two-headed loss: a masked cross-entropy over 4096 rows of 30522 logits (mean over the rows whose
  label is not -1) plus a pairwise softplus loss over the Gram matrix of 256 feature rows.

  Both idealized programs compute, over the extended reals, one function of the four argument arrays (Proof/Spec.lean). The
  kernel computes the LM head in two cores of 32 tiles of 64 rows, each tile adding its rows' terms into a per-core
  accumulator, and the blank head in one block; the reference computes both in whole-array operations. The sums agree by
  re-association alone. The one law that needs the precondition is the row's negative log-likelihood: the kernel forms
  (m + log s) - x and the reference -((x - m) - log s), equal when the logit x and the row maximum m are real numbers; and
  the kernel's match of the label against the column numbers meets the reference's gather at the label when the label is -1
  or a column number.

  The three frames are the generated ones (the reference's is its run with the result dropped); the idealization rewrote
  nothing, so preserves is trivial.
-/
import proofs.«411738_j39814346834260_2_alg».proof.Defs
import proofs.«411738_j39814346834260_2_alg».proof.Proof.Gen.Kernel
import proofs.«411738_j39814346834260_2_alg».proof.Proof.Gen.Kernel.Frame
import proofs.«411738_j39814346834260_2_alg».proof.Proof.Gen.KernelIdeal
import proofs.«411738_j39814346834260_2_alg».proof.Proof.Gen.KernelIdeal.Frame
import proofs.«411738_j39814346834260_2_alg».proof.Proof.Gen.ReferenceIdeal
import proofs.«411738_j39814346834260_2_alg».proof.Proof.Gen.Pre_finite_inputs
import proofs.«411738_j39814346834260_2_alg».proof.Proof.KernelValue
import proofs.«411738_j39814346834260_2_alg».proof.Proof.RefValue
import proofs.«411738_j39814346834260_2_alg».proof.Proof.RefRunHand
import proofs.«411738_j39814346834260_2_alg».proof.Proof.PreDecode

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both runs end at the loss of the arguments: the kernel's by its value, the reference's by its stages read under the
    precondition's two facts (finite logits, labels -1 or a column number), the arguments agreeing. -/
theorem algebraic : Cert.algebraic_KernelIdeal_ReferenceIdeal := by
  intro m ρ m' ρ' hpre hagree
  refine ⟨fun c => fun _ => Cert.Spec.loss (Cert.KernelIdeal.Val.argX m c) (Cert.KernelIdeal.Val.argB m c)
    (Cert.KernelIdeal.Val.argL m c) (Cert.KernelIdeal.Val.argY m c), Cert.KernelIdeal.Val.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.RefVal.ref_val _ _ _ _ (Cert.PreDecode.finite_of_pre _ _ _ _ (hpre c))
    (Cert.PreDecode.labels_of_pre _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
